-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x3 : Shape := ⟨2, ![8388608, 3]⟩
abbrev S128x128x128x4 : Shape := ⟨4, ![128, 128, 128, 4]⟩
abbrev S_ : Shape := ⟨0, ![]⟩

class Facts : Prop where
  bcast_S_S8388608x3 : S_.BroadcastsInDim S8388608x3 (![] : Fin 0 → Fin S8388608x3.rank)
  reducesTo_S8388608x3_S_d0_1 : S8388608x3.ReducesTo [0, 1] S_
  h_S_ : 0 < S_.numel
  bcast_S_S128x128x128x4 : S_.BroadcastsInDim S128x128x128x4 (![] : Fin 0 → Fin S128x128x128x4.rank)
  reducesTo_S128x128x128x4_S_d0_1_2_3 : S128x128x128x4.ReducesTo [0, 1, 2, 3] S_

variable [Facts]

def fn {F : FTy → Type} [FloatOps F] (main_arg0 : FVec F S8388608x3 .f32) (main_arg1 : FVec F S128x128x128x4 .f32) : IVec S_ 1 :=
  let main_v0 : FVec F S8388608x3 .f32 := Host.absf main_arg0
  let main_cst : FVec F S_ .f32 := constant S_ .f32 0x7F800000#32
  let main_v1 : FVec F S8388608x3 .f32 := broadcastInDim S8388608x3 ![] bcast_S_S8388608x3 main_cst
  let main_v2 : IVec S8388608x3 1 := cmpf .olt main_v0 main_v1
  let main_c : IVec S_ 1 := constantI S_ 1 1#1
  let main_v3 : IVec S_ 1 := (fun x v => Host.reduce IntOp.andi x v reducesTo_S8388608x3_S_d0_1 h_S_) main_v2 main_c
  let main_v4 : FVec F S128x128x128x4 .f32 := Host.absf main_arg1
  let main_cst_0 : FVec F S_ .f32 := constant S_ .f32 0x7F800000#32
  let main_v5 : FVec F S128x128x128x4 .f32 := broadcastInDim S128x128x128x4 ![] bcast_S_S128x128x128x4 main_cst_0
  let main_v6 : IVec S128x128x128x4 1 := cmpf .olt main_v4 main_v5
  let main_c_1 : IVec S_ 1 := constantI S_ 1 1#1
  let main_v7 : IVec S_ 1 := (fun x v => Host.reduce IntOp.andi x v reducesTo_S128x128x128x4_S_d0_1_2_3 h_S_) main_v6 main_c_1
  let main_v8 : IVec S_ 1 := andi main_v3 main_v7
  main_v8
-- ==== Kernel.lean ====
abbrev S8388608x3 : Shape := ⟨2, ![8388608, 3]⟩
abbrev S128x128x128x4 : Shape := ⟨4, ![128, 128, 128, 4]⟩
abbrev S8388608x1 : Shape := ⟨2, ![8388608, 1]⟩
abbrev S8388608 : Shape := ⟨1, ![8388608]⟩
abbrev S_ : Shape := ⟨0, ![]⟩
abbrev S2097152x4 : Shape := ⟨2, ![2097152, 4]⟩
abbrev S4x2097152 : Shape := ⟨2, ![4, 2097152]⟩
abbrev S4x1 : Shape := ⟨2, ![4, 1]⟩
abbrev S4x2097153 : Shape := ⟨2, ![4, 2097153]⟩
abbrev S1 : Shape := ⟨1, ![1]⟩
abbrev S1x1 : Shape := ⟨2, ![1, 1]⟩
abbrev S4x8388608 : Shape := ⟨2, ![4, 8388608]⟩
abbrev S4x131072 : Shape := ⟨2, ![4, 131072]⟩
abbrev S1x131072 : Shape := ⟨2, ![1, 131072]⟩
abbrev S131072 : Shape := ⟨1, ![131072]⟩
abbrev S8388608x4 : Shape := ⟨2, ![8388608, 4]⟩

abbrev nBuf : Space → Nat
  | .hbm => 165
  | .vmem => 4
  | .smem => 0
  | _ => 0

abbrev hbmTy0_0 (i : Nat) : BufTy := match i % 128 with
  | 0 => ⟨S8388608x3, .f32⟩
  | 1 => ⟨S128x128x128x4, .f32⟩
  | 2 => ⟨S8388608x1, .f32⟩
  | 3 => ⟨S8388608, .f32⟩
  | 4 => ⟨S8388608x1, .f32⟩
  | 5 => ⟨S8388608, .f32⟩
  | 6 => ⟨S8388608x1, .f32⟩
  | 7 => ⟨S8388608, .f32⟩
  | 8 => ⟨S8388608, .f32⟩
  | 9 => ⟨S_, .f32⟩
  | 10 => ⟨S8388608, .f32⟩
  | 11 => ⟨S8388608, .i1⟩
  | 12 => ⟨S8388608, .f32⟩
  | 13 => ⟨S_, .f32⟩
  | 14 => ⟨S8388608, .f32⟩
  | 15 => ⟨S8388608, .i1⟩
  | 16 => ⟨S8388608, .i1⟩
  | 17 => ⟨S8388608, .f32⟩
  | 18 => ⟨S_, .f32⟩
  | 19 => ⟨S8388608, .f32⟩
  | 20 => ⟨S8388608, .i1⟩
  | 21 => ⟨S8388608, .i1⟩
  | 22 => ⟨S_, .f32⟩
  | 23 => ⟨S8388608, .f32⟩
  | 24 => ⟨S8388608, .f32⟩
  | 25 => ⟨S_, .f32⟩
  | 26 => ⟨S8388608, .f32⟩
  | 27 => ⟨S8388608, .f32⟩
  | 28 => ⟨S8388608, .f32⟩
  | 29 => ⟨S8388608, .i32⟩
  | 30 => ⟨S_, .i32⟩
  | 31 => ⟨S8388608, .i32⟩
  | 32 => ⟨S8388608, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S8388608, .i32⟩
  | 40 => ⟨S8388608, .i32⟩
  | 41 => ⟨S_, .i32⟩
  | 42 => ⟨S8388608, .i32⟩
  | 43 => ⟨S8388608, .i1⟩
  | 44 => ⟨S_, .i32⟩
  | 45 => ⟨S8388608, .i32⟩
  | 46 => ⟨S8388608, .i1⟩
  | 47 => ⟨S_, .i32⟩
  | 48 => ⟨S_, .i1⟩
  | 49 => ⟨S8388608, .i1⟩
  | 50 => ⟨S8388608, .i1⟩
  | 51 => ⟨S8388608, .i1⟩
  | 52 => ⟨S8388608, .i32⟩
  | 53 => ⟨S8388608, .i32⟩
  | 54 => ⟨S8388608, .i32⟩
  | 55 => ⟨S_, .f32⟩
  | 56 => ⟨S8388608, .f32⟩
  | 57 => ⟨S8388608, .f32⟩
  | 58 => ⟨S_, .f32⟩
  | 59 => ⟨S8388608, .f32⟩
  | 60 => ⟨S8388608, .f32⟩
  | 61 => ⟨S8388608, .f32⟩
  | 62 => ⟨S8388608, .i32⟩
  | 63 => ⟨S_, .i32⟩
  | 64 => ⟨S8388608, .i32⟩
  | 65 => ⟨S8388608, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S8388608, .i32⟩
  | 73 => ⟨S8388608, .i32⟩
  | 74 => ⟨S_, .i32⟩
  | 75 => ⟨S8388608, .i32⟩
  | 76 => ⟨S8388608, .i1⟩
  | 77 => ⟨S_, .i32⟩
  | 78 => ⟨S8388608, .i32⟩
  | 79 => ⟨S8388608, .i1⟩
  | 80 => ⟨S_, .i32⟩
  | 81 => ⟨S_, .i1⟩
  | 82 => ⟨S8388608, .i1⟩
  | 83 => ⟨S8388608, .i1⟩
  | 84 => ⟨S8388608, .i1⟩
  | 85 => ⟨S8388608, .i32⟩
  | 86 => ⟨S8388608, .i32⟩
  | 87 => ⟨S8388608, .i32⟩
  | 88 => ⟨S_, .f32⟩
  | 89 => ⟨S8388608, .f32⟩
  | 90 => ⟨S8388608, .f32⟩
  | 91 => ⟨S_, .f32⟩
  | 92 => ⟨S8388608, .f32⟩
  | 93 => ⟨S8388608, .f32⟩
  | 94 => ⟨S8388608, .f32⟩
  | 95 => ⟨S8388608, .i32⟩
  | 96 => ⟨S_, .i32⟩
  | 97 => ⟨S8388608, .i32⟩
  | 98 => ⟨S8388608, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S8388608, .i32⟩
  | 106 => ⟨S8388608, .i32⟩
  | 107 => ⟨S_, .i32⟩
  | 108 => ⟨S8388608, .i32⟩
  | 109 => ⟨S8388608, .i1⟩
  | 110 => ⟨S_, .i32⟩
  | 111 => ⟨S8388608, .i32⟩
  | 112 => ⟨S8388608, .i1⟩
  | 113 => ⟨S_, .i32⟩
  | 114 => ⟨S_, .i1⟩
  | 115 => ⟨S8388608, .i1⟩
  | 116 => ⟨S8388608, .i1⟩
  | 117 => ⟨S8388608, .i1⟩
  | 118 => ⟨S8388608, .i32⟩
  | 119 => ⟨S8388608, .i32⟩
  | 120 => ⟨S8388608, .i32⟩
  | 121 => ⟨S_, .i32⟩
  | 122 => ⟨S8388608, .i32⟩
  | 123 => ⟨S8388608, .i32⟩
  | 124 => ⟨S_, .i32⟩
  | 125 => ⟨S8388608, .i32⟩
  | 126 => ⟨S8388608, .i32⟩
  | 127 => ⟨S8388608, .i32⟩
  | _ => ⟨S8388608x3, .f32⟩

abbrev hbmTy0_1 (i : Nat) : BufTy := match i % 128 with
  | 0 => ⟨S8388608, .i32⟩
  | 1 => ⟨S_, .i32⟩
  | 2 => ⟨S_, .i32⟩
  | 3 => ⟨S8388608, .i32⟩
  | 4 => ⟨S8388608, .i32⟩
  | 5 => ⟨S2097152x4, .f32⟩
  | 6 => ⟨S4x2097152, .f32⟩
  | 7 => ⟨S_, .f32⟩
  | 8 => ⟨S4x1, .f32⟩
  | 9 => ⟨S4x2097153, .f32⟩
  | 10 => ⟨S_, .i32⟩
  | 11 => ⟨S8388608, .i32⟩
  | 12 => ⟨S8388608, .i1⟩
  | 13 => ⟨S_, .i32⟩
  | 14 => ⟨S8388608, .i32⟩
  | 15 => ⟨S8388608, .i32⟩
  | 16 => ⟨S8388608, .i32⟩
  | 17 => ⟨S8388608x1, .i32⟩
  | 18 => ⟨S1, .i32⟩
  | 19 => ⟨S_, .i32⟩
  | 20 => ⟨S8388608x1, .i32⟩
  | 21 => ⟨S8388608x1, .i1⟩
  | 22 => ⟨S1x1, .i32⟩
  | 23 => ⟨S8388608x1, .i32⟩
  | 24 => ⟨S8388608x1, .i1⟩
  | 25 => ⟨S8388608x1, .i1⟩
  | 26 => ⟨S_, .i1⟩
  | 27 => ⟨S8388608, .i1⟩
  | 28 => ⟨S4x8388608, .f32⟩
  | 29 => ⟨S4x8388608, .i1⟩
  | 30 => ⟨S_, .f32⟩
  | 31 => ⟨S4x8388608, .f32⟩
  | 32 => ⟨S4x8388608, .f32⟩
  | 33 => ⟨S4x8388608, .f32⟩
  | 34 => ⟨S8388608x4, .f32⟩
  | 35 => ⟨S8388608x3, .f32⟩
  | 36 => ⟨S8388608x1, .f32⟩
  | _ => ⟨S8388608x3, .f32⟩

abbrev hbmTy (i : Nat) : BufTy := match i / 128 with
  | 0 => hbmTy0_0 i
  | 1 => hbmTy0_1 i
  | _ => ⟨S8388608x3, .f32⟩

abbrev bufTy : (tb : Table) → Fin (tcTables nBuf tb) → BufTy
  | .hbm, ⟨i, _⟩ => hbmTy i
  | .local _ .vmem, ⟨0, _⟩ => ⟨S4x131072, .f32⟩
  | .local _ .vmem, ⟨1, _⟩ => ⟨S4x131072, .f32⟩
  | .local _ .vmem, ⟨2, _⟩ => ⟨S4x131072, .f32⟩
  | .local _ .vmem, ⟨3, _⟩ => ⟨S4x131072, .f32⟩
  | _, _ => ⟨S8388608x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_c_4 : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_c_1 : Ref sig .tc := ⟨.hbm, 41, rfl⟩
abbrev main_call0_v5 : Ref sig .tc := ⟨.hbm, 42, rfl⟩
abbrev main_call0_v6 : Ref sig .tc := ⟨.hbm, 43, rfl⟩
abbrev main_call0_c_2 : Ref sig .tc := ⟨.hbm, 44, rfl⟩
abbrev main_call0_v7 : Ref sig .tc := ⟨.hbm, 45, rfl⟩
abbrev main_call0_v8 : Ref sig .tc := ⟨.hbm, 46, rfl⟩
abbrev main_call0_c_3 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_v25 : Ref sig .tc := ⟨.hbm, 54, rfl⟩
abbrev main_cst_5 : Ref sig .tc := ⟨.hbm, 55, rfl⟩
abbrev main_v26 : Ref sig .tc := ⟨.hbm, 56, rfl⟩
abbrev main_v27 : Ref sig .tc := ⟨.hbm, 57, rfl⟩
abbrev main_cst_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_7 : Ref sig .tc := ⟨.hbm, 63, rfl⟩
abbrev main_v32 : Ref sig .tc := ⟨.hbm, 64, rfl⟩
abbrev main_v33 : Ref sig .tc := ⟨.hbm, 65, rfl⟩
abbrev main_c_8 : Ref sig .tc := ⟨.hbm, 66, rfl⟩
abbrev main_call1_v0 : Ref sig .tc := ⟨.hbm, 67, rfl⟩
abbrev main_call1_c : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_c_1 : Ref sig .tc := ⟨.hbm, 74, rfl⟩
abbrev main_call1_v5 : Ref sig .tc := ⟨.hbm, 75, rfl⟩
abbrev main_call1_v6 : Ref sig .tc := ⟨.hbm, 76, rfl⟩
abbrev main_call1_c_2 : Ref sig .tc := ⟨.hbm, 77, rfl⟩
abbrev main_call1_v7 : Ref sig .tc := ⟨.hbm, 78, rfl⟩
abbrev main_call1_v8 : Ref sig .tc := ⟨.hbm, 79, rfl⟩
abbrev main_call1_c_3 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_v34 : Ref sig .tc := ⟨.hbm, 87, rfl⟩
abbrev main_cst_9 : Ref sig .tc := ⟨.hbm, 88, rfl⟩
abbrev main_v35 : Ref sig .tc := ⟨.hbm, 89, rfl⟩
abbrev main_v36 : Ref sig .tc := ⟨.hbm, 90, rfl⟩
abbrev main_cst_10 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_c_11 : Ref sig .tc := ⟨.hbm, 96, rfl⟩
abbrev main_v41 : Ref sig .tc := ⟨.hbm, 97, rfl⟩
abbrev main_v42 : Ref sig .tc := ⟨.hbm, 98, rfl⟩
abbrev main_c_12 : Ref sig .tc := ⟨.hbm, 99, rfl⟩
abbrev main_call2_v0 : Ref sig .tc := ⟨.hbm, 100, rfl⟩
abbrev main_call2_c : Ref sig .tc := ⟨.hbm, 101, rfl⟩
abbrev main_call2_v1 : Ref sig .tc := ⟨.hbm, 102, rfl⟩
abbrev main_call2_c_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_c_1 : Ref sig .tc := ⟨.hbm, 107, rfl⟩
abbrev main_call2_v5 : Ref sig .tc := ⟨.hbm, 108, rfl⟩
abbrev main_call2_v6 : Ref sig .tc := ⟨.hbm, 109, rfl⟩
abbrev main_call2_c_2 : Ref sig .tc := ⟨.hbm, 110, rfl⟩
abbrev main_call2_v7 : Ref sig .tc := ⟨.hbm, 111, rfl⟩
abbrev main_call2_v8 : Ref sig .tc := ⟨.hbm, 112, rfl⟩
abbrev main_call2_c_3 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_v12 : Ref sig .tc := ⟨.hbm, 117, rfl⟩
abbrev main_call2_v13 : Ref sig .tc := ⟨.hbm, 118, rfl⟩
abbrev main_call2_v14 : Ref sig .tc := ⟨.hbm, 119, rfl⟩
abbrev main_v43 : Ref sig .tc := ⟨.hbm, 120, rfl⟩
abbrev main_c_13 : Ref sig .tc := ⟨.hbm, 121, rfl⟩
abbrev main_v44 : Ref sig .tc := ⟨.hbm, 122, rfl⟩
abbrev main_v45 : Ref sig .tc := ⟨.hbm, 123, rfl⟩
abbrev main_c_14 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_c_15 : Ref sig .tc := ⟨.hbm, 129, rfl⟩
abbrev main_call3_v0 : Ref sig .tc := ⟨.hbm, 130, rfl⟩
abbrev main_call3_v1 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_cst_16 : Ref sig .tc := ⟨.hbm, 135, rfl⟩
abbrev main_v53 : Ref sig .tc := ⟨.hbm, 136, rfl⟩
abbrev main_v54 : Ref sig .tc := ⟨.hbm, 137, rfl⟩
abbrev main_call4_c : Ref sig .tc := ⟨.hbm, 138, rfl⟩
abbrev main_call4_v0 : Ref sig .tc := ⟨.hbm, 139, rfl⟩
abbrev main_call4_v1 : Ref sig .tc := ⟨.hbm, 140, rfl⟩
abbrev main_call4_c_0 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_call4_v5 : Ref sig .tc := ⟨.hbm, 145, rfl⟩
abbrev main_call4_c_1 : Ref sig .tc := ⟨.hbm, 146, rfl⟩
abbrev main_call4_c_2 : Ref sig .tc := ⟨.hbm, 147, rfl⟩
abbrev main_call4_v6 : Ref sig .tc := ⟨.hbm, 148, rfl⟩
abbrev main_call4_v7 : Ref sig .tc := ⟨.hbm, 149, rfl⟩
abbrev main_call4_v8 : Ref sig .tc := ⟨.hbm, 150, rfl⟩
abbrev main_call4_v9 : Ref sig .tc := ⟨.hbm, 151, rfl⟩
abbrev main_call4_v10 : Ref sig .tc := ⟨.hbm, 152, rfl⟩
abbrev main_call4_v11 : Ref sig .tc := ⟨.hbm, 153, rfl⟩
abbrev main_call4_c_3 : Ref sig .tc := ⟨.hbm, 154, rfl⟩
abbrev main_call4_v12 : Ref sig .tc := ⟨.hbm, 155, rfl⟩
abbrev main_call4_v13 : Ref sig .tc := ⟨.hbm, 156, rfl⟩
abbrev main_call4_v14 : Ref sig .tc := ⟨.hbm, 157, rfl⟩
abbrev main_call4_cst : Ref sig .tc := ⟨.hbm, 158, rfl⟩
abbrev main_call4_v15 : Ref sig .tc := ⟨.hbm, 159, rfl⟩
abbrev main_v55 : Ref sig .tc := ⟨.hbm, 160, rfl⟩
abbrev main_v56 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S8388608x3_S8388608x1_0_0 : S8388608x3.Slices ![0, 0] S8388608x1
  shapeCasts_S8388608x1_S8388608 : S8388608x1.ShapeCasts S8388608
  slices_S8388608x3_S8388608x1_0_1 : S8388608x3.Slices ![0, 1] S8388608x1
  slices_S8388608x3_S8388608x1_0_2 : S8388608x3.Slices ![0, 2] S8388608x1
  bcast_S_S8388608 : S_.BroadcastsInDim S8388608 (![] : Fin 0 → Fin S8388608.rank)
  shapeCasts_S128x128x128x4_S2097152x4 : S128x128x128x4.ShapeCasts S2097152x4
  transposes_S2097152x4_S4x2097152_1_0 : S2097152x4.Transposes [1, 0] S4x2097152
  bcast_S_S4x1 : S_.BroadcastsInDim S4x1 (![] : Fin 0 → Fin S4x1.rank)
  concatenates_S4x2097152_S4x1_S4x2097153_d1 : Shape.Concatenates [S4x2097152, S4x1] S4x2097153 1
  bcast_S8388608_S8388608x1_0 : S8388608.BroadcastsInDim S8388608x1 (![0] : Fin 1 → Fin S8388608x1.rank)
  bcast_S_S8388608x1 : S_.BroadcastsInDim S8388608x1 (![] : Fin 0 → Fin S8388608x1.rank)
  bcast_S1_S1x1_1 : S1.BroadcastsInDim S1x1 (![1] : Fin 1 → Fin S1x1.rank)
  bcast_S1x1_S8388608x1_0_1 : S1x1.BroadcastsInDim S8388608x1 (![0, 1] : Fin 2 → Fin S8388608x1.rank)
  reducesTo_S8388608x1_S8388608_d1 : S8388608x1.ReducesTo [1] S8388608
  h_S_ : 0 < S_.numel
  bcast_S8388608_S4x8388608_1 : S8388608.BroadcastsInDim S4x8388608 (![1] : Fin 1 → Fin S4x8388608.rank)
  bcast_S_S4x8388608 : S_.BroadcastsInDim S4x8388608 (![] : Fin 0 → Fin S4x8388608.rank)
  inb_S4x131072_S1x131072_0_0 : ∀ a, (![0, 0] : Fin 2 → Nat) a + S1x131072.size a ≤ S4x131072.size a
  h_S1x131072 : 0 < S1x131072.numel
  shapeCasts_S1x131072_S131072 : S1x131072.ShapeCasts S131072
  inb_S4x131072_S1x131072_1_0 : ∀ a, (![1, 0] : Fin 2 → Nat) a + S1x131072.size a ≤ S4x131072.size a
  inb_S4x131072_S1x131072_2_0 : ∀ a, (![2, 0] : Fin 2 → Nat) a + S1x131072.size a ≤ S4x131072.size a
  inb_S4x131072_S1x131072_3_0 : ∀ a, (![3, 0] : Fin 2 → Nat) a + S1x131072.size a ≤ S4x131072.size a
  shapeCasts_S131072_S1x131072 : S131072.ShapeCasts S1x131072
  transposes_S4x8388608_S8388608x4_1_0 : S4x8388608.Transposes [1, 0] S8388608x4
  slices_S8388608x4_S8388608x3_0_0 : S8388608x4.Slices ![0, 0] S8388608x3
  slices_S8388608x4_S8388608x1_0_3 : S8388608x4.Slices ![0, 3] S8388608x1
  gather_S4x2097153_S8388608x1_S4x8388608_0_1_n_n_1_1_41_wf : GatherDims.WF S4x2097153 S8388608x1 S4x8388608 [0] [1] [] [1] [] 1 ![4, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x131072.size a ≤ S4x8388608.size a
  hwx0_0 : ∀ i : grid0.Coords, EltTy.bits .f32 = 32 ∨ (Rect.block (s := S4x8388608) S4x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x131072.size a ≤ S4x8388608.size a
  hwx0_1 : ∀ i : grid0.Coords, EltTy.bits .f32 = 32 ∨ (Rect.block (s := S4x8388608) S4x131072.size (cc0_transform_1 i) (hinb0_1 i)).WholeWords (EltTy.packing .f32)

variable [Facts₀]

def gather_S4x2097153_S8388608x1_S4x8388608_0_1_n_n_1_1_41 : GatherDims S4x2097153 S8388608x1 S4x8388608 where
  offsetDims := [0]
  collapsedSliceDims := [1]
  operandBatchingDims := []
  startIndicesBatchingDims := []
  startIndexMap := [1]
  indexVectorDim := 1
  sliceSizes := ![4, 1]
  wf := gather_S4x2097153_S8388608x1_S4x8388608_0_1_n_n_1_1_41_wf

abbrev win0_0 : Pipeline.Window sig grid0 :=
  Pipeline.Window.ofSpec (Memref.whole main_v55) S4x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S4x131072.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8388608x3 : Shape := ⟨2, ![8388608, 3]⟩
abbrev S128x128x128x4 : Shape := ⟨4, ![128, 128, 128, 4]⟩
abbrev S8388608x1 : Shape := ⟨2, ![8388608, 1]⟩
abbrev S8388608 : Shape := ⟨1, ![8388608]⟩
abbrev S_ : Shape := ⟨0, ![]⟩
abbrev S8388608x4 : Shape := ⟨2, ![8388608, 4]⟩

abbrev nBuf : Space → Nat
  | .hbm => 175
  | .vmem => 0
  | .smem => 0
  | _ => 0

abbrev hbmTy0_0 (i : Nat) : BufTy := match i % 128 with
  | 0 => ⟨S8388608x3, .f32⟩
  | 1 => ⟨S128x128x128x4, .f32⟩
  | 2 => ⟨S8388608x1, .f32⟩
  | 3 => ⟨S8388608, .f32⟩
  | 4 => ⟨S8388608x1, .f32⟩
  | 5 => ⟨S8388608, .f32⟩
  | 6 => ⟨S8388608x1, .f32⟩
  | 7 => ⟨S8388608, .f32⟩
  | 8 => ⟨S8388608, .f32⟩
  | 9 => ⟨S_, .f32⟩
  | 10 => ⟨S8388608, .f32⟩
  | 11 => ⟨S8388608, .i1⟩
  | 12 => ⟨S8388608, .f32⟩
  | 13 => ⟨S_, .f32⟩
  | 14 => ⟨S8388608, .f32⟩
  | 15 => ⟨S8388608, .i1⟩
  | 16 => ⟨S8388608, .i1⟩
  | 17 => ⟨S8388608, .f32⟩
  | 18 => ⟨S_, .f32⟩
  | 19 => ⟨S8388608, .f32⟩
  | 20 => ⟨S8388608, .i1⟩
  | 21 => ⟨S8388608, .i1⟩
  | 22 => ⟨S_, .f32⟩
  | 23 => ⟨S8388608, .f32⟩
  | 24 => ⟨S8388608, .f32⟩
  | 25 => ⟨S_, .f32⟩
  | 26 => ⟨S8388608, .f32⟩
  | 27 => ⟨S8388608, .f32⟩
  | 28 => ⟨S8388608, .f32⟩
  | 29 => ⟨S8388608, .i32⟩
  | 30 => ⟨S_, .i32⟩
  | 31 => ⟨S8388608, .i32⟩
  | 32 => ⟨S8388608, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S8388608, .i32⟩
  | 40 => ⟨S8388608, .i32⟩
  | 41 => ⟨S_, .i32⟩
  | 42 => ⟨S8388608, .i32⟩
  | 43 => ⟨S8388608, .i1⟩
  | 44 => ⟨S_, .i32⟩
  | 45 => ⟨S8388608, .i32⟩
  | 46 => ⟨S8388608, .i1⟩
  | 47 => ⟨S_, .i32⟩
  | 48 => ⟨S_, .i1⟩
  | 49 => ⟨S8388608, .i1⟩
  | 50 => ⟨S8388608, .i1⟩
  | 51 => ⟨S8388608, .i1⟩
  | 52 => ⟨S8388608, .i32⟩
  | 53 => ⟨S8388608, .i32⟩
  | 54 => ⟨S8388608, .i32⟩
  | 55 => ⟨S_, .f32⟩
  | 56 => ⟨S8388608, .f32⟩
  | 57 => ⟨S8388608, .f32⟩
  | 58 => ⟨S_, .f32⟩
  | 59 => ⟨S8388608, .f32⟩
  | 60 => ⟨S8388608, .f32⟩
  | 61 => ⟨S8388608, .f32⟩
  | 62 => ⟨S8388608, .i32⟩
  | 63 => ⟨S_, .i32⟩
  | 64 => ⟨S8388608, .i32⟩
  | 65 => ⟨S8388608, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S8388608, .i32⟩
  | 73 => ⟨S8388608, .i32⟩
  | 74 => ⟨S_, .i32⟩
  | 75 => ⟨S8388608, .i32⟩
  | 76 => ⟨S8388608, .i1⟩
  | 77 => ⟨S_, .i32⟩
  | 78 => ⟨S8388608, .i32⟩
  | 79 => ⟨S8388608, .i1⟩
  | 80 => ⟨S_, .i32⟩
  | 81 => ⟨S_, .i1⟩
  | 82 => ⟨S8388608, .i1⟩
  | 83 => ⟨S8388608, .i1⟩
  | 84 => ⟨S8388608, .i1⟩
  | 85 => ⟨S8388608, .i32⟩
  | 86 => ⟨S8388608, .i32⟩
  | 87 => ⟨S8388608, .i32⟩
  | 88 => ⟨S_, .f32⟩
  | 89 => ⟨S8388608, .f32⟩
  | 90 => ⟨S8388608, .f32⟩
  | 91 => ⟨S_, .f32⟩
  | 92 => ⟨S8388608, .f32⟩
  | 93 => ⟨S8388608, .f32⟩
  | 94 => ⟨S8388608, .f32⟩
  | 95 => ⟨S8388608, .i32⟩
  | 96 => ⟨S_, .i32⟩
  | 97 => ⟨S8388608, .i32⟩
  | 98 => ⟨S8388608, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S8388608, .i32⟩
  | 106 => ⟨S8388608, .i32⟩
  | 107 => ⟨S_, .i32⟩
  | 108 => ⟨S8388608, .i32⟩
  | 109 => ⟨S8388608, .i1⟩
  | 110 => ⟨S_, .i32⟩
  | 111 => ⟨S8388608, .i32⟩
  | 112 => ⟨S8388608, .i1⟩
  | 113 => ⟨S_, .i32⟩
  | 114 => ⟨S_, .i1⟩
  | 115 => ⟨S8388608, .i1⟩
  | 116 => ⟨S8388608, .i1⟩
  | 117 => ⟨S8388608, .i1⟩
  | 118 => ⟨S8388608, .i32⟩
  | 119 => ⟨S8388608, .i32⟩
  | 120 => ⟨S8388608, .i32⟩
  | 121 => ⟨S_, .i32⟩
  | 122 => ⟨S8388608, .i32⟩
  | 123 => ⟨S8388608, .i1⟩
  | 124 => ⟨S_, .i32⟩
  | 125 => ⟨S8388608, .i32⟩
  | 126 => ⟨S8388608, .i32⟩
  | 127 => ⟨S8388608, .i32⟩
  | _ => ⟨S8388608x3, .f32⟩

abbrev hbmTy0_1 (i : Nat) : BufTy := match i % 128 with
  | 0 => ⟨S_, .i32⟩
  | 1 => ⟨S8388608, .i32⟩
  | 2 => ⟨S8388608, .i1⟩
  | 3 => ⟨S_, .i32⟩
  | 4 => ⟨S8388608, .i32⟩
  | 5 => ⟨S8388608, .i32⟩
  | 6 => ⟨S8388608, .i32⟩
  | 7 => ⟨S_, .i32⟩
  | 8 => ⟨S8388608, .i32⟩
  | 9 => ⟨S8388608, .i1⟩
  | 10 => ⟨S_, .i32⟩
  | 11 => ⟨S8388608, .i32⟩
  | 12 => ⟨S8388608, .i32⟩
  | 13 => ⟨S8388608, .i32⟩
  | 14 => ⟨S8388608x1, .i32⟩
  | 15 => ⟨S8388608x1, .i32⟩
  | 16 => ⟨S8388608x1, .i32⟩
  | 17 => ⟨S8388608x3, .i32⟩
  | 18 => ⟨S8388608x4, .f32⟩
  | 19 => ⟨S8388608x1, .i1⟩
  | 20 => ⟨S8388608x3, .f32⟩
  | 21 => ⟨S_, .f32⟩
  | 22 => ⟨S_, .f32⟩
  | 23 => ⟨S8388608x3, .i1⟩
  | 24 => ⟨S8388608x3, .f32⟩
  | 25 => ⟨S8388608x3, .f32⟩
  | 26 => ⟨S8388608x1, .f32⟩
  | 27 => ⟨S8388608, .f32⟩
  | 28 => ⟨S_, .f32⟩
  | 29 => ⟨S8388608, .f32⟩
  | 30 => ⟨S8388608, .f32⟩
  | 31 => ⟨S_, .f32⟩
  | 32 => ⟨S_, .f32⟩
  | 33 => ⟨S8388608, .f32⟩
  | 34 => ⟨S8388608, .f32⟩
  | 35 => ⟨S8388608x3, .f32⟩
  | 36 => ⟨S8388608x3, .f32⟩
  | 37 => ⟨S_, .f32⟩
  | 38 => ⟨S8388608x3, .f32⟩
  | 39 => ⟨S8388608x3, .f32⟩
  | 40 => ⟨S_, .f32⟩
  | 41 => ⟨S8388608x3, .f32⟩
  | 42 => ⟨S8388608x3, .f32⟩
  | 43 => ⟨S_, .f32⟩
  | 44 => ⟨S8388608, .f32⟩
  | 45 => ⟨S8388608, .f32⟩
  | 46 => ⟨S8388608x1, .f32⟩
  | _ => ⟨S8388608x3, .f32⟩

abbrev hbmTy (i : Nat) : BufTy := match i / 128 with
  | 0 => hbmTy0_0 i
  | 1 => hbmTy0_1 i
  | _ => ⟨S8388608x3, .f32⟩

abbrev bufTy : (tb : Table) → Fin (tcTables nBuf tb) → BufTy
  | .hbm, ⟨i, _⟩ => hbmTy i
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_c_4 : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_c_1 : Ref sig .tc := ⟨.hbm, 41, rfl⟩
abbrev main_call0_v5 : Ref sig .tc := ⟨.hbm, 42, rfl⟩
abbrev main_call0_v6 : Ref sig .tc := ⟨.hbm, 43, rfl⟩
abbrev main_call0_c_2 : Ref sig .tc := ⟨.hbm, 44, rfl⟩
abbrev main_call0_v7 : Ref sig .tc := ⟨.hbm, 45, rfl⟩
abbrev main_call0_v8 : Ref sig .tc := ⟨.hbm, 46, rfl⟩
abbrev main_call0_c_3 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_v25 : Ref sig .tc := ⟨.hbm, 54, rfl⟩
abbrev main_cst_5 : Ref sig .tc := ⟨.hbm, 55, rfl⟩
abbrev main_v26 : Ref sig .tc := ⟨.hbm, 56, rfl⟩
abbrev main_v27 : Ref sig .tc := ⟨.hbm, 57, rfl⟩
abbrev main_cst_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_7 : Ref sig .tc := ⟨.hbm, 63, rfl⟩
abbrev main_v32 : Ref sig .tc := ⟨.hbm, 64, rfl⟩
abbrev main_v33 : Ref sig .tc := ⟨.hbm, 65, rfl⟩
abbrev main_c_8 : Ref sig .tc := ⟨.hbm, 66, rfl⟩
abbrev main_call1_v0 : Ref sig .tc := ⟨.hbm, 67, rfl⟩
abbrev main_call1_c : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_c_1 : Ref sig .tc := ⟨.hbm, 74, rfl⟩
abbrev main_call1_v5 : Ref sig .tc := ⟨.hbm, 75, rfl⟩
abbrev main_call1_v6 : Ref sig .tc := ⟨.hbm, 76, rfl⟩
abbrev main_call1_c_2 : Ref sig .tc := ⟨.hbm, 77, rfl⟩
abbrev main_call1_v7 : Ref sig .tc := ⟨.hbm, 78, rfl⟩
abbrev main_call1_v8 : Ref sig .tc := ⟨.hbm, 79, rfl⟩
abbrev main_call1_c_3 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_v34 : Ref sig .tc := ⟨.hbm, 87, rfl⟩
abbrev main_cst_9 : Ref sig .tc := ⟨.hbm, 88, rfl⟩
abbrev main_v35 : Ref sig .tc := ⟨.hbm, 89, rfl⟩
abbrev main_v36 : Ref sig .tc := ⟨.hbm, 90, rfl⟩
abbrev main_cst_10 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_c_11 : Ref sig .tc := ⟨.hbm, 96, rfl⟩
abbrev main_v41 : Ref sig .tc := ⟨.hbm, 97, rfl⟩
abbrev main_v42 : Ref sig .tc := ⟨.hbm, 98, rfl⟩
abbrev main_c_12 : Ref sig .tc := ⟨.hbm, 99, rfl⟩
abbrev main_call2_v0 : Ref sig .tc := ⟨.hbm, 100, rfl⟩
abbrev main_call2_c : Ref sig .tc := ⟨.hbm, 101, rfl⟩
abbrev main_call2_v1 : Ref sig .tc := ⟨.hbm, 102, rfl⟩
abbrev main_call2_c_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_c_1 : Ref sig .tc := ⟨.hbm, 107, rfl⟩
abbrev main_call2_v5 : Ref sig .tc := ⟨.hbm, 108, rfl⟩
abbrev main_call2_v6 : Ref sig .tc := ⟨.hbm, 109, rfl⟩
abbrev main_call2_c_2 : Ref sig .tc := ⟨.hbm, 110, rfl⟩
abbrev main_call2_v7 : Ref sig .tc := ⟨.hbm, 111, rfl⟩
abbrev main_call2_v8 : Ref sig .tc := ⟨.hbm, 112, rfl⟩
abbrev main_call2_c_3 : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_v12 : Ref sig .tc := ⟨.hbm, 117, rfl⟩
abbrev main_call2_v13 : Ref sig .tc := ⟨.hbm, 118, rfl⟩
abbrev main_call2_v14 : Ref sig .tc := ⟨.hbm, 119, rfl⟩
abbrev main_v43 : Ref sig .tc := ⟨.hbm, 120, rfl⟩
abbrev main_c_13 : Ref sig .tc := ⟨.hbm, 121, rfl⟩
abbrev main_v44 : Ref sig .tc := ⟨.hbm, 122, rfl⟩
abbrev main_v45 : Ref sig .tc := ⟨.hbm, 123, rfl⟩
abbrev main_c_14 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_c_15 : Ref sig .tc := ⟨.hbm, 128, rfl⟩
abbrev main_v49 : Ref sig .tc := ⟨.hbm, 129, rfl⟩
abbrev main_v50 : Ref sig .tc := ⟨.hbm, 130, rfl⟩
abbrev main_c_16 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_c_17 : Ref sig .tc := ⟨.hbm, 135, rfl⟩
abbrev main_v54 : Ref sig .tc := ⟨.hbm, 136, rfl⟩
abbrev main_v55 : Ref sig .tc := ⟨.hbm, 137, rfl⟩
abbrev main_c_18 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_cst_19 : Ref sig .tc := ⟨.hbm, 149, rfl⟩
abbrev main_call3_v0 : Ref sig .tc := ⟨.hbm, 150, rfl⟩
abbrev main_call3_v1 : Ref sig .tc := ⟨.hbm, 151, rfl⟩
abbrev main_call3_v2 : Ref sig .tc := ⟨.hbm, 152, rfl⟩
abbrev main_v66 : Ref sig .tc := ⟨.hbm, 153, rfl⟩
abbrev main_v67 : Ref sig .tc := ⟨.hbm, 154, rfl⟩
abbrev main_v68 : Ref sig .tc := ⟨.hbm, 155, rfl⟩
abbrev main_cst_20 : Ref sig .tc := ⟨.hbm, 156, rfl⟩
abbrev main_v69 : Ref sig .tc := ⟨.hbm, 157, rfl⟩
abbrev main_v70 : Ref sig .tc := ⟨.hbm, 158, rfl⟩
abbrev main_cst_21 : Ref sig .tc := ⟨.hbm, 159, rfl⟩
abbrev main_call4_v0 : Ref sig .tc := ⟨.hbm, 160, rfl⟩
abbrev main_call4_v1 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_cst_22 : Ref sig .tc := ⟨.hbm, 165, rfl⟩
abbrev main_v74 : Ref sig .tc := ⟨.hbm, 166, rfl⟩
abbrev main_v75 : Ref sig .tc := ⟨.hbm, 167, rfl⟩
abbrev main_cst_23 : Ref sig .tc := ⟨.hbm, 168, rfl⟩
abbrev main_v76 : Ref sig .tc := ⟨.hbm, 169, rfl⟩
abbrev main_v77 : Ref sig .tc := ⟨.hbm, 170, rfl⟩
abbrev main_call5_cst : Ref sig .tc := ⟨.hbm, 171, rfl⟩
abbrev main_call5_v0 : Ref sig .tc := ⟨.hbm, 172, rfl⟩
abbrev main_v78 : Ref sig .tc := ⟨.hbm, 173, rfl⟩
abbrev main_v79 : Ref sig .tc := ⟨.hbm, 174, rfl⟩

abbrev nD : Nat := 1
abbrev τ : Topo := Topo.v7x

variable {F : FTy → Type} [FloatOps F]

class Facts₀ : Prop where
  slices_S8388608x3_S8388608x1_0_0 : S8388608x3.Slices ![0, 0] S8388608x1
  shapeCasts_S8388608x1_S8388608 : S8388608x1.ShapeCasts S8388608
  slices_S8388608x3_S8388608x1_0_1 : S8388608x3.Slices ![0, 1] S8388608x1
  slices_S8388608x3_S8388608x1_0_2 : S8388608x3.Slices ![0, 2] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x1_S8388608x3_d1 : Shape.Concatenates [S8388608x1, S8388608x1, S8388608x1] S8388608x3 1
  slices_S8388608x4_S8388608x3_0_0 : S8388608x4.Slices ![0, 0] S8388608x3
  bcast_S8388608x1_S8388608x3_0_1 : S8388608x1.BroadcastsInDim S8388608x3 (![0, 1] : Fin 2 → Fin S8388608x3.rank)
  bcast_S_S8388608x3 : S_.BroadcastsInDim S8388608x3 (![] : Fin 0 → Fin S8388608x3.rank)
  slices_S8388608x4_S8388608x1_0_3 : S8388608x4.Slices ![0, 3] S8388608x1
  gather_S128x128x128x4_S8388608x3_S8388608x4_1_012_n_n_012_1_1114_wf : GatherDims.WF S128x128x128x4 S8388608x3 S8388608x4 [1] [0, 1, 2] [] [0, 1, 2] [] 1 ![1, 1, 1, 4]

variable [Facts₀]

def gather_S128x128x128x4_S8388608x3_S8388608x4_1_012_n_n_012_1_1114 : GatherDims S128x128x128x4 S8388608x3 S8388608x4 where
  offsetDims := [1]
  collapsedSliceDims := [0, 1, 2]
  operandBatchingDims := []
  startIndicesBatchingDims := []
  startIndexMap := [0, 1, 2]
  indexVectorDim := 1
  sliceSizes := ![1, 1, 1, 4]
  wf := gather_S128x128x128x4_S8388608x3_S8388608x4_1_012_n_n_012_1_1114_wf

class Facts : Prop extends Facts₀ where

variable [Facts]
-- ==== Proof.Spec.lean ====
/-
  The two programs as pure functions of the point array `X : f32[8388608, 3]` and the voxel grid
  `vox : f32[128, 128, 128, 4]`, at any float instance.

  Both programs compute, per point `n`, the same three cell numbers
  `cell v = ((⌊v / 2⁻⁷ + 64⌋ as a 32-bit integer) − 1) mod 128` (the floored modulus, written as a signed
  remainder followed by a sign correction) of the point's three coordinates, and the same mask
  `inBox = |x| < ½ ∧ |y| < ½ ∧ |z| < ½`.
  The kernel's program then reads ONE flat index `cell x · 128² + cell y · 128 + cell z`, or `128³` outside
  the box, into the grid laid out as a [4, 128³ + 1] table whose last column is zero (a bounds-checked
  take along axis 1, filled with a quiet NaN where the index is out of range), and applies the activations
  row by row; the reference reads the grid at the three cell numbers, masks with zero outside the box, and
  applies the activations.
-/
import Idealize.ShloMosaic.PureOps
import Idealize.ShloMosaic.PureOps.Ideal

noncomputable section

namespace Cert.Voxels

open Idealize.ShloMosaic

/-! ## Shapes and the shape relations the operations take -/

abbrev SP3 : Shape := ⟨2, ![8388608, 3]⟩
abbrev SP1 : Shape := ⟨2, ![8388608, 1]⟩
abbrev SP : Shape := ⟨1, ![8388608]⟩
abbrev SP4 : Shape := ⟨2, ![8388608, 4]⟩
abbrev S0 : Shape := ⟨0, ![]⟩
abbrev SG : Shape := ⟨4, ![128, 128, 128, 4]⟩
abbrev SV4 : Shape := ⟨2, ![2097152, 4]⟩
abbrev S4V : Shape := ⟨2, ![4, 2097152]⟩
abbrev S41 : Shape := ⟨2, ![4, 1]⟩
abbrev S4W : Shape := ⟨2, ![4, 2097153]⟩
abbrev S1 : Shape := ⟨1, ![1]⟩
abbrev S11 : Shape := ⟨2, ![1, 1]⟩
abbrev S4P : Shape := ⟨2, ![4, 8388608]⟩

theorem slices_col0 : SP3.Slices ![0, 0] SP1 := by decide
theorem slices_col1 : SP3.Slices ![0, 1] SP1 := by decide
theorem slices_col2 : SP3.Slices ![0, 2] SP1 := by decide
theorem casts_SP1_SP : SP1.ShapeCasts SP := by decide
theorem bcast_S0_SP : S0.BroadcastsInDim SP (![] : Fin 0 → Fin SP.rank) := by decide
theorem casts_SG_SV4 : SG.ShapeCasts SV4 := by decide
theorem transposes_SV4_S4V : SV4.Transposes [1, 0] S4V := by decide
theorem bcast_S0_S41 : S0.BroadcastsInDim S41 (![] : Fin 0 → Fin S41.rank) := by decide
theorem concatenates_table : Shape.Concatenates [S4V, S41] S4W 1 := by decide
theorem bcast_SP_SP1 : SP.BroadcastsInDim SP1 (![0] : Fin 1 → Fin SP1.rank) := by decide
theorem bcast_S0_SP1 : S0.BroadcastsInDim SP1 (![] : Fin 0 → Fin SP1.rank) := by decide
theorem bcast_S1_S11 : S1.BroadcastsInDim S11 (![1] : Fin 1 → Fin S11.rank) := by decide
theorem bcast_S11_SP1 : S11.BroadcastsInDim SP1 (![0, 1] : Fin 2 → Fin SP1.rank) := by decide
theorem reduces_SP1_SP : SP1.ReducesTo [1] SP := by decide
theorem pos_S0 : 0 < S0.numel := by decide
theorem bcast_SP_S4P : SP.BroadcastsInDim S4P (![1] : Fin 1 → Fin S4P.rank) := by decide
theorem bcast_S0_S4P : S0.BroadcastsInDim S4P (![] : Fin 0 → Fin S4P.rank) := by decide
theorem transposes_S4P_SP4 : S4P.Transposes [1, 0] SP4 := by decide
theorem slices_rgb : SP4.Slices ![0, 0] SP3 := by decide
theorem slices_dens : SP4.Slices ![0, 3] SP1 := by decide
theorem takeDims_wf : GatherDims.WF S4W SP1 S4P [0] [1] [] [1] [] 1 ![4, 1] := by decide
theorem concatenates_cells : Shape.Concatenates [SP1, SP1, SP1] SP3 1 := by decide
theorem bcast_SP1_SP3 : SP1.BroadcastsInDim SP3 (![0, 1] : Fin 2 → Fin SP3.rank) := by decide
theorem bcast_S0_SP3 : S0.BroadcastsInDim SP3 (![] : Fin 0 → Fin SP3.rank) := by decide
theorem cellDims_wf : GatherDims.WF SG SP3 SP4 [1] [0, 1, 2] [] [0, 1, 2] [] 1 ![1, 1, 1, 4] := by decide

/-- The kernel's take: along axis 1 of the [4, 128³ + 1] table, one start index per point. -/
def takeDims : GatherDims S4W SP1 S4P where
  offsetDims := [0]
  collapsedSliceDims := [1]
  operandBatchingDims := []
  startIndicesBatchingDims := []
  startIndexMap := [1]
  indexVectorDim := 1
  sliceSizes := ![4, 1]
  wf := takeDims_wf

/-- The reference's read: the grid's first three axes at a point's three cell numbers, the last axis whole. -/
def cellDims : GatherDims SG SP3 SP4 where
  offsetDims := [1]
  collapsedSliceDims := [0, 1, 2]
  operandBatchingDims := []
  startIndicesBatchingDims := []
  startIndexMap := [0, 1, 2]
  indexVectorDim := 1
  sliceSizes := ![1, 1, 1, 4]
  wf := cellDims_wf

variable {F : FTy → Type} [FloatOps F]

/-! ## What both programs compute first -/

/-- Coordinate column `k` of the points, as a vector over the points. -/
def col0 (X : FVec F SP3 .f32) : FVec F SP .f32 := shapeCast SP (extractStridedSlice SP1 ![0, 0] X slices_col0) casts_SP1_SP
def col1 (X : FVec F SP3 .f32) : FVec F SP .f32 := shapeCast SP (extractStridedSlice SP1 ![0, 1] X slices_col1) casts_SP1_SP
def col2 (X : FVec F SP3 .f32) : FVec F SP .f32 := shapeCast SP (extractStridedSlice SP1 ![0, 2] X slices_col2) casts_SP1_SP

/-- `|v| < ½`, point by point. -/
def nearHalf (v : FVec F SP .f32) : IVec SP 1 :=
  cmpf .olt (Host.absf v) (broadcastInDim SP ![] bcast_S0_SP (constant S0 .f32 0x3F000000#32))

/-- The point lies strictly inside the unit box. -/
def inBox (X : FVec F SP3 .f32) : IVec SP 1 :=
  andi (andi (nearHalf (col0 X)) (nearHalf (col1 X))) (nearHalf (col2 X))

/-- `⌊v / 2⁻⁷ + 64⌋` converted to a 32-bit integer, minus one. -/
def cellRaw (v : FVec F SP .f32) : IVec SP 32 :=
  subi (fptosi 32 (Host.floor (addf (Host.divf v (broadcastInDim SP ![] bcast_S0_SP (constant S0 .f32 0x3C000000#32)))
      (broadcastInDim SP ![] bcast_S0_SP (constant S0 .f32 0x42800000#32)))))
    (broadcastInDim SP ![] bcast_S0_SP (constantI S0 32 1#32))

/-- The divisor a floored modulus really divides by: `1` in place of `0`. -/
def safeDivisor (d : IVec S0 32) : IVec S0 32 :=
  select (cmpi .eq (id d) (constantI S0 32 0#32)) (constantI S0 32 1#32) (id d)

/-- The floored modulus of `a` by the scalar `d`: the signed remainder, moved by one divisor where it is
    non-zero and its sign differs from the divisor's. -/
def floorMod (a : IVec SP 32) (d : IVec S0 32) : IVec SP 32 :=
  select
    (andi
      (cmpi .ne
        (cmpi .slt (Host.remsi a (broadcastInDim SP ![] bcast_S0_SP (safeDivisor d)))
          (broadcastInDim SP ![] bcast_S0_SP (constantI S0 32 0#32)))
        (broadcastInDim SP ![] bcast_S0_SP (cmpi .slt (safeDivisor d) (constantI S0 32 0#32))))
      (cmpi .ne (Host.remsi a (broadcastInDim SP ![] bcast_S0_SP (safeDivisor d)))
        (broadcastInDim SP ![] bcast_S0_SP (constantI S0 32 0#32))))
    (addi (Host.remsi a (broadcastInDim SP ![] bcast_S0_SP (safeDivisor d)))
      (broadcastInDim SP ![] bcast_S0_SP (safeDivisor d)))
    (Host.remsi a (broadcastInDim SP ![] bcast_S0_SP (safeDivisor d)))

/-- A coordinate's cell number, in `[0, 128)`. -/
def cell (v : FVec F SP .f32) : IVec SP 32 := floorMod (cellRaw v) (constantI S0 32 128#32)

/-! ## The kernel's program up to its pallas_call -/

/-- The flat cell index `cell x · 128² + cell y · 128 + cell z`, and `128³` for a point outside the box. -/
def flatIdx (X : FVec F SP3 .f32) : IVec SP 32 :=
  select (inBox X)
    (addi
      (addi (muli (cell (col0 X)) (broadcastInDim SP ![] bcast_S0_SP (constantI S0 32 16384#32)))
        (muli (cell (col1 X)) (broadcastInDim SP ![] bcast_S0_SP (constantI S0 32 128#32))))
      (cell (col2 X)))
    (broadcastInDim SP ![] bcast_S0_SP (id (constantI S0 32 2097152#32)))

/-- The grid as a [4, 128³ + 1] table: channel by flat cell, and a last column of zeros. -/
def table (vox : FVec F SG .f32) : FVec F S4W .f32 :=
  concatenate S4W 1
    [⟨S4V, transpose S4V [1, 0] (shapeCast SV4 vox casts_SG_SV4) transposes_SV4_S4V⟩,
     ⟨S41, broadcastInDim S41 ![] bcast_S0_S41 (constant S0 .f32 0x00000000#32)⟩]
    concatenates_table

/-- A start index normalised as jnp does: a negative one counted from the end. -/
def wrapNeg (i : IVec SP 32) : IVec SP 32 :=
  select (cmpi .slt i (broadcastInDim SP ![] bcast_S0_SP (constantI S0 32 0#32)))
    (addi i (broadcastInDim SP ![] bcast_S0_SP (constantI S0 32 2097153#32))) i

/-- The start indices as a column. -/
def startCol (i : IVec SP 32) : IVec SP1 32 := broadcastInDim SP1 ![0] bcast_SP_SP1 (wrapNeg i)

/-- The start index is within `[0, 128³]`. -/
def inRange (i : IVec SP 32) : IVec SP 1 :=
  Host.reduce IntOp.andi
    (andi (cmpi .sge (startCol i) (broadcastInDim SP1 ![] bcast_S0_SP1 (constantI S0 32 0#32)))
      (cmpi .sle (startCol i)
        (broadcastInDim SP1 ![0, 1] bcast_S11_SP1 (broadcastInDim S11 ![1] bcast_S1_S11 (constantI S1 32 2097152#32)))))
    (constantI S0 1 1#1) reduces_SP1_SP pos_S0

/-- jnp's take along axis 1 in its default mode: the gathered column, or a quiet NaN where the index is out of range. -/
def take (tab : FVec F S4W .f32) (i : IVec SP 32) : FVec F S4P .f32 :=
  select (broadcastInDim S4P ![1] bcast_SP_S4P (inRange i))
    (Host.gather takeDims tab (startCol i))
    (broadcastInDim S4P ![] bcast_S0_S4P (constant S0 .f32 0x7FC00000#32))

/-- What the kernel's pallas_call is given: channel by point. -/
def gathered (X : FVec F SP3 .f32) (vox : FVec F SG .f32) : FVec F S4P .f32 := take (table vox) (flatIdx X)

/-- The kernel program's two results from the pallas_call's output `o : [4, points]`. -/
def rgbOf (o : FVec F S4P .f32) : FVec F SP3 .f32 :=
  extractStridedSlice SP3 ![0, 0] (transpose SP4 [1, 0] o transposes_S4P_SP4) slices_rgb
def densOf (o : FVec F S4P .f32) : FVec F SP1 .f32 :=
  extractStridedSlice SP1 ![0, 3] (transpose SP4 [1, 0] o transposes_S4P_SP4) slices_dens

/-! ## The reference -/

/-- A cell number normalised as jnp indexing does: a negative one counted from the end of an axis of 128. -/
def wrapNeg128 (i : IVec SP 32) : IVec SP 32 :=
  select (cmpi .slt i (broadcastInDim SP ![] bcast_S0_SP (constantI S0 32 0#32)))
    (addi i (broadcastInDim SP ![] bcast_S0_SP (constantI S0 32 128#32))) i

/-- The three cell numbers of every point, as the rows of a [points, 3] index array. -/
def cellIdx (X : FVec F SP3 .f32) : IVec SP3 32 :=
  concatenate SP3 1
    [⟨SP1, broadcastInDim SP1 ![0] bcast_SP_SP1 (wrapNeg128 (cell (col0 X)))⟩,
     ⟨SP1, broadcastInDim SP1 ![0] bcast_SP_SP1 (wrapNeg128 (cell (col1 X)))⟩,
     ⟨SP1, broadcastInDim SP1 ![0] bcast_SP_SP1 (wrapNeg128 (cell (col2 X)))⟩]
    concatenates_cells

/-- The grid's four channels at every point's cell. -/
def cellValues (X : FVec F SP3 .f32) (vox : FVec F SG .f32) : FVec F SP4 .f32 :=
  Host.gather cellDims vox (cellIdx X)

/-- The reference's colour result: `1 / (1 + e^(−u))` of the first three channels, masked with zero outside the box. -/
def refRgb (X : FVec F SP3 .f32) (vox : FVec F SG .f32) : FVec F SP3 .f32 :=
  Host.divf (broadcastInDim SP3 ![] bcast_S0_SP3 (constant S0 .f32 0x3F800000#32))
    (addf (broadcastInDim SP3 ![] bcast_S0_SP3 (constant S0 .f32 0x3F800000#32))
      (Host.exp (Host.negf
        (select (broadcastInDim SP3 ![0, 1] bcast_SP1_SP3 (broadcastInDim SP1 ![0] bcast_SP_SP1 (inBox X)))
          (extractStridedSlice SP3 ![0, 0] (cellValues X vox) slices_rgb)
          (broadcastInDim SP3 ![] bcast_S0_SP3 (id (constant S0 .f32 0x00000000#32)))))))

/-- The reference's density result: the fourth channel times ten, masked with zero outside the box, clipped below at zero. -/
def refDens (X : FVec F SP3 .f32) (vox : FVec F SG .f32) : FVec F SP1 .f32 :=
  broadcastInDim SP1 ![0] bcast_SP_SP1
    (maximumf
      (select (inBox X)
        (mulf (shapeCast SP (extractStridedSlice SP1 ![0, 3] (cellValues X vox) slices_dens) casts_SP1_SP)
          (broadcastInDim SP ![] bcast_S0_SP (constant S0 .f32 0x41200000#32)))
        (broadcastInDim SP ![] bcast_S0_SP (id (constant S0 .f32 0x00000000#32))))
      (broadcastInDim SP ![] bcast_S0_SP (constant S0 .f32 0x00000000#32)))

end Cert.Voxels

end
-- ==== Proof.KernelCells.lean ====
/-
  The index chain both programs begin with, one stretch of host operations at a time: from any buffer
  contents `W`, what each stretch leaves in the buffers later stretches read, and which of those it leaves alone.
  Stretch 0 cuts the three coordinate columns, forms the box mask and the first raw cell number; stretches 1, 3
  and 5 are the three floored moduli by 128; stretches 2 and 4 the other two raw cell numbers.
-/
import proofs.«429610_j40518721470753_3_alg».proof.Proof.Gen.KernelIdeal.Launch
import proofs.«429610_j40518721470753_3_alg».proof.Proof.Spec
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo
open Cert.Voxels

variable {F : FTy → Type} [FloatOps F]
variable (W : Valuation τ sig (Elt F))

/-! ## Stretch 0 -/

theorem s0_inBox : (after hostOps0 W (Proc.devRef .tc main_v16) : IVec S8388608 1) = inBox (W (Proc.devRef .tc main_arg0)) := by
  after_results; rfl
theorem s0_raw : (after hostOps0 W (Proc.devRef .tc main_v24) : IVec S8388608 32) = cellRaw (col0 (W (Proc.devRef .tc main_arg0))) := by
  after_results; rfl
theorem s0_col1 : (after hostOps0 W (Proc.devRef .tc main_v3) : FVec F S8388608 .f32) = col1 (W (Proc.devRef .tc main_arg0)) := by
  after_results; rfl
theorem s0_col2 : (after hostOps0 W (Proc.devRef .tc main_v5) : FVec F S8388608 .f32) = col2 (W (Proc.devRef .tc main_arg0)) := by
  after_results; rfl
theorem s0_div : (after hostOps0 W (Proc.devRef .tc main_c_4) : IVec S_ 32) = constantI S0 32 128#32 := by
  after_results
theorem s0_arg0 : after hostOps0 W (Proc.devRef .tc main_arg0) = W (Proc.devRef .tc main_arg0) := by
  after_results
theorem s0_arg1 : after hostOps0 W (Proc.devRef .tc main_arg1) = W (Proc.devRef .tc main_arg1) := by
  after_results

/-! ## Stretch 1: the first coordinate's cell number -/

set_option maxHeartbeats 2000000 in
theorem s1_cell : (after hostOps0_1 W (Proc.devRef .tc main_v25) : IVec S8388608 32)
    = floorMod (W (Proc.devRef .tc main_v24)) (W (Proc.devRef .tc main_c_4)) := by
  after_results_simp; rfl
theorem s1_inBox : after hostOps0_1 W (Proc.devRef .tc main_v16) = W (Proc.devRef .tc main_v16) := by
  after_results_simp
theorem s1_col1 : after hostOps0_1 W (Proc.devRef .tc main_v3) = W (Proc.devRef .tc main_v3) := by
  after_results_simp
theorem s1_col2 : after hostOps0_1 W (Proc.devRef .tc main_v5) = W (Proc.devRef .tc main_v5) := by
  after_results_simp
theorem s1_arg0 : after hostOps0_1 W (Proc.devRef .tc main_arg0) = W (Proc.devRef .tc main_arg0) := by
  after_results_simp
theorem s1_arg1 : after hostOps0_1 W (Proc.devRef .tc main_arg1) = W (Proc.devRef .tc main_arg1) := by
  after_results_simp

/-! ## Stretch 2: the second coordinate's raw cell number -/

theorem s2_raw : (after hostOps0_2 W (Proc.devRef .tc main_v33) : IVec S8388608 32) = cellRaw (W (Proc.devRef .tc main_v3)) := by
  after_results; rfl
theorem s2_div : (after hostOps0_2 W (Proc.devRef .tc main_c_8) : IVec S_ 32) = constantI S0 32 128#32 := by
  after_results
theorem s2_inBox : after hostOps0_2 W (Proc.devRef .tc main_v16) = W (Proc.devRef .tc main_v16) := by
  after_results
theorem s2_cell0 : after hostOps0_2 W (Proc.devRef .tc main_v25) = W (Proc.devRef .tc main_v25) := by
  after_results
theorem s2_col2 : after hostOps0_2 W (Proc.devRef .tc main_v5) = W (Proc.devRef .tc main_v5) := by
  after_results
theorem s2_arg0 : after hostOps0_2 W (Proc.devRef .tc main_arg0) = W (Proc.devRef .tc main_arg0) := by
  after_results
theorem s2_arg1 : after hostOps0_2 W (Proc.devRef .tc main_arg1) = W (Proc.devRef .tc main_arg1) := by
  after_results

/-! ## Stretch 3: the second coordinate's cell number -/

set_option maxHeartbeats 2000000 in
theorem s3_cell : (after hostOps0_3 W (Proc.devRef .tc main_v34) : IVec S8388608 32)
    = floorMod (W (Proc.devRef .tc main_v33)) (W (Proc.devRef .tc main_c_8)) := by
  after_results_simp; rfl
theorem s3_inBox : after hostOps0_3 W (Proc.devRef .tc main_v16) = W (Proc.devRef .tc main_v16) := by
  after_results_simp
theorem s3_cell0 : after hostOps0_3 W (Proc.devRef .tc main_v25) = W (Proc.devRef .tc main_v25) := by
  after_results_simp
theorem s3_col2 : after hostOps0_3 W (Proc.devRef .tc main_v5) = W (Proc.devRef .tc main_v5) := by
  after_results_simp
theorem s3_arg0 : after hostOps0_3 W (Proc.devRef .tc main_arg0) = W (Proc.devRef .tc main_arg0) := by
  after_results_simp
theorem s3_arg1 : after hostOps0_3 W (Proc.devRef .tc main_arg1) = W (Proc.devRef .tc main_arg1) := by
  after_results_simp

/-! ## Stretch 4: the third coordinate's raw cell number -/

theorem s4_raw : (after hostOps0_4 W (Proc.devRef .tc main_v42) : IVec S8388608 32) = cellRaw (W (Proc.devRef .tc main_v5)) := by
  after_results; rfl
theorem s4_div : (after hostOps0_4 W (Proc.devRef .tc main_c_12) : IVec S_ 32) = constantI S0 32 128#32 := by
  after_results
theorem s4_inBox : after hostOps0_4 W (Proc.devRef .tc main_v16) = W (Proc.devRef .tc main_v16) := by
  after_results
theorem s4_cell0 : after hostOps0_4 W (Proc.devRef .tc main_v25) = W (Proc.devRef .tc main_v25) := by
  after_results
theorem s4_cell1 : after hostOps0_4 W (Proc.devRef .tc main_v34) = W (Proc.devRef .tc main_v34) := by
  after_results
theorem s4_arg0 : after hostOps0_4 W (Proc.devRef .tc main_arg0) = W (Proc.devRef .tc main_arg0) := by
  after_results
theorem s4_arg1 : after hostOps0_4 W (Proc.devRef .tc main_arg1) = W (Proc.devRef .tc main_arg1) := by
  after_results

/-! ## Stretch 5: the third coordinate's cell number -/

set_option maxHeartbeats 2000000 in
theorem s5_cell : (after hostOps0_5 W (Proc.devRef .tc main_v43) : IVec S8388608 32)
    = floorMod (W (Proc.devRef .tc main_v42)) (W (Proc.devRef .tc main_c_12)) := by
  after_results_simp; rfl
theorem s5_inBox : after hostOps0_5 W (Proc.devRef .tc main_v16) = W (Proc.devRef .tc main_v16) := by
  after_results_simp
theorem s5_cell0 : after hostOps0_5 W (Proc.devRef .tc main_v25) = W (Proc.devRef .tc main_v25) := by
  after_results_simp
theorem s5_cell1 : after hostOps0_5 W (Proc.devRef .tc main_v34) = W (Proc.devRef .tc main_v34) := by
  after_results_simp
theorem s5_arg0 : after hostOps0_5 W (Proc.devRef .tc main_arg0) = W (Proc.devRef .tc main_arg0) := by
  after_results_simp
theorem s5_arg1 : after hostOps0_5 W (Proc.devRef .tc main_arg1) = W (Proc.devRef .tc main_arg1) := by
  after_results_simp

/-! ## The six stretches together -/

/-- The buffer contents after the six stretches, from `W`. -/
abbrev afterCells : Valuation τ sig (Elt F) :=
  after hostOps0_5 (after hostOps0_4 (after hostOps0_3 (after hostOps0_2 (after hostOps0_1 (after hostOps0 W)))))

theorem cells_inBox : (afterCells W (Proc.devRef .tc main_v16) : IVec S8388608 1) = inBox (W (Proc.devRef .tc main_arg0)) := by
  unfold afterCells
  rw [s5_inBox, s4_inBox, s3_inBox, s2_inBox, s1_inBox, s0_inBox]
theorem cells_cell0 : (afterCells W (Proc.devRef .tc main_v25) : IVec S8388608 32) = cell (col0 (W (Proc.devRef .tc main_arg0))) := by
  unfold afterCells
  rw [s5_cell0, s4_cell0, s3_cell0, s2_cell0, s1_cell, s0_raw, s0_div]; rfl
theorem cells_cell1 : (afterCells W (Proc.devRef .tc main_v34) : IVec S8388608 32) = cell (col1 (W (Proc.devRef .tc main_arg0))) := by
  unfold afterCells
  rw [s5_cell1, s4_cell1, s3_cell, s2_raw, s2_div, s1_col1, s0_col1]; rfl
theorem cells_cell2 : (afterCells W (Proc.devRef .tc main_v43) : IVec S8388608 32) = cell (col2 (W (Proc.devRef .tc main_arg0))) := by
  unfold afterCells
  rw [s5_cell, s4_raw, s4_div, s3_col2, s2_col2, s1_col2, s0_col2]; rfl
theorem cells_arg0 : afterCells W (Proc.devRef .tc main_arg0) = W (Proc.devRef .tc main_arg0) := by
  unfold afterCells
  rw [s5_arg0, s4_arg0, s3_arg0, s2_arg0, s1_arg0, s0_arg0]
theorem cells_arg1 : afterCells W (Proc.devRef .tc main_arg1) = W (Proc.devRef .tc main_arg1) := by
  unfold afterCells
  rw [s5_arg1, s4_arg1, s3_arg1, s2_arg1, s1_arg1, s0_arg1]

end Cert.KernelIdeal.Host

end
-- ==== Proof.KernelEntry.lean ====
/-
  The kernel's program after the three cell numbers, up to its pallas_call, and the lines after the call.
  Stretch 6 forms the flat index cell x · 128² + cell y · 128 + cell z; stretch 7 replaces it by 128³ outside
  the box; stretch 8 lays the grid out as the [4, 128³ + 1] table with a last column of zeros; stretch 9 is the
  bounds-checked take along the table's second axis. Together with the six stretches before them they leave, in
  the buffer the pallas_call reads, `gathered` of the two arguments. After the call the result is transposed and cut
  into the colour columns and the density column.
-/
import proofs.«429610_j40518721470753_3_alg».proof.Proof.KernelCells
import proofs.«429610_j40518721470753_3_alg».proof.Proof.Gen.KernelIdeal.Frame

noncomputable section

namespace Cert.KernelIdeal.Host

open Cert.KernelIdeal Cert.KernelIdeal.Gen Idealize.ShloMosaic Idealize.ShloMosaic.TcCoe Idealize.SL.Sem Idealize.ShloMosaic.StableHlo
open Cert.Voxels

variable {F : FTy → Type} [FloatOps F]
variable (W : Valuation τ sig (Elt F))

/-! ## Stretch 6: the flat index -/

theorem s6_flat : (after hostOps0_6 W (Proc.devRef .tc main_v49) : IVec S8388608 32)
    = addi (addi (muli (W (Proc.devRef .tc main_v25)) (broadcastInDim SP ![] bcast_S0_SP (constantI S0 32 16384#32)))
        (muli (W (Proc.devRef .tc main_v34)) (broadcastInDim SP ![] bcast_S0_SP (constantI S0 32 128#32))))
      (W (Proc.devRef .tc main_v43)) := by
  after_results
theorem s6_out : (after hostOps0_6 W (Proc.devRef .tc main_c_15) : IVec S_ 32) = constantI S0 32 2097152#32 := by
  after_results
theorem s6_inBox : after hostOps0_6 W (Proc.devRef .tc main_v16) = W (Proc.devRef .tc main_v16) := by
  after_results
theorem s6_arg0 : after hostOps0_6 W (Proc.devRef .tc main_arg0) = W (Proc.devRef .tc main_arg0) := by
  after_results
theorem s6_arg1 : after hostOps0_6 W (Proc.devRef .tc main_arg1) = W (Proc.devRef .tc main_arg1) := by
  after_results

/-! ## Stretch 7: the index of the zero column outside the box -/

theorem s7_idx : (after hostOps0_7 W (Proc.devRef .tc main_v50) : IVec S8388608 32)
    = select (W (Proc.devRef .tc main_v16)) (W (Proc.devRef .tc main_v49)) (broadcastInDim SP ![] bcast_S0_SP (id (W (Proc.devRef .tc main_c_15)))) := by
  after_results_simp; rfl
theorem s7_arg0 : after hostOps0_7 W (Proc.devRef .tc main_arg0) = W (Proc.devRef .tc main_arg0) := by
  after_results_simp
theorem s7_arg1 : after hostOps0_7 W (Proc.devRef .tc main_arg1) = W (Proc.devRef .tc main_arg1) := by
  after_results_simp

/-! ## Stretch 8: the table -/

theorem s8_table : (after hostOps0_8 W (Proc.devRef .tc main_v54) : FVec F S4x2097153 .f32) = table (W (Proc.devRef .tc main_arg1)) := by
  after_results; rfl
theorem s8_idx : after hostOps0_8 W (Proc.devRef .tc main_v50) = W (Proc.devRef .tc main_v50) := by
  after_results
theorem s8_arg0 : after hostOps0_8 W (Proc.devRef .tc main_arg0) = W (Proc.devRef .tc main_arg0) := by
  after_results

/-! ## Stretch 9: the take, in three parts -/

/-- The take's first eight operations: the start index normalised and laid out as a column. -/
abbrev takeOps1 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S8388608, .i32⟩) (broadcastInDim S8388608 ![] bcast_S_S8388608),
    StableHlo.TRef.binary (.of main_v50 : StableHlo.TRef sig ⟨S8388608, .i32⟩) (.of main_call4_v0 : StableHlo.TRef sig ⟨S8388608, .i32⟩) (.of main_call4_v1 : StableHlo.TRef sig ⟨S8388608, .i1⟩) (cmpi .slt),
    StableHlo.TRef.nullary (.of main_call4_c_0 : StableHlo.TRef sig ⟨S_, .i32⟩) (constantI S_ 32 2097153#32),
    StableHlo.TRef.unary (.of main_call4_c_0 : StableHlo.TRef sig ⟨S_, .i32⟩) (.of main_call4_v2 : StableHlo.TRef sig ⟨S8388608, .i32⟩) (broadcastInDim S8388608 ![] bcast_S_S8388608),
    StableHlo.TRef.binary (.of main_v50 : StableHlo.TRef sig ⟨S8388608, .i32⟩) (.of main_call4_v2 : StableHlo.TRef sig ⟨S8388608, .i32⟩) (.of main_call4_v3 : StableHlo.TRef sig ⟨S8388608, .i32⟩) addi,
    StableHlo.TRef.ternary (.of main_call4_v1 : StableHlo.TRef sig ⟨S8388608, .i1⟩) (.of main_call4_v3 : StableHlo.TRef sig ⟨S8388608, .i32⟩) (.of main_v50 : StableHlo.TRef sig ⟨S8388608, .i32⟩) (.of main_call4_v4 : StableHlo.TRef sig ⟨S8388608, .i32⟩) select,
    StableHlo.TRef.unary main_call4_call0.v0 (.of main_call4_v5 : StableHlo.TRef sig ⟨S8388608x1, .i32⟩) (broadcastInDim S8388608x1 ![0] bcast_S8388608_S8388608x1_0) ]
/-- Its next ten: the range test of the start index. -/
abbrev takeOps2 : List (HloOp τ sig (Elt F)) :=
  [ StableHlo.TRef.nullary (.of main_call4_c_1 : StableHlo.TRef sig ⟨S1, .i32⟩) (constantI S1 32 2097152#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S8388608x1, .i32⟩) (broadcastInDim S8388608x1 ![] bcast_S_S8388608x1),
    StableHlo.TRef.binary (.of main_call4_v5 : StableHlo.TRef sig ⟨S8388608x1, .i32⟩) (.of main_call4_v6 : StableHlo.TRef sig ⟨S8388608x1, .i32⟩) (.of main_call4_v7 : StableHlo.TRef sig ⟨S8388608x1, .i1⟩) (cmpi .sge),
    StableHlo.TRef.unary (.of main_call4_c_1 : StableHlo.TRef sig ⟨S1, .i32⟩) (.of main_call4_v8 : StableHlo.TRef sig ⟨S1x1, .i32⟩) (broadcastInDim S1x1 ![1] bcast_S1_S1x1_1),
    StableHlo.TRef.unary (.of main_call4_v8 : StableHlo.TRef sig ⟨S1x1, .i32⟩) (.of main_call4_v9 : StableHlo.TRef sig ⟨S8388608x1, .i32⟩) (broadcastInDim S8388608x1 ![0, 1] bcast_S1x1_S8388608x1_0_1),
    StableHlo.TRef.binary (.of main_call4_v5 : StableHlo.TRef sig ⟨S8388608x1, .i32⟩) (.of main_call4_v9 : StableHlo.TRef sig ⟨S8388608x1, .i32⟩) (.of main_call4_v10 : StableHlo.TRef sig ⟨S8388608x1, .i1⟩) (cmpi .sle),
    StableHlo.TRef.binary (.of main_call4_v7 : StableHlo.TRef sig ⟨S8388608x1, .i1⟩) (.of main_call4_v10 : StableHlo.TRef sig ⟨S8388608x1, .i1⟩) (.of main_call4_v11 : StableHlo.TRef sig ⟨S8388608x1, .i1⟩) andi,
    StableHlo.TRef.nullary (.of main_call4_c_3 : StableHlo.TRef sig ⟨S_, .i1⟩) (constantI S_ 1 1#1),
    StableHlo.TRef.binary (.of main_call4_v11 : StableHlo.TRef sig ⟨S8388608x1, .i1⟩) (.of main_call4_c_3 : StableHlo.TRef sig ⟨S_, .i1⟩) (.of main_call4_v12 : StableHlo.TRef sig ⟨S8388608, .i1⟩) (fun x v => Host.reduce IntOp.andi x v reducesTo_S8388608x1_S8388608_d1 h_S_) ]
/-- Its last five: the gather, and the fill where the range test fails. -/
abbrev takeOps3 : List (HloOp τ sig (Elt F)) :=
  [ StableHlo.TRef.binary (.of main_v54 : StableHlo.TRef sig ⟨S4x2097153, .f32⟩) (.of main_call4_v5 : StableHlo.TRef sig ⟨S8388608x1, .i32⟩) (.of main_call4_v13 : StableHlo.TRef sig ⟨S4x8388608, .f32⟩) (fun x i => Host.gather gather_S4x2097153_S8388608x1_S4x8388608_0_1_n_n_1_1_41 x i),
    StableHlo.TRef.unary (.of main_call4_v12 : StableHlo.TRef sig ⟨S8388608, .i1⟩) (.of main_call4_v14 : StableHlo.TRef sig ⟨S4x8388608, .i1⟩) (broadcastInDim S4x8388608 ![1] bcast_S8388608_S4x8388608_1),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v15 : StableHlo.TRef sig ⟨S4x8388608, .f32⟩) (broadcastInDim S4x8388608 ![] bcast_S_S4x8388608),
    StableHlo.TRef.ternary (.of main_call4_v14 : StableHlo.TRef sig ⟨S4x8388608, .i1⟩) (.of main_call4_v13 : StableHlo.TRef sig ⟨S4x8388608, .f32⟩) (.of main_call4_v15 : StableHlo.TRef sig ⟨S4x8388608, .f32⟩) (.of main_v55 : StableHlo.TRef sig ⟨S4x8388608, .f32⟩) select ]

theorem take_split : (hostOps0_9 : List (HloOp τ sig (Elt F))) = takeOps1 ++ (takeOps2 ++ takeOps3) := rfl

/-- The range test of a column of start indices. -/
def rangeOf (col : IVec SP1 32) : IVec SP 1 :=
  Host.reduce IntOp.andi
    (andi (cmpi .sge col (broadcastInDim SP1 ![] bcast_S0_SP1 (constantI S0 32 0#32)))
      (cmpi .sle col
        (broadcastInDim SP1 ![0, 1] bcast_S11_SP1 (broadcastInDim S11 ![1] bcast_S1_S11 (constantI S1 32 2097152#32)))))
    (constantI S0 1 1#1) reduces_SP1_SP pos_S0

/-- The gather at a column of start indices, filled where the range test `rng` fails. -/
def takeAt (tab : FVec F S4W .f32) (col : IVec SP1 32) (rng : IVec SP 1) : FVec F S4P .f32 :=
  select (broadcastInDim S4P ![1] bcast_SP_S4P rng) (Host.gather takeDims tab col)
    (broadcastInDim S4P ![] bcast_S0_S4P (constant S0 .f32 0x7FC00000#32))

theorem take_eq (tab : FVec F S4W .f32) (i : IVec SP 32) : take tab i = takeAt tab (startCol i) (rangeOf (startCol i)) := rfl

set_option maxRecDepth 16384 in
set_option maxHeartbeats 2000000 in
theorem s9a_col : (after takeOps1 W (Proc.devRef .tc main_call4_v5) : IVec S8388608x1 32) = startCol (W (Proc.devRef .tc main_v50)) := by
  after_results_simp; rfl
theorem s9a_table : after takeOps1 W (Proc.devRef .tc main_v54) = W (Proc.devRef .tc main_v54) := by
  after_results_simp

attribute [local irreducible] Host.reduce in
set_option maxRecDepth 16384 in
set_option maxHeartbeats 2000000 in
theorem s9b_range : (after takeOps2 W (Proc.devRef .tc main_call4_v12) : IVec S8388608 1) = rangeOf (W (Proc.devRef .tc main_call4_v5)) := by
  after_results_simp
  simp only [TRef.ofBuf, TRef.toBuf, cast_cast]
  rfl
theorem s9b_col : after takeOps2 W (Proc.devRef .tc main_call4_v5) = W (Proc.devRef .tc main_call4_v5) := by
  after_results_simp
theorem s9b_table : after takeOps2 W (Proc.devRef .tc main_v54) = W (Proc.devRef .tc main_v54) := by
  after_results_simp

attribute [local irreducible] Host.gather in
set_option maxRecDepth 16384 in
set_option maxHeartbeats 2000000 in
theorem s9c_take : (after takeOps3 W (Proc.devRef .tc main_v55) : FVec F S4x8388608 .f32)
    = takeAt (W (Proc.devRef .tc main_v54)) (W (Proc.devRef .tc main_call4_v5)) (W (Proc.devRef .tc main_call4_v12)) := by
  after_results_simp
  simp only [TRef.ofBuf, TRef.toBuf, cast_cast]
  rfl

theorem s9_take : (after hostOps0_9 W (Proc.devRef .tc main_v55) : FVec F S4x8388608 .f32)
    = take (W (Proc.devRef .tc main_v54)) (W (Proc.devRef .tc main_v50)) := by
  rw [take_split, StableHlo.after_append, StableHlo.after_append, s9c_take, s9b_range, s9b_col, s9b_table, s9a_col, s9a_table, take_eq]

/-! ## The ten stretches together -/

variable (m : (ℓ : Loc nD τ sig) → Buf (Elt F) ℓ)

/-- The array the pallas_call reads, as the region finds it: channel by point, the grid's entry at the point's
    flat cell, and the zero column's outside the box. -/
theorem entry_eq (c : Dev nD) :
    (V m c main_v55 : FVec F S4x8388608 .f32)
      = gathered (m ((c : Thread nD τ).loc main_arg0)) (m ((c : Thread nD τ).loc main_arg1)) := by
  show StableHlo.after (List.flatten [hostOps0, hostOps0_1, hostOps0_2, hostOps0_3, hostOps0_4, hostOps0_5, hostOps0_6, hostOps0_7, hostOps0_8, hostOps0_9]) (fun b => m (c, b)) (Proc.devRef .tc main_v55) = _
  simp only [List.flatten_cons, List.flatten_nil, List.append_nil, StableHlo.after_append]
  have h0 := cells_cell0 (F := F) (fun b => m (c, b))
  have h1 := cells_cell1 (F := F) (fun b => m (c, b))
  have h2 := cells_cell2 (F := F) (fun b => m (c, b))
  have hb := cells_inBox (F := F) (fun b => m (c, b))
  have ha := cells_arg1 (F := F) (fun b => m (c, b))
  unfold afterCells at h0 h1 h2 hb ha
  rw [s9_take, s8_table, s8_idx, s7_idx, s7_arg1, s6_flat, s6_out, s6_inBox, s6_arg1, h0, h1, h2, hb, ha]
  rfl

/-! ## The lines after the pallas_call -/

theorem tail_rgb : (after hostOps1 W (Proc.devRef .tc main_v58) : FVec F S8388608x3 .f32) = rgbOf (W (Proc.devRef .tc main_v56)) := by
  after_results; rfl
theorem tail_dens : (after hostOps1 W (Proc.devRef .tc main_v59) : FVec F S8388608x1 .f32) = densOf (W (Proc.devRef .tc main_v56)) := by
  after_results; rfl

end Cert.KernelIdeal.Host

end
-- ==== Proof.Activation.lean ====
/-
  The activation the kernel applies, row by row of a [4, points] array: the logistic function on the three
  colour rows, `max (10 · v, 0)` on the density row.
-/
import Idealize.ShloMosaic.PureOps

noncomputable section

namespace Cert.Voxels

open Idealize.ShloMosaic

variable {F : FTy → Type} [FloatOps F]

/-- The activation of an entry `v` of row `r`. -/
def actRow (r : Nat) (v : F .f32) : F .f32 :=
  if r < 3 then FloatOps.logistic v
  else FloatOps.maximumf (FloatOps.mulf v (Scalar.ofBits .f32 0x41200000#32)) (Scalar.ofBits .f32 0x00000000#32)

theorem actRow_colour {r : Nat} (h : r < 3) (v : F .f32) : actRow r v = FloatOps.logistic v := if_pos h
theorem actRow_density (v : F .f32) :
    actRow 3 v = FloatOps.maximumf (FloatOps.mulf v (Scalar.ofBits .f32 0x41200000#32)) (Scalar.ofBits .f32 0x00000000#32) :=
  if_neg (by decide)

end Cert.Voxels

end
-- ==== Proof.KernelValue.lean ====
/-
  What the kernel's program ends holding. The pallas_call walks 64 column blocks of 131072 points; at each it reads
  the block's four rows and stores the logistic of rows 0, 1, 2 and max (10 · v, 0) of row 3: the block of
  `actRow` applied entry by entry. The blocks tile the [4, points] output, so the whole output is `actRow` of the
  array the call read, entry by entry; the lines after the call transpose it and cut the colour and density columns.
-/
import proofs.«429610_j40518721470753_3_alg».proof.Proof.Gen.KernelIdeal.Frame
import proofs.«429610_j40518721470753_3_alg».proof.Proof.Activation
import Idealize.ShloMosaic.Lib.Pipeline.Value

set_option maxRecDepth 16384

noncomputable section

namespace Cert.KernelIdeal.Act

open Cert.KernelIdeal Cert.KernelIdeal.Gen Idealize.ShloMosaic Idealize.ShloMosaic.TcCoe Idealize.SL.Sem
open Idealize.ShloMosaic.Pipeline (Dat)
open Cert.Voxels (actRow actRow_colour actRow_density)

variable {F : FTy → Type} [FloatOps F]
variable (m : (ℓ : Loc nD τ sig) → Buf (Elt F) ℓ) (ρ : Dev nD → PrngReg)

/-- The activation of a block, entry by entry, by the entry's row. -/
abbrev actBlk (x0 : Vec F S4x131072 .f32) : Vec F S4x131072 .f32 := fun j => actRow (j 0).val (x0 j)
/-- The activation of the whole [4, points] array. -/
abbrev actArr (g : S4x8388608.Idx → Elt F .f32) : S4x8388608.Idx → Elt F .f32 := fun i => actRow (i 0).val (g i)

/-! ## The body's four stored rows -/

theorem pay1_eq (v : Vec F S1x131072 .f32) : k0_pay1 v = logistic v :=
  shapeCast_shapeCast (logistic v) _ _
theorem pay2_eq (v : Vec F S1x131072 .f32) : k0_pay2 v = logistic v :=
  shapeCast_shapeCast (logistic v) _ _
theorem pay3_eq (v : Vec F S1x131072 .f32) : k0_pay3 v = logistic v :=
  shapeCast_shapeCast (logistic v) _ _
theorem pay4_eq (v : Vec F S1x131072 .f32) :
    k0_pay4 v = maximumf (mulf v (broadcast S1x131072 (Scalar.ofBits .f32 0x41200000#32))) (broadcast S1x131072 (Scalar.ofBits .f32 0x00000000#32)) :=
  shapeCast_shapeCast (maximumf (mulf v (broadcast S1x131072 (Scalar.ofBits .f32 0x41200000#32))) (broadcast S1x131072 (Scalar.ofBits .f32 0x00000000#32))) _ _

/-- What the body leaves in the output block: the activation of the input block. -/
theorem out_eq (x0 : Vec F S4x131072 .f32) : out0_1 x0 = actBlk x0 := by
  funext y
  unfold out0_1
  refine View.canon_apply_of_pieces (actBlk x0) _ ?_ y (cover0_1 _ _ _ _ y)
  intro p hp x
  simp only [List.mem_cons, List.mem_nil_iff, or_false] at hp
  rcases hp with rfl | rfl | rfl | rfl
  · show k0_pay4 (View.ld x0 r0_3) x = actRow ((r0_3.emb x) 0).val (x0 (r0_3.emb x))
    rw [pay4_eq]
    have hx : (x 0).val < 1 := (x 0).isLt
    have hr : ((r0_3.emb x) 0 : Nat) = 3 := by
      rw [Rect.emb_apply]; show 3 + 1 * (x 0 : Nat) = 3; omega
    rw [hr, actRow_density]; rfl
  · show k0_pay3 (View.ld x0 r0_2) x = actRow ((r0_2.emb x) 0).val (x0 (r0_2.emb x))
    rw [pay3_eq]
    have hx : (x 0).val < 1 := (x 0).isLt
    have hr : ((r0_2.emb x) 0 : Nat) = 2 := by
      rw [Rect.emb_apply]; show 2 + 1 * (x 0 : Nat) = 2; omega
    rw [hr, actRow_colour (by decide)]; rfl
  · show k0_pay2 (View.ld x0 r0_1) x = actRow ((r0_1.emb x) 0).val (x0 (r0_1.emb x))
    rw [pay2_eq]
    have hx : (x 0).val < 1 := (x 0).isLt
    have hr : ((r0_1.emb x) 0 : Nat) = 1 := by
      rw [Rect.emb_apply]; show 1 + 1 * (x 0 : Nat) = 1; omega
    rw [hr, actRow_colour (by decide)]; rfl
  · show k0_pay1 (View.ld x0 r0_0) x = actRow ((r0_0.emb x) 0).val (x0 (r0_0.emb x))
    rw [pay1_eq]
    have hx : (x 0).val < 1 := (x 0).isLt
    have hr : ((r0_0.emb x) 0 : Nat) = 0 := by
      rw [Rect.emb_apply]; show 0 + 1 * (x 0 : Nat) = 0; omega
    rw [hr, actRow_colour (by decide)]; rfl

/-! ## From blocks to the array -/

/-- The printed index maps, decided over the grid: input and output blocks are the same column block, numbered by the grid point. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- Reading a block of the activation of an array is activating the block read: blocks keep their rows. -/
theorem read_act (A : S4x8388608.Idx → Elt F .f32) (t : Fin cfg0.N) :
    actBlk (((cfg0.win 0).blk t).view.read (Elt F) A) = ((cfg0.win 1).blk t).view.read (Elt F) (actArr A) := by
  obtain ⟨e0, e1, e2, e3⟩ := idx_facts t
  funext j
  show actRow (j 0).val (A (((cfg0.win 0).blk t).view.emb j))
    = actRow ((((cfg0.win 1).blk t).view.emb j) 0).val (A (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 4 + 1 * (j 0).val = win0_1.index t (0 : Fin 2) * 4 + 1 * (j 0).val; omega
    | ⟨1, _⟩ => show win0_0.index t (1 : Fin 2) * 131072 + 1 * (j 1).val = win0_1.index t (1 : Fin 2) * 131072 + 1 * (j 1).val; omega
  have hrow : ((((cfg0.win 1).blk t).view.emb j) 0 : Nat) = (j 0).val := by
    show win0_1.index t (0 : Fin 2) * 4 + 1 * (j 0).val = (j 0).val; omega
  rw [h0, hrow]

/-- What grid point `t` writes back is block `t` of the activation of the array the call read. -/
theorem flushed_eq (c : Dev nD) (t : Fin cfg0.N) :
    (dats m 0 c).flushed 1 t = ((cfg0.win 1).blk t).view.read (Elt F) (actArr (V m c main_v55)) := by
  show (cfg0.win 1).cut (grid0.coords t) ((dats m 0 c).after 1 t) = _
  rw [after0_1, out_eq]
  exact read_act (V m c main_v55) t

/-- An index of the output is in grid point `t`'s block iff each coordinate is in the block's range on its axis. -/
theorem mem_blk (t : Fin cfg0.N) (i : S4x8388608.Idx) :
    i ∈ ((cfg0.win 1).blk t).view.set ↔ ∀ a : Fin 2, win0_1.index t a * S4x131072.size a ≤ (i a).val ∧ (i a).val < win0_1.index t a * S4x131072.size a + S4x131072.size a := by
  show i ∈ ((View.whole main_v56).slice (win0_1.rect t)).set ↔ _
  rw [View.set_slice_whole, Rect.mem_set_unit]
  exact Iff.rfl

/-- The blocks tile the output: every index is in the block of the grid point numbered by its column block. -/
theorem cover (i : S4x8388608.Idx) : ∃ t : Fin cfg0.N, (cfg0.win 1).flush t = true ∧ i ∈ ((cfg0.win 1).blk t).view.set := by
  have hi0 : (i 0).val < 4 := (i 0).isLt
  have hi1 : (i 1).val < 8388608 := (i 1).isLt
  have hN : (i 1).val / 131072 < cfg0.N := by show _ < grid0.N; rw [N_0]; omega
  obtain ⟨-, -, q0, q1⟩ := idx_facts ⟨(i 1).val / 131072, hN⟩
  refine ⟨⟨(i 1).val / 131072, hN⟩, flush0_1 _, ?_⟩
  rw [mem_blk]
  intro a
  match a with
  | ⟨0, _⟩ => show win0_1.index _ (0 : Fin 2) * 4 ≤ (i 0).val ∧ (i 0).val < win0_1.index _ (0 : Fin 2) * 4 + 4; rw [q0]; omega
  | ⟨1, _⟩ => show win0_1.index _ (1 : Fin 2) * 131072 ≤ (i 1).val ∧ (i 1).val < win0_1.index _ (1 : Fin 2) * 131072 + 131072; rw [q1]; show (i 1).val / 131072 * 131072 ≤ (i 1).val ∧ (i 1).val < (i 1).val / 131072 * 131072 + 131072; omega

/-- The output array after the run: the activation of the array the call read, entry by entry. -/
theorem final (c : Dev nD) : (dats m 0 c).arrAt 1 cfg0.N = actArr (V m c main_v55) :=
  (dats m 0 c).arrAt_eq_of_cover 1 (actArr (V m c main_v55)) (fun t _ => flushed_eq m c t) cover

end Cert.KernelIdeal.Act

end
-- ==== Proof.KernelRun.lean ====
/-
  The kernel's program, run: every weakly fair execution ends with the colour result at the transposed colour rows
  of the activated `gathered` array, the density result at its transposed density row, and the two arguments as
  they were. The pallas_call's output is read off the frame run (the blocks tile it), the array it read is
  `gathered` of the arguments, and the three lines after the call are a transpose and two column cuts.
-/
import proofs.«429610_j40518721470753_3_alg».proof.Proof.KernelEntry
import proofs.«429610_j40518721470753_3_alg».proof.Proof.KernelValue

noncomputable section

namespace Cert.KernelIdeal.Act

open Cert.KernelIdeal Cert.KernelIdeal.Gen Cert.KernelIdeal.Host Idealize.ShloMosaic Idealize.ShloMosaic.TcCoe Idealize.SL.Sem
open Idealize.ShloMosaic.Pipeline (Dat)
open Cert.Voxels (actRow gathered rgbOf densOf)

variable {F : FTy → Type} [FloatOps F]
variable (m : (ℓ : Loc nD τ sig) → Buf (Elt F) ℓ) (ρ : Dev nD → PrngReg)

/-- The pallas_call's output buffer as the lines after the call find it. -/
theorem exit_eq (c : Dev nD) :
    Pipeline.withArrays spec0 c (V0 m c) (fun w => (dats m 0 c).arrAt w cfg0.N) (Proc.devRef .tc main_v56)
      = actArr (gathered (m ((c : Thread nD τ).loc main_arg0)) (m ((c : Thread nD τ).loc main_arg1))) := by
  refine (Pipeline.withArrays_arr spec0 launch0.win.arr_inj c _ _ 1).trans ?_
  rw [final, entry_eq]

/-- The colour result after the lines that follow the call. -/
theorem tail_rgb_eq (c : Dev nD) :
    (Pipeline.afterTail₀ cfgs (dats m) 0 (V0 m) [hostOps1] c main_v58 : FVec F S8388608x3 .f32)
      = rgbOf (actArr (gathered (m ((c : Thread nD τ).loc main_arg0)) (m ((c : Thread nD τ).loc main_arg1)))) := by
  unfold Pipeline.afterTail₀
  show StableHlo.after hostOps1 _ (Proc.devRef .tc main_v58) = _
  rw [tail_rgb]
  exact congrArg rgbOf (exit_eq m c)

/-- The density result after the lines that follow the call. -/
theorem tail_dens_eq (c : Dev nD) :
    (Pipeline.afterTail₀ cfgs (dats m) 0 (V0 m) [hostOps1] c main_v59 : FVec F S8388608x1 .f32)
      = densOf (actArr (gathered (m ((c : Thread nD τ).loc main_arg0)) (m ((c : Thread nD τ).loc main_arg1)))) := by
  unfold Pipeline.afterTail₀
  show StableHlo.after hostOps1 _ (Proc.devRef .tc main_v59) = _
  rw [tail_dens]
  exact congrArg densOf (exit_eq m c)

/-- The run, with both results named and the arguments unchanged. -/
theorem run : θ_run defs (onTc (τ := τ) (main (F := F))) ⟨m, fun _ => 0, ρ⟩ fun r => ∀ c : Dev nD,
      r.2.mem ((c.tc : Thread nD τ).loc main_v58)
        = rgbOf (actArr (gathered (m ((c.tc : Thread nD τ).loc main_arg0)) (m ((c.tc : Thread nD τ).loc main_arg1))))
      ∧ r.2.mem ((c.tc : Thread nD τ).loc main_v59)
        = densOf (actArr (gathered (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v58 (Pipeline.mem_restRefs_of main_v58 (by decide) (by decide))).trans (tail_rgb_eq m c),
       ((h c).2 main_v59 (Pipeline.mem_restRefs_of main_v59 (by decide) (by decide))).trans (tail_dens_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Act

end
-- ==== Proof.RefOps.lean ====
/-
  The reference program's @main as literal lists of its host operations, the module-local functions' bodies
  written out at their call sites over each call's buffer record: six stretches that form the box mask and the
  three cell numbers (the three coordinate columns and the first raw cell number; a floored modulus by 128;
  the second raw cell number; its modulus; the third raw cell number; its modulus), then five more: the cell
  numbers normalised and set as columns; the three columns joined, the grid read at them and the colour
  channels masked; the density channel scaled and masked; the logistic function of the colours; the density
  clipped below at zero and set as a column. @main is the straight line of these 173 operations, in order.
-/
import proofs.«429610_j40518721470753_3_alg».proof.Proof.Gen.ReferenceIdeal
import Idealize.ShloMosaic.Lib.Pipeline.Regions
import Idealize.ShloMosaic.Lib.StableHlo.Run

set_option maxRecDepth 1188

noncomputable section

namespace Cert.ReferenceIdeal.Gen

open Idealize.ShloMosaic Idealize.ShloMosaic.TcCoe Idealize.SL.Sem

variable {F : FTy → Type} [FloatOps F]

/-! ## The stretches -/

/-- 32 operations of @main: the coordinate columns, the box mask, the first raw cell number and its divisor. -/
abbrev hostOps0 : List (HloOp τ sig (Elt F)) :=
  [ StableHlo.unary main_arg0 main_v0 ((extractStridedSlice S8388608x1 ![0, 0] · slices_S8388608x3_S8388608x1_0_0) : (⟨S8388608x3, .f32⟩ : BufTy).Contents (Elt F) → (⟨S8388608x1, .f32⟩ : BufTy).Contents (Elt F)),
    StableHlo.reshape main_v0 main_v1 rfl shapeCasts_S8388608x1_S8388608,
    StableHlo.unary main_arg0 main_v2 ((extractStridedSlice S8388608x1 ![0, 1] · slices_S8388608x3_S8388608x1_0_1) : (⟨S8388608x3, .f32⟩ : BufTy).Contents (Elt F) → (⟨S8388608x1, .f32⟩ : BufTy).Contents (Elt F)),
    StableHlo.reshape main_v2 main_v3 rfl shapeCasts_S8388608x1_S8388608,
    StableHlo.unary main_arg0 main_v4 ((extractStridedSlice S8388608x1 ![0, 2] · slices_S8388608x3_S8388608x1_0_2) : (⟨S8388608x3, .f32⟩ : BufTy).Contents (Elt F) → (⟨S8388608x1, .f32⟩ : BufTy).Contents (Elt F)),
    StableHlo.reshape main_v4 main_v5 rfl shapeCasts_S8388608x1_S8388608,
    StableHlo.unary main_v1 main_v6 (Host.absf : (⟨S8388608, .f32⟩ : BufTy).Contents (Elt F) → (⟨S8388608, .f32⟩ : BufTy).Contents (Elt F)),
    StableHlo.nullary main_cst (constant S_ .f32 0x3F000000#32),
    StableHlo.unary main_cst main_v7 (broadcastInDim S8388608 ![] bcast_S_S8388608 : (⟨S_, .f32⟩ : BufTy).Contents (Elt F) → (⟨S8388608, .f32⟩ : BufTy).Contents (Elt F)),
    StableHlo.binary main_v6 main_v7 main_v8 (cmpf .olt : (⟨S8388608, .f32⟩ : BufTy).Contents (Elt F) → (⟨S8388608, .f32⟩ : BufTy).Contents (Elt F) → (⟨S8388608, .i1⟩ : BufTy).Contents (Elt F)),
    StableHlo.unary main_v3 main_v9 (Host.absf : (⟨S8388608, .f32⟩ : BufTy).Contents (Elt F) → (⟨S8388608, .f32⟩ : BufTy).Contents (Elt F)),
    StableHlo.nullary main_cst_0 (constant S_ .f32 0x3F000000#32),
    StableHlo.unary main_cst_0 main_v10 (broadcastInDim S8388608 ![] bcast_S_S8388608 : (⟨S_, .f32⟩ : BufTy).Contents (Elt F) → (⟨S8388608, .f32⟩ : BufTy).Contents (Elt F)),
    StableHlo.binary main_v9 main_v10 main_v11 (cmpf .olt : (⟨S8388608, .f32⟩ : BufTy).Contents (Elt F) → (⟨S8388608, .f32⟩ : BufTy).Contents (Elt F) → (⟨S8388608, .i1⟩ : BufTy).Contents (Elt F)),
    StableHlo.binary main_v8 main_v11 main_v12 (andi : (⟨S8388608, .i1⟩ : BufTy).Contents (Elt F) → (⟨S8388608, .i1⟩ : BufTy).Contents (Elt F) → (⟨S8388608, .i1⟩ : BufTy).Contents (Elt F)),
    StableHlo.unary main_v5 main_v13 (Host.absf : (⟨S8388608, .f32⟩ : BufTy).Contents (Elt F) → (⟨S8388608, .f32⟩ : BufTy).Contents (Elt F)),
    StableHlo.nullary main_cst_1 (constant S_ .f32 0x3F000000#32),
    StableHlo.unary main_cst_1 main_v14 (broadcastInDim S8388608 ![] bcast_S_S8388608 : (⟨S_, .f32⟩ : BufTy).Contents (Elt F) → (⟨S8388608, .f32⟩ : BufTy).Contents (Elt F)),
    StableHlo.binary main_v13 main_v14 main_v15 (cmpf .olt : (⟨S8388608, .f32⟩ : BufTy).Contents (Elt F) → (⟨S8388608, .f32⟩ : BufTy).Contents (Elt F) → (⟨S8388608, .i1⟩ : BufTy).Contents (Elt F)),
    StableHlo.binary main_v12 main_v15 main_v16 (andi : (⟨S8388608, .i1⟩ : BufTy).Contents (Elt F) → (⟨S8388608, .i1⟩ : BufTy).Contents (Elt F) → (⟨S8388608, .i1⟩ : BufTy).Contents (Elt F)),
    StableHlo.nullary main_cst_2 (constant S_ .f32 0x3C000000#32),
    StableHlo.unary main_cst_2 main_v17 (broadcastInDim S8388608 ![] bcast_S_S8388608 : (⟨S_, .f32⟩ : BufTy).Contents (Elt F) → (⟨S8388608, .f32⟩ : BufTy).Contents (Elt F)),
    StableHlo.binary main_v1 main_v17 main_v18 (Host.divf : (⟨S8388608, .f32⟩ : BufTy).Contents (Elt F) → (⟨S8388608, .f32⟩ : BufTy).Contents (Elt F) → (⟨S8388608, .f32⟩ : BufTy).Contents (Elt F)),
    StableHlo.nullary main_cst_3 (constant S_ .f32 0x42800000#32),
    StableHlo.unary main_cst_3 main_v19 (broadcastInDim S8388608 ![] bcast_S_S8388608 : (⟨S_, .f32⟩ : BufTy).Contents (Elt F) → (⟨S8388608, .f32⟩ : BufTy).Contents (Elt F)),
    StableHlo.binary main_v18 main_v19 main_v20 (addf : (⟨S8388608, .f32⟩ : BufTy).Contents (Elt F) → (⟨S8388608, .f32⟩ : BufTy).Contents (Elt F) → (⟨S8388608, .f32⟩ : BufTy).Contents (Elt F)),
    StableHlo.unary main_v20 main_v21 (Host.floor : (⟨S8388608, .f32⟩ : BufTy).Contents (Elt F) → (⟨S8388608, .f32⟩ : BufTy).Contents (Elt F)),
    StableHlo.unary main_v21 main_v22 (fptosi 32 : (⟨S8388608, .f32⟩ : BufTy).Contents (Elt F) → (⟨S8388608, .i32⟩ : BufTy).Contents (Elt F)),
    StableHlo.nullary main_c (constantI S_ 32 1#32),
    StableHlo.unary main_c main_v23 (broadcastInDim S8388608 ![] bcast_S_S8388608 : (⟨S_, .i32⟩ : BufTy).Contents (Elt F) → (⟨S8388608, .i32⟩ : BufTy).Contents (Elt F)),
    StableHlo.binary main_v22 main_v23 main_v24 (subi : (⟨S8388608, .i32⟩ : BufTy).Contents (Elt F) → (⟨S8388608, .i32⟩ : BufTy).Contents (Elt F) → (⟨S8388608, .i32⟩ : BufTy).Contents (Elt F)),
    StableHlo.nullary main_c_4 (constantI S_ 32 128#32) ]
/-- Every operation of it touches TensorCore references only. -/
theorem hostOps0_sub : (hostOps0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub ..⟩
/-- Every operation of it determines the contents of what it writes. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- 21 operations of @remainder (main_call0): the first raw cell number's floored modulus. -/
abbrev hostOps0_1 : List (HloOp τ sig (Elt F)) :=
  [ StableHlo.TRef.unary (.of main_c_4 : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S8388608, .i32⟩) (broadcastInDim S8388608 ![] bcast_S_S8388608),
    StableHlo.TRef.binary (.of main_v24 : StableHlo.TRef sig ⟨S8388608, .i32⟩) (.of main_call0_v3 : StableHlo.TRef sig ⟨S8388608, .i32⟩) (.of main_call0_v4 : StableHlo.TRef sig ⟨S8388608, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S8388608, .i32⟩) (broadcastInDim S8388608 ![] bcast_S_S8388608),
    StableHlo.TRef.binary (.of main_call0_v4 : StableHlo.TRef sig ⟨S8388608, .i32⟩) (.of main_call0_v5 : StableHlo.TRef sig ⟨S8388608, .i32⟩) (.of main_call0_v6 : StableHlo.TRef sig ⟨S8388608, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S8388608, .i32⟩) (broadcastInDim S8388608 ![] bcast_S_S8388608),
    StableHlo.TRef.binary (.of main_call0_v4 : StableHlo.TRef sig ⟨S8388608, .i32⟩) (.of main_call0_v7 : StableHlo.TRef sig ⟨S8388608, .i32⟩) (.of main_call0_v8 : StableHlo.TRef sig ⟨S8388608, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S8388608, .i1⟩) (broadcastInDim S8388608 ![] bcast_S_S8388608),
    StableHlo.TRef.binary (.of main_call0_v8 : StableHlo.TRef sig ⟨S8388608, .i1⟩) (.of main_call0_v10 : StableHlo.TRef sig ⟨S8388608, .i1⟩) (.of main_call0_v11 : StableHlo.TRef sig ⟨S8388608, .i1⟩) (cmpi .ne),
    StableHlo.TRef.binary (.of main_call0_v11 : StableHlo.TRef sig ⟨S8388608, .i1⟩) (.of main_call0_v6 : StableHlo.TRef sig ⟨S8388608, .i1⟩) (.of main_call0_v12 : StableHlo.TRef sig ⟨S8388608, .i1⟩) andi,
    StableHlo.TRef.unary main_call0_call0.v0 (.of main_call0_v13 : StableHlo.TRef sig ⟨S8388608, .i32⟩) (broadcastInDim S8388608 ![] bcast_S_S8388608),
    StableHlo.TRef.binary (.of main_call0_v4 : StableHlo.TRef sig ⟨S8388608, .i32⟩) (.of main_call0_v13 : StableHlo.TRef sig ⟨S8388608, .i32⟩) (.of main_call0_v14 : StableHlo.TRef sig ⟨S8388608, .i32⟩) addi,
    StableHlo.TRef.ternary (.of main_call0_v12 : StableHlo.TRef sig ⟨S8388608, .i1⟩) (.of main_call0_v14 : StableHlo.TRef sig ⟨S8388608, .i32⟩) (.of main_call0_v4 : StableHlo.TRef sig ⟨S8388608, .i32⟩) (.of main_v25 : StableHlo.TRef sig ⟨S8388608, .i32⟩) select ]
/-- Every operation of it touches TensorCore references only. -/
theorem hostOps0_1_sub : (hostOps0_1 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- Every operation of it determines the contents of what it writes. -/
theorem hostOps0_1_fresh : (hostOps0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- 12 operations of @main: the second raw cell number and its divisor. -/
abbrev hostOps0_2 : List (HloOp τ sig (Elt F)) :=
  [ StableHlo.nullary main_cst_5 (constant S_ .f32 0x3C000000#32),
    StableHlo.unary main_cst_5 main_v26 (broadcastInDim S8388608 ![] bcast_S_S8388608 : (⟨S_, .f32⟩ : BufTy).Contents (Elt F) → (⟨S8388608, .f32⟩ : BufTy).Contents (Elt F)),
    StableHlo.binary main_v3 main_v26 main_v27 (Host.divf : (⟨S8388608, .f32⟩ : BufTy).Contents (Elt F) → (⟨S8388608, .f32⟩ : BufTy).Contents (Elt F) → (⟨S8388608, .f32⟩ : BufTy).Contents (Elt F)),
    StableHlo.nullary main_cst_6 (constant S_ .f32 0x42800000#32),
    StableHlo.unary main_cst_6 main_v28 (broadcastInDim S8388608 ![] bcast_S_S8388608 : (⟨S_, .f32⟩ : BufTy).Contents (Elt F) → (⟨S8388608, .f32⟩ : BufTy).Contents (Elt F)),
    StableHlo.binary main_v27 main_v28 main_v29 (addf : (⟨S8388608, .f32⟩ : BufTy).Contents (Elt F) → (⟨S8388608, .f32⟩ : BufTy).Contents (Elt F) → (⟨S8388608, .f32⟩ : BufTy).Contents (Elt F)),
    StableHlo.unary main_v29 main_v30 (Host.floor : (⟨S8388608, .f32⟩ : BufTy).Contents (Elt F) → (⟨S8388608, .f32⟩ : BufTy).Contents (Elt F)),
    StableHlo.unary main_v30 main_v31 (fptosi 32 : (⟨S8388608, .f32⟩ : BufTy).Contents (Elt F) → (⟨S8388608, .i32⟩ : BufTy).Contents (Elt F)),
    StableHlo.nullary main_c_7 (constantI S_ 32 1#32),
    StableHlo.unary main_c_7 main_v32 (broadcastInDim S8388608 ![] bcast_S_S8388608 : (⟨S_, .i32⟩ : BufTy).Contents (Elt F) → (⟨S8388608, .i32⟩ : BufTy).Contents (Elt F)),
    StableHlo.binary main_v31 main_v32 main_v33 (subi : (⟨S8388608, .i32⟩ : BufTy).Contents (Elt F) → (⟨S8388608, .i32⟩ : BufTy).Contents (Elt F) → (⟨S8388608, .i32⟩ : BufTy).Contents (Elt F)),
    StableHlo.nullary main_c_8 (constantI S_ 32 128#32) ]
/-- Every operation of it touches TensorCore references only. -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub ..⟩
/-- Every operation of it determines the contents of what it writes. -/
theorem hostOps0_2_fresh : (hostOps0_2 : List (HloOp τ sig (Elt F))).Forall fun op => op.fresh = ∅ :=
  ⟨rfl, rfl, rfl, rfl, rfl, rfl, rfl, rfl, rfl, rfl, rfl, rfl⟩
/-- 21 operations of @remainder (main_call1): the second raw cell number's floored modulus. -/
abbrev hostOps0_3 : List (HloOp τ sig (Elt F)) :=
  [ StableHlo.TRef.unary (.of main_c_8 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S8388608, .i32⟩) (broadcastInDim S8388608 ![] bcast_S_S8388608),
    StableHlo.TRef.binary (.of main_v33 : StableHlo.TRef sig ⟨S8388608, .i32⟩) (.of main_call1_v3 : StableHlo.TRef sig ⟨S8388608, .i32⟩) (.of main_call1_v4 : StableHlo.TRef sig ⟨S8388608, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S8388608, .i32⟩) (broadcastInDim S8388608 ![] bcast_S_S8388608),
    StableHlo.TRef.binary (.of main_call1_v4 : StableHlo.TRef sig ⟨S8388608, .i32⟩) (.of main_call1_v5 : StableHlo.TRef sig ⟨S8388608, .i32⟩) (.of main_call1_v6 : StableHlo.TRef sig ⟨S8388608, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S8388608, .i32⟩) (broadcastInDim S8388608 ![] bcast_S_S8388608),
    StableHlo.TRef.binary (.of main_call1_v4 : StableHlo.TRef sig ⟨S8388608, .i32⟩) (.of main_call1_v7 : StableHlo.TRef sig ⟨S8388608, .i32⟩) (.of main_call1_v8 : StableHlo.TRef sig ⟨S8388608, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S8388608, .i1⟩) (broadcastInDim S8388608 ![] bcast_S_S8388608),
    StableHlo.TRef.binary (.of main_call1_v8 : StableHlo.TRef sig ⟨S8388608, .i1⟩) (.of main_call1_v10 : StableHlo.TRef sig ⟨S8388608, .i1⟩) (.of main_call1_v11 : StableHlo.TRef sig ⟨S8388608, .i1⟩) (cmpi .ne),
    StableHlo.TRef.binary (.of main_call1_v11 : StableHlo.TRef sig ⟨S8388608, .i1⟩) (.of main_call1_v6 : StableHlo.TRef sig ⟨S8388608, .i1⟩) (.of main_call1_v12 : StableHlo.TRef sig ⟨S8388608, .i1⟩) andi,
    StableHlo.TRef.unary main_call1_call0.v0 (.of main_call1_v13 : StableHlo.TRef sig ⟨S8388608, .i32⟩) (broadcastInDim S8388608 ![] bcast_S_S8388608),
    StableHlo.TRef.binary (.of main_call1_v4 : StableHlo.TRef sig ⟨S8388608, .i32⟩) (.of main_call1_v13 : StableHlo.TRef sig ⟨S8388608, .i32⟩) (.of main_call1_v14 : StableHlo.TRef sig ⟨S8388608, .i32⟩) addi,
    StableHlo.TRef.ternary (.of main_call1_v12 : StableHlo.TRef sig ⟨S8388608, .i1⟩) (.of main_call1_v14 : StableHlo.TRef sig ⟨S8388608, .i32⟩) (.of main_call1_v4 : StableHlo.TRef sig ⟨S8388608, .i32⟩) (.of main_v34 : StableHlo.TRef sig ⟨S8388608, .i32⟩) select ]
/-- Every operation of it touches TensorCore references only. -/
theorem hostOps0_3_sub : (hostOps0_3 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- Every operation of it determines the contents of what it writes. -/
theorem hostOps0_3_fresh : (hostOps0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- 12 operations of @main: the third raw cell number and its divisor. -/
abbrev hostOps0_4 : List (HloOp τ sig (Elt F)) :=
  [ StableHlo.nullary main_cst_9 (constant S_ .f32 0x3C000000#32),
    StableHlo.unary main_cst_9 main_v35 (broadcastInDim S8388608 ![] bcast_S_S8388608 : (⟨S_, .f32⟩ : BufTy).Contents (Elt F) → (⟨S8388608, .f32⟩ : BufTy).Contents (Elt F)),
    StableHlo.binary main_v5 main_v35 main_v36 (Host.divf : (⟨S8388608, .f32⟩ : BufTy).Contents (Elt F) → (⟨S8388608, .f32⟩ : BufTy).Contents (Elt F) → (⟨S8388608, .f32⟩ : BufTy).Contents (Elt F)),
    StableHlo.nullary main_cst_10 (constant S_ .f32 0x42800000#32),
    StableHlo.unary main_cst_10 main_v37 (broadcastInDim S8388608 ![] bcast_S_S8388608 : (⟨S_, .f32⟩ : BufTy).Contents (Elt F) → (⟨S8388608, .f32⟩ : BufTy).Contents (Elt F)),
    StableHlo.binary main_v36 main_v37 main_v38 (addf : (⟨S8388608, .f32⟩ : BufTy).Contents (Elt F) → (⟨S8388608, .f32⟩ : BufTy).Contents (Elt F) → (⟨S8388608, .f32⟩ : BufTy).Contents (Elt F)),
    StableHlo.unary main_v38 main_v39 (Host.floor : (⟨S8388608, .f32⟩ : BufTy).Contents (Elt F) → (⟨S8388608, .f32⟩ : BufTy).Contents (Elt F)),
    StableHlo.unary main_v39 main_v40 (fptosi 32 : (⟨S8388608, .f32⟩ : BufTy).Contents (Elt F) → (⟨S8388608, .i32⟩ : BufTy).Contents (Elt F)),
    StableHlo.nullary main_c_11 (constantI S_ 32 1#32),
    StableHlo.unary main_c_11 main_v41 (broadcastInDim S8388608 ![] bcast_S_S8388608 : (⟨S_, .i32⟩ : BufTy).Contents (Elt F) → (⟨S8388608, .i32⟩ : BufTy).Contents (Elt F)),
    StableHlo.binary main_v40 main_v41 main_v42 (subi : (⟨S8388608, .i32⟩ : BufTy).Contents (Elt F) → (⟨S8388608, .i32⟩ : BufTy).Contents (Elt F) → (⟨S8388608, .i32⟩ : BufTy).Contents (Elt F)),
    StableHlo.nullary main_c_12 (constantI S_ 32 128#32) ]
/-- Every operation of it touches TensorCore references only. -/
theorem hostOps0_4_sub : (hostOps0_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub ..⟩
/-- Every operation of it determines the contents of what it writes. -/
theorem hostOps0_4_fresh : (hostOps0_4 : List (HloOp τ sig (Elt F))).Forall fun op => op.fresh = ∅ :=
  ⟨rfl, rfl, rfl, rfl, rfl, rfl, rfl, rfl, rfl, rfl, rfl, rfl⟩
/-- 21 operations of @remainder (main_call2): the third raw cell number's floored modulus. -/
abbrev hostOps0_5 : List (HloOp τ sig (Elt F)) :=
  [ StableHlo.TRef.unary (.of main_c_12 : StableHlo.TRef sig ⟨S_, .i32⟩) (.of main_call2_v0 : StableHlo.TRef sig ⟨S_, .i32⟩) id,
    StableHlo.TRef.nullary (.of main_call2_c : StableHlo.TRef sig ⟨S_, .i32⟩) (constantI S_ 32 0#32),
    StableHlo.TRef.binary (.of main_call2_v0 : StableHlo.TRef sig ⟨S_, .i32⟩) (.of main_call2_c : StableHlo.TRef sig ⟨S_, .i32⟩) (.of main_call2_v1 : StableHlo.TRef sig ⟨S_, .i1⟩) (cmpi .eq),
    StableHlo.TRef.nullary (.of main_call2_c_0 : StableHlo.TRef sig ⟨S_, .i32⟩) (constantI S_ 32 1#32),
    StableHlo.TRef.ternary (.of main_call2_v1 : StableHlo.TRef sig ⟨S_, .i1⟩) (.of main_call2_c_0 : StableHlo.TRef sig ⟨S_, .i32⟩) (.of main_call2_v0 : StableHlo.TRef sig ⟨S_, .i32⟩) (.of main_call2_v2 : StableHlo.TRef sig ⟨S_, .i32⟩) select,
    StableHlo.TRef.unary main_call2_call0.v0 (.of main_call2_v3 : StableHlo.TRef sig ⟨S8388608, .i32⟩) (broadcastInDim S8388608 ![] bcast_S_S8388608),
    StableHlo.TRef.binary (.of main_v42 : StableHlo.TRef sig ⟨S8388608, .i32⟩) (.of main_call2_v3 : StableHlo.TRef sig ⟨S8388608, .i32⟩) (.of main_call2_v4 : StableHlo.TRef sig ⟨S8388608, .i32⟩) Host.remsi,
    StableHlo.TRef.nullary (.of main_call2_c_1 : StableHlo.TRef sig ⟨S_, .i32⟩) (constantI S_ 32 0#32),
    StableHlo.TRef.unary (.of main_call2_c_1 : StableHlo.TRef sig ⟨S_, .i32⟩) (.of main_call2_v5 : StableHlo.TRef sig ⟨S8388608, .i32⟩) (broadcastInDim S8388608 ![] bcast_S_S8388608),
    StableHlo.TRef.binary (.of main_call2_v4 : StableHlo.TRef sig ⟨S8388608, .i32⟩) (.of main_call2_v5 : StableHlo.TRef sig ⟨S8388608, .i32⟩) (.of main_call2_v6 : StableHlo.TRef sig ⟨S8388608, .i1⟩) (cmpi .ne),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v7 : StableHlo.TRef sig ⟨S8388608, .i32⟩) (broadcastInDim S8388608 ![] bcast_S_S8388608),
    StableHlo.TRef.binary (.of main_call2_v4 : StableHlo.TRef sig ⟨S8388608, .i32⟩) (.of main_call2_v7 : StableHlo.TRef sig ⟨S8388608, .i32⟩) (.of main_call2_v8 : StableHlo.TRef sig ⟨S8388608, .i1⟩) (cmpi .slt),
    StableHlo.TRef.nullary (.of main_call2_c_3 : StableHlo.TRef sig ⟨S_, .i32⟩) (constantI S_ 32 0#32),
    StableHlo.TRef.binary main_call2_call0.v0 (.of main_call2_c_3 : StableHlo.TRef sig ⟨S_, .i32⟩) (.of main_call2_v9 : StableHlo.TRef sig ⟨S_, .i1⟩) (cmpi .slt),
    StableHlo.TRef.unary (.of main_call2_v9 : StableHlo.TRef sig ⟨S_, .i1⟩) (.of main_call2_v10 : StableHlo.TRef sig ⟨S8388608, .i1⟩) (broadcastInDim S8388608 ![] bcast_S_S8388608),
    StableHlo.TRef.binary (.of main_call2_v8 : StableHlo.TRef sig ⟨S8388608, .i1⟩) (.of main_call2_v10 : StableHlo.TRef sig ⟨S8388608, .i1⟩) (.of main_call2_v11 : StableHlo.TRef sig ⟨S8388608, .i1⟩) (cmpi .ne),
    StableHlo.TRef.binary (.of main_call2_v11 : StableHlo.TRef sig ⟨S8388608, .i1⟩) (.of main_call2_v6 : StableHlo.TRef sig ⟨S8388608, .i1⟩) (.of main_call2_v12 : StableHlo.TRef sig ⟨S8388608, .i1⟩) andi,
    StableHlo.TRef.unary main_call2_call0.v0 (.of main_call2_v13 : StableHlo.TRef sig ⟨S8388608, .i32⟩) (broadcastInDim S8388608 ![] bcast_S_S8388608),
    StableHlo.TRef.binary (.of main_call2_v4 : StableHlo.TRef sig ⟨S8388608, .i32⟩) (.of main_call2_v13 : StableHlo.TRef sig ⟨S8388608, .i32⟩) (.of main_call2_v14 : StableHlo.TRef sig ⟨S8388608, .i32⟩) addi,
    StableHlo.TRef.ternary (.of main_call2_v12 : StableHlo.TRef sig ⟨S8388608, .i1⟩) (.of main_call2_v14 : StableHlo.TRef sig ⟨S8388608, .i32⟩) (.of main_call2_v4 : StableHlo.TRef sig ⟨S8388608, .i32⟩) (.of main_v43 : StableHlo.TRef sig ⟨S8388608, .i32⟩) select ]
/-- Every operation of it touches TensorCore references only. -/
theorem hostOps0_5_sub : (hostOps0_5 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- Every operation of it determines the contents of what it writes. -/
theorem hostOps0_5_fresh : (hostOps0_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- 24 operations of @main: each cell number with a negative one counted from the end of its axis, set as a column. -/
abbrev hostOps6 : List (HloOp τ sig (Elt F)) :=
  [ StableHlo.nullary main_c_13 (constantI S_ 32 0#32),
    StableHlo.unary main_c_13 main_v44 (broadcastInDim S8388608 ![] bcast_S_S8388608 : (⟨S_, .i32⟩ : BufTy).Contents (Elt F) → (⟨S8388608, .i32⟩ : BufTy).Contents (Elt F)),
    StableHlo.binary main_v25 main_v44 main_v45 (cmpi .slt : (⟨S8388608, .i32⟩ : BufTy).Contents (Elt F) → (⟨S8388608, .i32⟩ : BufTy).Contents (Elt F) → (⟨S8388608, .i1⟩ : BufTy).Contents (Elt F)),
    StableHlo.nullary main_c_14 (constantI S_ 32 128#32),
    StableHlo.unary main_c_14 main_v46 (broadcastInDim S8388608 ![] bcast_S_S8388608 : (⟨S_, .i32⟩ : BufTy).Contents (Elt F) → (⟨S8388608, .i32⟩ : BufTy).Contents (Elt F)),
    StableHlo.binary main_v25 main_v46 main_v47 (addi : (⟨S8388608, .i32⟩ : BufTy).Contents (Elt F) → (⟨S8388608, .i32⟩ : BufTy).Contents (Elt F) → (⟨S8388608, .i32⟩ : BufTy).Contents (Elt F)),
    StableHlo.ternary main_v45 main_v47 main_v25 main_v48 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_15 (constantI S_ 32 0#32),
    StableHlo.unary main_c_15 main_v49 (broadcastInDim S8388608 ![] bcast_S_S8388608 : (⟨S_, .i32⟩ : BufTy).Contents (Elt F) → (⟨S8388608, .i32⟩ : BufTy).Contents (Elt F)),
    StableHlo.binary main_v34 main_v49 main_v50 (cmpi .slt : (⟨S8388608, .i32⟩ : BufTy).Contents (Elt F) → (⟨S8388608, .i32⟩ : BufTy).Contents (Elt F) → (⟨S8388608, .i1⟩ : BufTy).Contents (Elt F)),
    StableHlo.nullary main_c_16 (constantI S_ 32 128#32),
    StableHlo.unary main_c_16 main_v51 (broadcastInDim S8388608 ![] bcast_S_S8388608 : (⟨S_, .i32⟩ : BufTy).Contents (Elt F) → (⟨S8388608, .i32⟩ : BufTy).Contents (Elt F)),
    StableHlo.binary main_v34 main_v51 main_v52 (addi : (⟨S8388608, .i32⟩ : BufTy).Contents (Elt F) → (⟨S8388608, .i32⟩ : BufTy).Contents (Elt F) → (⟨S8388608, .i32⟩ : BufTy).Contents (Elt F)),
    StableHlo.ternary main_v50 main_v52 main_v34 main_v53 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_17 (constantI S_ 32 0#32),
    StableHlo.unary main_c_17 main_v54 (broadcastInDim S8388608 ![] bcast_S_S8388608 : (⟨S_, .i32⟩ : BufTy).Contents (Elt F) → (⟨S8388608, .i32⟩ : BufTy).Contents (Elt F)),
    StableHlo.binary main_v43 main_v54 main_v55 (cmpi .slt : (⟨S8388608, .i32⟩ : BufTy).Contents (Elt F) → (⟨S8388608, .i32⟩ : BufTy).Contents (Elt F) → (⟨S8388608, .i1⟩ : BufTy).Contents (Elt F)),
    StableHlo.nullary main_c_18 (constantI S_ 32 128#32),
    StableHlo.unary main_c_18 main_v56 (broadcastInDim S8388608 ![] bcast_S_S8388608 : (⟨S_, .i32⟩ : BufTy).Contents (Elt F) → (⟨S8388608, .i32⟩ : BufTy).Contents (Elt F)),
    StableHlo.binary main_v43 main_v56 main_v57 (addi : (⟨S8388608, .i32⟩ : BufTy).Contents (Elt F) → (⟨S8388608, .i32⟩ : BufTy).Contents (Elt F) → (⟨S8388608, .i32⟩ : BufTy).Contents (Elt F)),
    StableHlo.ternary main_v55 main_v57 main_v43 main_v58 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v48 main_v59 (broadcastInDim S8388608x1 ![0] bcast_S8388608_S8388608x1_0 : (⟨S8388608, .i32⟩ : BufTy).Contents (Elt F) → (⟨S8388608x1, .i32⟩ : BufTy).Contents (Elt F)),
    StableHlo.unary main_v53 main_v60 (broadcastInDim S8388608x1 ![0] bcast_S8388608_S8388608x1_0 : (⟨S8388608, .i32⟩ : BufTy).Contents (Elt F) → (⟨S8388608x1, .i32⟩ : BufTy).Contents (Elt F)),
    StableHlo.unary main_v58 main_v61 (broadcastInDim S8388608x1 ![0] bcast_S8388608_S8388608x1_0 : (⟨S8388608, .i32⟩ : BufTy).Contents (Elt F) → (⟨S8388608x1, .i32⟩ : BufTy).Contents (Elt F)) ]
/-- Every operation of it touches TensorCore references only. -/
theorem hostOps6_sub : (hostOps6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub ..⟩
/-- Every operation of it determines the contents of what it writes. -/
theorem hostOps6_fresh : (hostOps6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
/-- 5 operations of @main and the 4 of @_where_0 (main_call3): the three columns joined, the grid read at them, the colour channels cut out and masked. -/
abbrev hostOps7 : List (HloOp τ sig (Elt F)) :=
  [ StableHlo.nary ![main_v59, main_v60, main_v61] main_v62 (fun u => concatenate S8388608x3 1 [⟨S8388608x1, u 0⟩, ⟨S8388608x1, u 1⟩, ⟨S8388608x1, u 2⟩] concatenates_S8388608x1_S8388608x1_S8388608x1_S8388608x3_d1),
    StableHlo.binary main_arg1 main_v62 main_v63 ((fun x i => Host.gather gather_S128x128x128x4_S8388608x3_S8388608x4_1_012_n_n_012_1_1114 x i) : (⟨S128x128x128x4, .f32⟩ : BufTy).Contents (Elt F) → (⟨S8388608x3, .i32⟩ : BufTy).Contents (Elt F) → (⟨S8388608x4, .f32⟩ : BufTy).Contents (Elt F)),
    StableHlo.unary main_v16 main_v64 (broadcastInDim S8388608x1 ![0] bcast_S8388608_S8388608x1_0 : (⟨S8388608, .i1⟩ : BufTy).Contents (Elt F) → (⟨S8388608x1, .i1⟩ : BufTy).Contents (Elt F)),
    StableHlo.unary main_v63 main_v65 ((extractStridedSlice S8388608x3 ![0, 0] · slices_S8388608x4_S8388608x3_0_0) : (⟨S8388608x4, .f32⟩ : BufTy).Contents (Elt F) → (⟨S8388608x3, .f32⟩ : BufTy).Contents (Elt F)),
    StableHlo.nullary main_cst_19 (constant S_ .f32 0x00000000#32),
    StableHlo.TRef.unary (.of main_cst_19 : StableHlo.TRef sig ⟨S_, .f32⟩) (.of main_call3_v0 : StableHlo.TRef sig ⟨S_, .f32⟩) id,
    StableHlo.TRef.unary (.of main_v64 : StableHlo.TRef sig ⟨S8388608x1, .i1⟩) (.of main_call3_v1 : StableHlo.TRef sig ⟨S8388608x3, .i1⟩) (broadcastInDim S8388608x3 ![0, 1] bcast_S8388608x1_S8388608x3_0_1),
    StableHlo.TRef.unary (.of main_call3_v0 : StableHlo.TRef sig ⟨S_, .f32⟩) (.of main_call3_v2 : StableHlo.TRef sig ⟨S8388608x3, .f32⟩) (broadcastInDim S8388608x3 ![] bcast_S_S8388608x3),
    StableHlo.TRef.ternary (.of main_call3_v1 : StableHlo.TRef sig ⟨S8388608x3, .i1⟩) (.of main_v65 : StableHlo.TRef sig ⟨S8388608x3, .f32⟩) (.of main_call3_v2 : StableHlo.TRef sig ⟨S8388608x3, .f32⟩) (.of main_v66 : StableHlo.TRef sig ⟨S8388608x3, .f32⟩) select ]
/-- Every operation of it touches TensorCore references only. -/
theorem hostOps7_sub : (hostOps7 : List (HloOp τ sig (Elt F))).Forall fun op => op.bufs ⊆ StableHlo.tcRefs τ sig :=
  ⟨StableHlo.nary_bufs_sub .., StableHlo.binary_bufs_sub .., StableHlo.unary_bufs_sub .., StableHlo.unary_bufs_sub .., StableHlo.nullary_bufs_sub .., StableHlo.unary_bufs_sub .., StableHlo.unary_bufs_sub .., StableHlo.unary_bufs_sub .., StableHlo.ternary_bufs_sub ..⟩
/-- Every operation of it determines the contents of what it writes. -/
theorem hostOps7_fresh : (hostOps7 : List (HloOp τ sig (Elt F))).Forall fun op => op.fresh = ∅ :=
  ⟨rfl, rfl, rfl, rfl, rfl, rfl, rfl, rfl, rfl⟩
/-- 6 operations of @main and the 3 of @_where_1 (main_call4): the density channel cut out, scaled by ten and masked. -/
abbrev hostOps8 : List (HloOp τ sig (Elt F)) :=
  [ StableHlo.unary main_v63 main_v67 ((extractStridedSlice S8388608x1 ![0, 3] · slices_S8388608x4_S8388608x1_0_3) : (⟨S8388608x4, .f32⟩ : BufTy).Contents (Elt F) → (⟨S8388608x1, .f32⟩ : BufTy).Contents (Elt F)),
    StableHlo.reshape main_v67 main_v68 rfl shapeCasts_S8388608x1_S8388608,
    StableHlo.nullary main_cst_20 (constant S_ .f32 0x41200000#32),
    StableHlo.unary main_cst_20 main_v69 (broadcastInDim S8388608 ![] bcast_S_S8388608 : (⟨S_, .f32⟩ : BufTy).Contents (Elt F) → (⟨S8388608, .f32⟩ : BufTy).Contents (Elt F)),
    StableHlo.binary main_v68 main_v69 main_v70 (mulf : (⟨S8388608, .f32⟩ : BufTy).Contents (Elt F) → (⟨S8388608, .f32⟩ : BufTy).Contents (Elt F) → (⟨S8388608, .f32⟩ : BufTy).Contents (Elt F)),
    StableHlo.nullary main_cst_21 (constant S_ .f32 0x00000000#32),
    StableHlo.TRef.unary (.of main_cst_21 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S8388608, .f32⟩) (broadcastInDim S8388608 ![] bcast_S_S8388608),
    StableHlo.TRef.ternary (.of main_v16 : StableHlo.TRef sig ⟨S8388608, .i1⟩) (.of main_v70 : StableHlo.TRef sig ⟨S8388608, .f32⟩) (.of main_call4_v1 : StableHlo.TRef sig ⟨S8388608, .f32⟩) (.of main_v71 : StableHlo.TRef sig ⟨S8388608, .f32⟩) select ]
/-- Every operation of it touches TensorCore references only. -/
theorem hostOps8_sub : (hostOps8 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub ..⟩
/-- Every operation of it determines the contents of what it writes. -/
theorem hostOps8_fresh : (hostOps8 : List (HloOp τ sig (Elt F))).Forall fun op => op.fresh = ∅ :=
  ⟨rfl, rfl, rfl, rfl, rfl, rfl, rfl, rfl, rfl⟩
/-- 8 operations of @main: the logistic function of the masked colours. -/
abbrev hostOps9 : List (HloOp τ sig (Elt F)) :=
  [ StableHlo.unary main_v66 main_v72 (Host.negf : (⟨S8388608x3, .f32⟩ : BufTy).Contents (Elt F) → (⟨S8388608x3, .f32⟩ : BufTy).Contents (Elt F)),
    StableHlo.unary main_v72 main_v73 (Host.exp : (⟨S8388608x3, .f32⟩ : BufTy).Contents (Elt F) → (⟨S8388608x3, .f32⟩ : BufTy).Contents (Elt F)),
    StableHlo.nullary main_cst_22 (constant S_ .f32 0x3F800000#32),
    StableHlo.unary main_cst_22 main_v74 (broadcastInDim S8388608x3 ![] bcast_S_S8388608x3 : (⟨S_, .f32⟩ : BufTy).Contents (Elt F) → (⟨S8388608x3, .f32⟩ : BufTy).Contents (Elt F)),
    StableHlo.binary main_v74 main_v73 main_v75 (addf : (⟨S8388608x3, .f32⟩ : BufTy).Contents (Elt F) → (⟨S8388608x3, .f32⟩ : BufTy).Contents (Elt F) → (⟨S8388608x3, .f32⟩ : BufTy).Contents (Elt F)),
    StableHlo.nullary main_cst_23 (constant S_ .f32 0x3F800000#32),
    StableHlo.unary main_cst_23 main_v76 (broadcastInDim S8388608x3 ![] bcast_S_S8388608x3 : (⟨S_, .f32⟩ : BufTy).Contents (Elt F) → (⟨S8388608x3, .f32⟩ : BufTy).Contents (Elt F)),
    StableHlo.binary main_v76 main_v75 main_v77 (Host.divf : (⟨S8388608x3, .f32⟩ : BufTy).Contents (Elt F) → (⟨S8388608x3, .f32⟩ : BufTy).Contents (Elt F) → (⟨S8388608x3, .f32⟩ : BufTy).Contents (Elt F)) ]
/-- Every operation of it touches TensorCore references only. -/
theorem hostOps9_sub : (hostOps9 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩
/-- Every operation of it determines the contents of what it writes. -/
theorem hostOps9_fresh : (hostOps9 : List (HloOp τ sig (Elt F))).Forall fun op => op.fresh = ∅ :=
  ⟨rfl, rfl, rfl, rfl, rfl, rfl, rfl, rfl⟩
/-- The 3 operations of @relu (main_call5) and 1 of @main: the masked density clipped below at zero, set as a column. -/
abbrev hostOps10 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S8388608, .f32⟩) (broadcastInDim S8388608 ![] bcast_S_S8388608),
    StableHlo.TRef.binary (.of main_v71 : StableHlo.TRef sig ⟨S8388608, .f32⟩) (.of main_call5_v0 : StableHlo.TRef sig ⟨S8388608, .f32⟩) (.of main_v78 : StableHlo.TRef sig ⟨S8388608, .f32⟩) maximumf,
    StableHlo.unary main_v78 main_v79 (broadcastInDim S8388608x1 ![0] bcast_S8388608_S8388608x1_0 : (⟨S8388608, .f32⟩ : BufTy).Contents (Elt F) → (⟨S8388608x1, .f32⟩ : BufTy).Contents (Elt F)) ]
/-- Every operation of it touches TensorCore references only. -/
theorem hostOps10_sub : (hostOps10 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub ..⟩
/-- Every operation of it determines the contents of what it writes. -/
theorem hostOps10_fresh : (hostOps10 : List (HloOp τ sig (Elt F))).Forall fun op => op.fresh = ∅ :=
  ⟨rfl, rfl, rfl, rfl⟩

/-! ## @main as a chain of pieces cut at every call, and as one straight line

The pieces below are the same operations cut where a function is called or returns (and once before the
three columns are joined); a stretch above that spans a call is two pieces in a row. -/

/-- The last operation of @main's first window. -/
abbrev main_part0_last : List (HloOp τ sig (Elt F)) :=
  [ StableHlo.nullary main_c_13 (constantI S_ 32 0#32) ]
/-- 23 operations of @main. -/
abbrev main_part1_ops0 : List (HloOp τ sig (Elt F)) :=
  [ StableHlo.unary main_c_13 main_v44 (broadcastInDim S8388608 ![] bcast_S_S8388608 : (⟨S_, .i32⟩ : BufTy).Contents (Elt F) → (⟨S8388608, .i32⟩ : BufTy).Contents (Elt F)),
    StableHlo.binary main_v25 main_v44 main_v45 (cmpi .slt : (⟨S8388608, .i32⟩ : BufTy).Contents (Elt F) → (⟨S8388608, .i32⟩ : BufTy).Contents (Elt F) → (⟨S8388608, .i1⟩ : BufTy).Contents (Elt F)),
    StableHlo.nullary main_c_14 (constantI S_ 32 128#32),
    StableHlo.unary main_c_14 main_v46 (broadcastInDim S8388608 ![] bcast_S_S8388608 : (⟨S_, .i32⟩ : BufTy).Contents (Elt F) → (⟨S8388608, .i32⟩ : BufTy).Contents (Elt F)),
    StableHlo.binary main_v25 main_v46 main_v47 (addi : (⟨S8388608, .i32⟩ : BufTy).Contents (Elt F) → (⟨S8388608, .i32⟩ : BufTy).Contents (Elt F) → (⟨S8388608, .i32⟩ : BufTy).Contents (Elt F)),
    StableHlo.ternary main_v45 main_v47 main_v25 main_v48 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_15 (constantI S_ 32 0#32),
    StableHlo.unary main_c_15 main_v49 (broadcastInDim S8388608 ![] bcast_S_S8388608 : (⟨S_, .i32⟩ : BufTy).Contents (Elt F) → (⟨S8388608, .i32⟩ : BufTy).Contents (Elt F)),
    StableHlo.binary main_v34 main_v49 main_v50 (cmpi .slt : (⟨S8388608, .i32⟩ : BufTy).Contents (Elt F) → (⟨S8388608, .i32⟩ : BufTy).Contents (Elt F) → (⟨S8388608, .i1⟩ : BufTy).Contents (Elt F)),
    StableHlo.nullary main_c_16 (constantI S_ 32 128#32),
    StableHlo.unary main_c_16 main_v51 (broadcastInDim S8388608 ![] bcast_S_S8388608 : (⟨S_, .i32⟩ : BufTy).Contents (Elt F) → (⟨S8388608, .i32⟩ : BufTy).Contents (Elt F)),
    StableHlo.binary main_v34 main_v51 main_v52 (addi : (⟨S8388608, .i32⟩ : BufTy).Contents (Elt F) → (⟨S8388608, .i32⟩ : BufTy).Contents (Elt F) → (⟨S8388608, .i32⟩ : BufTy).Contents (Elt F)),
    StableHlo.ternary main_v50 main_v52 main_v34 main_v53 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.nullary main_c_17 (constantI S_ 32 0#32),
    StableHlo.unary main_c_17 main_v54 (broadcastInDim S8388608 ![] bcast_S_S8388608 : (⟨S_, .i32⟩ : BufTy).Contents (Elt F) → (⟨S8388608, .i32⟩ : BufTy).Contents (Elt F)),
    StableHlo.binary main_v43 main_v54 main_v55 (cmpi .slt : (⟨S8388608, .i32⟩ : BufTy).Contents (Elt F) → (⟨S8388608, .i32⟩ : BufTy).Contents (Elt F) → (⟨S8388608, .i1⟩ : BufTy).Contents (Elt F)),
    StableHlo.nullary main_c_18 (constantI S_ 32 128#32),
    StableHlo.unary main_c_18 main_v56 (broadcastInDim S8388608 ![] bcast_S_S8388608 : (⟨S_, .i32⟩ : BufTy).Contents (Elt F) → (⟨S8388608, .i32⟩ : BufTy).Contents (Elt F)),
    StableHlo.binary main_v43 main_v56 main_v57 (addi : (⟨S8388608, .i32⟩ : BufTy).Contents (Elt F) → (⟨S8388608, .i32⟩ : BufTy).Contents (Elt F) → (⟨S8388608, .i32⟩ : BufTy).Contents (Elt F)),
    StableHlo.ternary main_v55 main_v57 main_v43 main_v58 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v48 main_v59 (broadcastInDim S8388608x1 ![0] bcast_S8388608_S8388608x1_0 : (⟨S8388608, .i32⟩ : BufTy).Contents (Elt F) → (⟨S8388608x1, .i32⟩ : BufTy).Contents (Elt F)),
    StableHlo.unary main_v53 main_v60 (broadcastInDim S8388608x1 ![0] bcast_S8388608_S8388608x1_0 : (⟨S8388608, .i32⟩ : BufTy).Contents (Elt F) → (⟨S8388608x1, .i32⟩ : BufTy).Contents (Elt F)),
    StableHlo.unary main_v58 main_v61 (broadcastInDim S8388608x1 ![0] bcast_S8388608_S8388608x1_0 : (⟨S8388608, .i32⟩ : BufTy).Contents (Elt F) → (⟨S8388608x1, .i32⟩ : BufTy).Contents (Elt F)) ]
/-- 5 operations of @main. -/
abbrev main_part1_ops1 : List (HloOp τ sig (Elt F)) :=
  [ StableHlo.nary ![main_v59, main_v60, main_v61] main_v62 (fun u => concatenate S8388608x3 1 [⟨S8388608x1, u 0⟩, ⟨S8388608x1, u 1⟩, ⟨S8388608x1, u 2⟩] concatenates_S8388608x1_S8388608x1_S8388608x1_S8388608x3_d1),
    StableHlo.binary main_arg1 main_v62 main_v63 ((fun x i => Host.gather gather_S128x128x128x4_S8388608x3_S8388608x4_1_012_n_n_012_1_1114 x i) : (⟨S128x128x128x4, .f32⟩ : BufTy).Contents (Elt F) → (⟨S8388608x3, .i32⟩ : BufTy).Contents (Elt F) → (⟨S8388608x4, .f32⟩ : BufTy).Contents (Elt F)),
    StableHlo.unary main_v16 main_v64 (broadcastInDim S8388608x1 ![0] bcast_S8388608_S8388608x1_0 : (⟨S8388608, .i1⟩ : BufTy).Contents (Elt F) → (⟨S8388608x1, .i1⟩ : BufTy).Contents (Elt F)),
    StableHlo.unary main_v63 main_v65 ((extractStridedSlice S8388608x3 ![0, 0] · slices_S8388608x4_S8388608x3_0_0) : (⟨S8388608x4, .f32⟩ : BufTy).Contents (Elt F) → (⟨S8388608x3, .f32⟩ : BufTy).Contents (Elt F)),
    StableHlo.nullary main_cst_19 (constant S_ .f32 0x00000000#32) ]
/-- The 4 operations of @_where_0 (main_call3). -/
abbrev main_part1_ops2 : List (HloOp τ sig (Elt F)) :=
  [ StableHlo.TRef.unary (.of main_cst_19 : StableHlo.TRef sig ⟨S_, .f32⟩) (.of main_call3_v0 : StableHlo.TRef sig ⟨S_, .f32⟩) id,
    StableHlo.TRef.unary (.of main_v64 : StableHlo.TRef sig ⟨S8388608x1, .i1⟩) (.of main_call3_v1 : StableHlo.TRef sig ⟨S8388608x3, .i1⟩) (broadcastInDim S8388608x3 ![0, 1] bcast_S8388608x1_S8388608x3_0_1),
    StableHlo.TRef.unary (.of main_call3_v0 : StableHlo.TRef sig ⟨S_, .f32⟩) (.of main_call3_v2 : StableHlo.TRef sig ⟨S8388608x3, .f32⟩) (broadcastInDim S8388608x3 ![] bcast_S_S8388608x3),
    StableHlo.TRef.ternary (.of main_call3_v1 : StableHlo.TRef sig ⟨S8388608x3, .i1⟩) (.of main_v65 : StableHlo.TRef sig ⟨S8388608x3, .f32⟩) (.of main_call3_v2 : StableHlo.TRef sig ⟨S8388608x3, .f32⟩) (.of main_v66 : StableHlo.TRef sig ⟨S8388608x3, .f32⟩) select ]
/-- 6 operations of @main. -/
abbrev main_part1_ops3 : List (HloOp τ sig (Elt F)) :=
  [ StableHlo.unary main_v63 main_v67 ((extractStridedSlice S8388608x1 ![0, 3] · slices_S8388608x4_S8388608x1_0_3) : (⟨S8388608x4, .f32⟩ : BufTy).Contents (Elt F) → (⟨S8388608x1, .f32⟩ : BufTy).Contents (Elt F)),
    StableHlo.reshape main_v67 main_v68 rfl shapeCasts_S8388608x1_S8388608,
    StableHlo.nullary main_cst_20 (constant S_ .f32 0x41200000#32),
    StableHlo.unary main_cst_20 main_v69 (broadcastInDim S8388608 ![] bcast_S_S8388608 : (⟨S_, .f32⟩ : BufTy).Contents (Elt F) → (⟨S8388608, .f32⟩ : BufTy).Contents (Elt F)),
    StableHlo.binary main_v68 main_v69 main_v70 (mulf : (⟨S8388608, .f32⟩ : BufTy).Contents (Elt F) → (⟨S8388608, .f32⟩ : BufTy).Contents (Elt F) → (⟨S8388608, .f32⟩ : BufTy).Contents (Elt F)),
    StableHlo.nullary main_cst_21 (constant S_ .f32 0x00000000#32) ]
/-- The 3 operations of @_where_1 (main_call4). -/
abbrev main_part1_ops4 : List (HloOp τ sig (Elt F)) :=
  [ StableHlo.TRef.unary (.of main_cst_21 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S8388608, .f32⟩) (broadcastInDim S8388608 ![] bcast_S_S8388608),
    StableHlo.TRef.ternary (.of main_v16 : StableHlo.TRef sig ⟨S8388608, .i1⟩) (.of main_v70 : StableHlo.TRef sig ⟨S8388608, .f32⟩) (.of main_call4_v1 : StableHlo.TRef sig ⟨S8388608, .f32⟩) (.of main_v71 : StableHlo.TRef sig ⟨S8388608, .f32⟩) select ]
/-- The 3 operations of @relu (main_call5). -/
abbrev main_part1_ops6 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S8388608, .f32⟩) (broadcastInDim S8388608 ![] bcast_S_S8388608),
    StableHlo.TRef.binary (.of main_v71 : StableHlo.TRef sig ⟨S8388608, .f32⟩) (.of main_call5_v0 : StableHlo.TRef sig ⟨S8388608, .f32⟩) (.of main_v78 : StableHlo.TRef sig ⟨S8388608, .f32⟩) maximumf ]
/-- The last operation of @main. -/
abbrev main_part1_ops7 : List (HloOp τ sig (Elt F)) :=
  [ StableHlo.unary main_v78 main_v79 (broadcastInDim S8388608x1 ![0] bcast_S8388608_S8388608x1_0 : (⟨S8388608, .f32⟩ : BufTy).Contents (Elt F) → (⟨S8388608x1, .f32⟩ : BufTy).Contents (Elt F)) ]

/-- @main's first window is the chain of its pieces, ending in the last. -/
theorem main_part0_chain (c : Dev nD) : main_part0 (F := F) c = (Pipeline.chainK
  [ StableHlo.seq hostOps0,
    StableHlo.seq hostOps0_1,
    StableHlo.seq hostOps0_2,
    StableHlo.seq hostOps0_3,
    StableHlo.seq hostOps0_4,
    StableHlo.seq hostOps0_5 ]
  (StableHlo.seq main_part0_last) : Prog (TpuEff nD τ sig (Elt F) (Pipeline.Sig Λ₀ (Fin 0) fun p => (pcfgs (F := F) p).Adm) .tc) PUnit) := by
  chain_rfl

/-- @main's second window is the chain of its pieces. -/
theorem main_part1_chain (c : Dev nD) : main_part1 (F := F) c = (Pipeline.chain
  [ StableHlo.seq main_part1_ops0,
    StableHlo.seq main_part1_ops1,
    StableHlo.seq main_part1_ops2,
    StableHlo.seq main_part1_ops3,
    StableHlo.seq main_part1_ops4,
    StableHlo.seq hostOps9,
    StableHlo.seq main_part1_ops6,
    StableHlo.seq main_part1_ops7 ] : Prog (TpuEff nD τ sig (Elt F) (Pipeline.Sig Λ₀ (Fin 0) fun p => (pcfgs (F := F) p).Adm) .tc) PUnit) := by
  chain_rfl

/-- Straight lines run one after the other are the one line of all their operations. -/
theorem chain_map_seq {nD : Nat} {τ : Topo} {sig : RefSig} {Val : EltTy → Type} {Λ : Labels} :
    ∀ ls : List (List (HloOp τ sig Val)),
      Pipeline.chain (ls.map fun l => (StableHlo.seq l : Prog (TpuEff nD τ sig Val Λ .tc) PUnit)) = StableHlo.seq ls.flatten
  | [] => rfl
  | l :: ls => by
    rw [List.map_cons, Pipeline.chain_cons, chain_map_seq ls, List.flatten_cons, StableHlo.seq_append]

/-- All of @main's operations, in order. -/
abbrev allOps : List (HloOp τ sig (Elt F)) :=
  hostOps0 ++ hostOps0_1 ++ hostOps0_2 ++ hostOps0_3 ++ hostOps0_4 ++ hostOps0_5 ++ hostOps6 ++ hostOps7 ++ hostOps8 ++ hostOps9 ++ hostOps10

/-- The pieces in a row are the stretches in a row. -/
theorem pieces_eq : ([hostOps0, hostOps0_1, hostOps0_2, hostOps0_3, hostOps0_4, hostOps0_5, main_part0_last,
      main_part1_ops0, main_part1_ops1, main_part1_ops2, main_part1_ops3, main_part1_ops4, hostOps9, main_part1_ops6,
      main_part1_ops7] : List (List (HloOp τ sig (Elt F)))).flatten = allOps := by
  chain_rfl

/-- @main is the straight line of all its operations. -/
theorem main_eq (c : Dev nD) : main (F := F) c = StableHlo.seq allOps := by
  show (main_part0 (F := F) c >>= fun _ => main_part1 (F := F) c) = _
  rewrite [main_part1_chain, main_part0_chain, Pipeline.chainK_bind_chain, ← pieces_eq]
  exact chain_map_seq [hostOps0, hostOps0_1, hostOps0_2, hostOps0_3, hostOps0_4, hostOps0_5, main_part0_last,
    main_part1_ops0, main_part1_ops1, main_part1_ops2, main_part1_ops3, main_part1_ops4, hostOps9, main_part1_ops6,
    main_part1_ops7]

/-- Every operation of @main touches TensorCore references only. -/
theorem allOps_sub : (allOps : List (HloOp τ sig (Elt F))).Forall fun op => op.bufs ⊆ StableHlo.tcRefs τ sig :=
  List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2
    ⟨hostOps0_sub, hostOps0_1_sub⟩, hostOps0_2_sub⟩, hostOps0_3_sub⟩, hostOps0_4_sub⟩, hostOps0_5_sub⟩, hostOps6_sub⟩, hostOps7_sub⟩, hostOps8_sub⟩, hostOps9_sub⟩, hostOps10_sub⟩

/-- Every operation of @main determines the contents of what it writes. -/
theorem allOps_fresh : ∀ op ∈ (allOps : List (HloOp τ sig (Elt F))), op.fresh = ∅ :=
  List.forall_iff_forall_mem.1 <|
  List.forall_append.2 ⟨List.forall_append.2 ⟨List.forall_append.2 ⟨List.forall_append.2 ⟨List.forall_append.2 ⟨List.forall_append.2 ⟨List.forall_append.2 ⟨List.forall_append.2 ⟨List.forall_append.2 ⟨List.forall_append.2
    ⟨hostOps0_fresh, hostOps0_1_fresh⟩, hostOps0_2_fresh⟩, hostOps0_3_fresh⟩, hostOps0_4_fresh⟩, hostOps0_5_fresh⟩, hostOps6_fresh⟩, hostOps7_fresh⟩, hostOps8_fresh⟩, hostOps9_fresh⟩, hostOps10_fresh⟩

end Cert.ReferenceIdeal.Gen

end
-- ==== Proof.RefCells.lean ====
/-
  The index chain both programs begin with, one stretch of host operations at a time: from any buffer
  contents `W`, what each stretch leaves in the buffers later stretches read, and which of those it leaves alone.
  Stretch 0 cuts the three coordinate columns, forms the box mask and the first raw cell number; stretches 1, 3
  and 5 are the three floored moduli by 128; stretches 2 and 4 the other two raw cell numbers.
-/
import proofs.«429610_j40518721470753_3_alg».proof.Proof.RefOps
import proofs.«429610_j40518721470753_3_alg».proof.Proof.Spec
import Idealize.ShloMosaic.Lib.StableHlo.Run

noncomputable section

namespace Cert.ReferenceIdeal.Host

open Cert.ReferenceIdeal Cert.ReferenceIdeal.Gen Idealize.ShloMosaic Idealize.ShloMosaic.TcCoe Idealize.SL.Sem Idealize.ShloMosaic.StableHlo
open Cert.Voxels

variable {F : FTy → Type} [FloatOps F]
variable (W : Valuation τ sig (Elt F))

/-! ## Stretch 0 -/

theorem s0_inBox : (after hostOps0 W (Proc.devRef .tc main_v16) : IVec S8388608 1) = inBox (W (Proc.devRef .tc main_arg0)) := by
  after_results; rfl
theorem s0_raw : (after hostOps0 W (Proc.devRef .tc main_v24) : IVec S8388608 32) = cellRaw (col0 (W (Proc.devRef .tc main_arg0))) := by
  after_results; rfl
theorem s0_col1 : (after hostOps0 W (Proc.devRef .tc main_v3) : FVec F S8388608 .f32) = col1 (W (Proc.devRef .tc main_arg0)) := by
  after_results; rfl
theorem s0_col2 : (after hostOps0 W (Proc.devRef .tc main_v5) : FVec F S8388608 .f32) = col2 (W (Proc.devRef .tc main_arg0)) := by
  after_results; rfl
theorem s0_div : (after hostOps0 W (Proc.devRef .tc main_c_4) : IVec S_ 32) = constantI S0 32 128#32 := by
  after_results
theorem s0_arg0 : after hostOps0 W (Proc.devRef .tc main_arg0) = W (Proc.devRef .tc main_arg0) := by
  after_results
theorem s0_arg1 : after hostOps0 W (Proc.devRef .tc main_arg1) = W (Proc.devRef .tc main_arg1) := by
  after_results

/-! ## Stretch 1: the first coordinate's cell number -/

set_option maxHeartbeats 2000000 in
theorem s1_cell : (after hostOps0_1 W (Proc.devRef .tc main_v25) : IVec S8388608 32)
    = floorMod (W (Proc.devRef .tc main_v24)) (W (Proc.devRef .tc main_c_4)) := by
  after_results_simp; rfl
theorem s1_inBox : after hostOps0_1 W (Proc.devRef .tc main_v16) = W (Proc.devRef .tc main_v16) := by
  after_results_simp
theorem s1_col1 : after hostOps0_1 W (Proc.devRef .tc main_v3) = W (Proc.devRef .tc main_v3) := by
  after_results_simp
theorem s1_col2 : after hostOps0_1 W (Proc.devRef .tc main_v5) = W (Proc.devRef .tc main_v5) := by
  after_results_simp
theorem s1_arg0 : after hostOps0_1 W (Proc.devRef .tc main_arg0) = W (Proc.devRef .tc main_arg0) := by
  after_results_simp
theorem s1_arg1 : after hostOps0_1 W (Proc.devRef .tc main_arg1) = W (Proc.devRef .tc main_arg1) := by
  after_results_simp

/-! ## Stretch 2: the second coordinate's raw cell number -/

theorem s2_raw : (after hostOps0_2 W (Proc.devRef .tc main_v33) : IVec S8388608 32) = cellRaw (W (Proc.devRef .tc main_v3)) := by
  after_results; rfl
theorem s2_div : (after hostOps0_2 W (Proc.devRef .tc main_c_8) : IVec S_ 32) = constantI S0 32 128#32 := by
  after_results
theorem s2_inBox : after hostOps0_2 W (Proc.devRef .tc main_v16) = W (Proc.devRef .tc main_v16) := by
  after_results
theorem s2_cell0 : after hostOps0_2 W (Proc.devRef .tc main_v25) = W (Proc.devRef .tc main_v25) := by
  after_results
theorem s2_col2 : after hostOps0_2 W (Proc.devRef .tc main_v5) = W (Proc.devRef .tc main_v5) := by
  after_results
theorem s2_arg0 : after hostOps0_2 W (Proc.devRef .tc main_arg0) = W (Proc.devRef .tc main_arg0) := by
  after_results
theorem s2_arg1 : after hostOps0_2 W (Proc.devRef .tc main_arg1) = W (Proc.devRef .tc main_arg1) := by
  after_results

/-! ## Stretch 3: the second coordinate's cell number -/

set_option maxHeartbeats 2000000 in
theorem s3_cell : (after hostOps0_3 W (Proc.devRef .tc main_v34) : IVec S8388608 32)
    = floorMod (W (Proc.devRef .tc main_v33)) (W (Proc.devRef .tc main_c_8)) := by
  after_results_simp; rfl
theorem s3_inBox : after hostOps0_3 W (Proc.devRef .tc main_v16) = W (Proc.devRef .tc main_v16) := by
  after_results_simp
theorem s3_cell0 : after hostOps0_3 W (Proc.devRef .tc main_v25) = W (Proc.devRef .tc main_v25) := by
  after_results_simp
theorem s3_col2 : after hostOps0_3 W (Proc.devRef .tc main_v5) = W (Proc.devRef .tc main_v5) := by
  after_results_simp
theorem s3_arg0 : after hostOps0_3 W (Proc.devRef .tc main_arg0) = W (Proc.devRef .tc main_arg0) := by
  after_results_simp
theorem s3_arg1 : after hostOps0_3 W (Proc.devRef .tc main_arg1) = W (Proc.devRef .tc main_arg1) := by
  after_results_simp

/-! ## Stretch 4: the third coordinate's raw cell number -/

theorem s4_raw : (after hostOps0_4 W (Proc.devRef .tc main_v42) : IVec S8388608 32) = cellRaw (W (Proc.devRef .tc main_v5)) := by
  after_results; rfl
theorem s4_div : (after hostOps0_4 W (Proc.devRef .tc main_c_12) : IVec S_ 32) = constantI S0 32 128#32 := by
  after_results
theorem s4_inBox : after hostOps0_4 W (Proc.devRef .tc main_v16) = W (Proc.devRef .tc main_v16) := by
  after_results
theorem s4_cell0 : after hostOps0_4 W (Proc.devRef .tc main_v25) = W (Proc.devRef .tc main_v25) := by
  after_results
theorem s4_cell1 : after hostOps0_4 W (Proc.devRef .tc main_v34) = W (Proc.devRef .tc main_v34) := by
  after_results
theorem s4_arg0 : after hostOps0_4 W (Proc.devRef .tc main_arg0) = W (Proc.devRef .tc main_arg0) := by
  after_results
theorem s4_arg1 : after hostOps0_4 W (Proc.devRef .tc main_arg1) = W (Proc.devRef .tc main_arg1) := by
  after_results

/-! ## Stretch 5: the third coordinate's cell number -/

set_option maxHeartbeats 2000000 in
theorem s5_cell : (after hostOps0_5 W (Proc.devRef .tc main_v43) : IVec S8388608 32)
    = floorMod (W (Proc.devRef .tc main_v42)) (W (Proc.devRef .tc main_c_12)) := by
  after_results_simp; rfl
theorem s5_inBox : after hostOps0_5 W (Proc.devRef .tc main_v16) = W (Proc.devRef .tc main_v16) := by
  after_results_simp
theorem s5_cell0 : after hostOps0_5 W (Proc.devRef .tc main_v25) = W (Proc.devRef .tc main_v25) := by
  after_results_simp
theorem s5_cell1 : after hostOps0_5 W (Proc.devRef .tc main_v34) = W (Proc.devRef .tc main_v34) := by
  after_results_simp
theorem s5_arg0 : after hostOps0_5 W (Proc.devRef .tc main_arg0) = W (Proc.devRef .tc main_arg0) := by
  after_results_simp
theorem s5_arg1 : after hostOps0_5 W (Proc.devRef .tc main_arg1) = W (Proc.devRef .tc main_arg1) := by
  after_results_simp

/-! ## The six stretches together -/

/-- The buffer contents after the six stretches, from `W`. -/
abbrev afterCells : Valuation τ sig (Elt F) :=
  after hostOps0_5 (after hostOps0_4 (after hostOps0_3 (after hostOps0_2 (after hostOps0_1 (after hostOps0 W)))))

theorem cells_inBox : (afterCells W (Proc.devRef .tc main_v16) : IVec S8388608 1) = inBox (W (Proc.devRef .tc main_arg0)) := by
  unfold afterCells
  rw [s5_inBox, s4_inBox, s3_inBox, s2_inBox, s1_inBox, s0_inBox]
theorem cells_cell0 : (afterCells W (Proc.devRef .tc main_v25) : IVec S8388608 32) = cell (col0 (W (Proc.devRef .tc main_arg0))) := by
  unfold afterCells
  rw [s5_cell0, s4_cell0, s3_cell0, s2_cell0, s1_cell, s0_raw, s0_div]; rfl
theorem cells_cell1 : (afterCells W (Proc.devRef .tc main_v34) : IVec S8388608 32) = cell (col1 (W (Proc.devRef .tc main_arg0))) := by
  unfold afterCells
  rw [s5_cell1, s4_cell1, s3_cell, s2_raw, s2_div, s1_col1, s0_col1]; rfl
theorem cells_cell2 : (afterCells W (Proc.devRef .tc main_v43) : IVec S8388608 32) = cell (col2 (W (Proc.devRef .tc main_arg0))) := by
  unfold afterCells
  rw [s5_cell, s4_raw, s4_div, s3_col2, s2_col2, s1_col2, s0_col2]; rfl
theorem cells_arg0 : afterCells W (Proc.devRef .tc main_arg0) = W (Proc.devRef .tc main_arg0) := by
  unfold afterCells
  rw [s5_arg0, s4_arg0, s3_arg0, s2_arg0, s1_arg0, s0_arg0]
theorem cells_arg1 : afterCells W (Proc.devRef .tc main_arg1) = W (Proc.devRef .tc main_arg1) := by
  unfold afterCells
  rw [s5_arg1, s4_arg1, s3_arg1, s2_arg1, s1_arg1, s0_arg1]

end Cert.ReferenceIdeal.Host

end
-- ==== Proof.LibNary3.lean ====
/-
  A host operation over a LITERAL family of three operand buffers (a three-piece `stablehlo.concatenate`):
  its result with each operand's contents read at its own buffer, so that the operands' own results can
  go on being rewritten. (The library states this for four operands; the proof is the same.)
-/
import Idealize.ShloMosaic.Lib.StableHlo.Run

noncomputable section

namespace Idealize.ShloMosaic.StableHlo

variable {τ : Topo} {sig : RefSig} {Val : EltTy → Type}
variable {x a b y : Ref sig .tc}

/-- The result buffer of a three-operand operation holds its function of the three operands' contents,
    each taken at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.RefTail.lean ====
/-
  The reference program's last five stretches of host operations, one at a time and then together: from any
  buffer contents `W`, what each stretch leaves in the buffers later stretches read, and which of those it leaves
  alone. Stretch 6 normalises the three cell numbers (a negative one counted from the end of its axis) and sets
  each as a column; stretch 7 joins the columns into the index array, reads the grid's four channels at every
  point's cell, cuts out the three colour channels and masks them with zero outside the box; stretch 8 cuts out
  the density channel, scales it by ten and masks it; stretch 9 is the logistic function of the masked colours;
  stretch 10 clips the masked density below at zero and sets it as a column.
-/
import proofs.«429610_j40518721470753_3_alg».proof.Proof.RefOps
import proofs.«429610_j40518721470753_3_alg».proof.Proof.Spec
import proofs.«429610_j40518721470753_3_alg».proof.Proof.LibNary3
import Idealize.ShloMosaic.Lib.StableHlo.Run

noncomputable section

namespace Cert.ReferenceIdeal.Host

open Cert.ReferenceIdeal Cert.ReferenceIdeal.Gen Idealize.ShloMosaic Idealize.ShloMosaic.TcCoe Idealize.SL.Sem Idealize.ShloMosaic.StableHlo
open Cert.Voxels

variable {F : FTy → Type} [FloatOps F]

/-! ## The two results as functions of the box mask, the three cell numbers and the grid -/

/-- The grid's four channels at the cells `c0 c1 c2` of the points. -/
def valuesAt (c0 c1 c2 : IVec SP 32) (vox : FVec F SG .f32) : FVec F SP4 .f32 :=
  Host.gather cellDims vox
    (concatenate SP3 1
      [⟨SP1, broadcastInDim SP1 ![0] bcast_SP_SP1 (wrapNeg128 c0)⟩,
       ⟨SP1, broadcastInDim SP1 ![0] bcast_SP_SP1 (wrapNeg128 c1)⟩,
       ⟨SP1, broadcastInDim SP1 ![0] bcast_SP_SP1 (wrapNeg128 c2)⟩]
      concatenates_cells)

/-- The colours, masked by `b` with zero. -/
def maskedRgb (b : IVec SP 1) (v : FVec F SP4 .f32) : FVec F SP3 .f32 :=
  select (broadcastInDim SP3 ![0, 1] bcast_SP1_SP3 (broadcastInDim SP1 ![0] bcast_SP_SP1 b))
    (extractStridedSlice SP3 ![0, 0] v slices_rgb)
    (broadcastInDim SP3 ![] bcast_S0_SP3 (id (constant S0 .f32 0x00000000#32)))

/-- The density times ten, masked by `b` with zero. -/
def maskedDens (b : IVec SP 1) (v : FVec F SP4 .f32) : FVec F SP .f32 :=
  select b
    (mulf (shapeCast SP (extractStridedSlice SP1 ![0, 3] v slices_dens) casts_SP1_SP)
      (broadcastInDim SP ![] bcast_S0_SP (constant S0 .f32 0x41200000#32)))
    (broadcastInDim SP ![] bcast_S0_SP (id (constant S0 .f32 0x00000000#32)))

/-- `1 / (1 + e^(−u))`, element by element. -/
def logistic (u : FVec F SP3 .f32) : FVec F SP3 .f32 :=
  Host.divf (broadcastInDim SP3 ![] bcast_S0_SP3 (constant S0 .f32 0x3F800000#32))
    (addf (broadcastInDim SP3 ![] bcast_S0_SP3 (constant S0 .f32 0x3F800000#32)) (Host.exp (Host.negf u)))

/-- A vector clipped below at zero, as a column. -/
def clippedCol (u : FVec F SP .f32) : FVec F SP1 .f32 :=
  broadcastInDim SP1 ![0] bcast_SP_SP1 (maximumf u (broadcastInDim SP ![] bcast_S0_SP (constant S0 .f32 0x00000000#32)))

/-- The reference's colour result is the logistic function of the masked colours at the points' cells. -/
theorem refRgb_eq (X : FVec F SP3 .f32) (vox : FVec F SG .f32) :
    refRgb X vox = logistic (maskedRgb (inBox X) (valuesAt (cell (col0 X)) (cell (col1 X)) (cell (col2 X)) vox)) := rfl

/-- The reference's density result is the masked density at the points' cells, clipped and set as a column. -/
theorem refDens_eq (X : FVec F SP3 .f32) (vox : FVec F SG .f32) :
    refDens X vox = clippedCol (maskedDens (inBox X) (valuesAt (cell (col0 X)) (cell (col1 X)) (cell (col2 X)) vox)) := rfl

variable (W : Valuation τ sig (Elt F))

/-! ## Stretch 6: the cell numbers as columns -/

theorem s6_col0 : (after hostOps6 W (Proc.devRef .tc main_v59) : IVec S8388608x1 32)
    = broadcastInDim SP1 ![0] bcast_SP_SP1 (wrapNeg128 (W (Proc.devRef .tc main_v25))) := by
  after_results; rfl
theorem s6_col1 : (after hostOps6 W (Proc.devRef .tc main_v60) : IVec S8388608x1 32)
    = broadcastInDim SP1 ![0] bcast_SP_SP1 (wrapNeg128 (W (Proc.devRef .tc main_v34))) := by
  after_results; rfl
theorem s6_col2 : (after hostOps6 W (Proc.devRef .tc main_v61) : IVec S8388608x1 32)
    = broadcastInDim SP1 ![0] bcast_SP_SP1 (wrapNeg128 (W (Proc.devRef .tc main_v43))) := by
  after_results; rfl
theorem s6_inBox : after hostOps6 W (Proc.devRef .tc main_v16) = W (Proc.devRef .tc main_v16) := by
  after_results
theorem s6_arg0 : after hostOps6 W (Proc.devRef .tc main_arg0) = W (Proc.devRef .tc main_arg0) := by
  after_results
theorem s6_arg1 : after hostOps6 W (Proc.devRef .tc main_arg1) = W (Proc.devRef .tc main_arg1) := by
  after_results

/-! ## Stretch 7: the grid read at the cells, the colours masked -/

/-- The result of an operation over a literal family of three operands, in the form a single rewriting pass uses. -/
theorem nary3_result' {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- Each operation's result at its own buffer is its function's value, at any other buffer what was there: one pass. -/
local macro "after_results3" : tactic =>
  `(tactic| (simp (disch := decide) only [after_cons, after_nil,
      nullary_result', unary_result', binary_result', ternary_result', nary3_result',
      nullary_result_ne', unary_result_ne', binary_result_ne', ternary_result_ne', nary_result_ne']))

/-- The index array the three columns in `W` make. -/
abbrev idxOf : IVec S8388608x3 32 :=
  concatenate SP3 1 [⟨SP1, W (Proc.devRef .tc main_v59)⟩, ⟨SP1, W (Proc.devRef .tc main_v60)⟩, ⟨SP1, W (Proc.devRef .tc main_v61)⟩] concatenates_cells

set_option maxHeartbeats 2000000 in
theorem s7_vals : (after hostOps7 W (Proc.devRef .tc main_v63) : FVec F S8388608x4 .f32)
    = Host.gather cellDims (W (Proc.devRef .tc main_arg1)) (idxOf W) := by
  after_results3; rfl
set_option maxHeartbeats 2000000 in
theorem s7_rgb : (after hostOps7 W (Proc.devRef .tc main_v66) : FVec F S8388608x3 .f32)
    = maskedRgb (W (Proc.devRef .tc main_v16)) (Host.gather cellDims (W (Proc.devRef .tc main_arg1)) (idxOf W)) := by
  after_results3; rfl
theorem s7_inBox : after hostOps7 W (Proc.devRef .tc main_v16) = W (Proc.devRef .tc main_v16) := by
  after_results3
theorem s7_arg0 : after hostOps7 W (Proc.devRef .tc main_arg0) = W (Proc.devRef .tc main_arg0) := by
  after_results3
theorem s7_arg1 : after hostOps7 W (Proc.devRef .tc main_arg1) = W (Proc.devRef .tc main_arg1) := by
  after_results3

/-! ## Stretch 8: the density scaled and masked -/

set_option maxHeartbeats 2000000 in
theorem s8_dens : (after hostOps8 W (Proc.devRef .tc main_v71) : FVec F S8388608 .f32)
    = maskedDens (W (Proc.devRef .tc main_v16)) (W (Proc.devRef .tc main_v63)) := by
  after_results_simp; rfl
theorem s8_rgb : after hostOps8 W (Proc.devRef .tc main_v66) = W (Proc.devRef .tc main_v66) := by
  after_results_simp
theorem s8_arg0 : after hostOps8 W (Proc.devRef .tc main_arg0) = W (Proc.devRef .tc main_arg0) := by
  after_results_simp
theorem s8_arg1 : after hostOps8 W (Proc.devRef .tc main_arg1) = W (Proc.devRef .tc main_arg1) := by
  after_results_simp

/-! ## Stretch 9: the logistic function of the colours -/

theorem s9_rgb : (after hostOps9 W (Proc.devRef .tc main_v77) : FVec F S8388608x3 .f32) = logistic (W (Proc.devRef .tc main_v66)) := by
  after_results; rfl
theorem s9_dens : after hostOps9 W (Proc.devRef .tc main_v71) = W (Proc.devRef .tc main_v71) := by
  after_results
theorem s9_arg0 : after hostOps9 W (Proc.devRef .tc main_arg0) = W (Proc.devRef .tc main_arg0) := by
  after_results
theorem s9_arg1 : after hostOps9 W (Proc.devRef .tc main_arg1) = W (Proc.devRef .tc main_arg1) := by
  after_results

/-! ## Stretch 10: the density clipped and set as a column -/

set_option maxHeartbeats 2000000 in
theorem s10_dens : (after hostOps10 W (Proc.devRef .tc main_v79) : FVec F S8388608x1 .f32) = clippedCol (W (Proc.devRef .tc main_v71)) := by
  after_results_simp; rfl
theorem s10_rgb : after hostOps10 W (Proc.devRef .tc main_v77) = W (Proc.devRef .tc main_v77) := by
  after_results_simp
theorem s10_arg0 : after hostOps10 W (Proc.devRef .tc main_arg0) = W (Proc.devRef .tc main_arg0) := by
  after_results_simp
theorem s10_arg1 : after hostOps10 W (Proc.devRef .tc main_arg1) = W (Proc.devRef .tc main_arg1) := by
  after_results_simp

/-! ## The five stretches together -/

/-- The buffer contents after the five stretches, from `W`. -/
abbrev afterTail : Valuation τ sig (Elt F) :=
  after hostOps10 (after hostOps9 (after hostOps8 (after hostOps7 (after hostOps6 W))))

theorem tail_rgb : (afterTail W (Proc.devRef .tc main_v77) : FVec F S8388608x3 .f32)
    = logistic (maskedRgb (W (Proc.devRef .tc main_v16))
        (valuesAt (W (Proc.devRef .tc main_v25)) (W (Proc.devRef .tc main_v34)) (W (Proc.devRef .tc main_v43)) (W (Proc.devRef .tc main_arg1)))) := by
  unfold afterTail
  rw [s10_rgb, s9_rgb, s8_rgb, s7_rgb, s6_inBox, s6_arg1]
  unfold idxOf
  rw [s6_col0, s6_col1, s6_col2]; rfl
theorem tail_dens : (afterTail W (Proc.devRef .tc main_v79) : FVec F S8388608x1 .f32)
    = clippedCol (maskedDens (W (Proc.devRef .tc main_v16))
        (valuesAt (W (Proc.devRef .tc main_v25)) (W (Proc.devRef .tc main_v34)) (W (Proc.devRef .tc main_v43)) (W (Proc.devRef .tc main_arg1)))) := by
  unfold afterTail
  rw [s10_dens, s9_dens, s8_dens, s7_inBox, s7_vals, s6_inBox, s6_arg1]
  unfold idxOf
  rw [s6_col0, s6_col1, s6_col2]; rfl
theorem tail_arg0 : afterTail W (Proc.devRef .tc main_arg0) = W (Proc.devRef .tc main_arg0) := by
  unfold afterTail
  rw [s10_arg0, s9_arg0, s8_arg0, s7_arg0, s6_arg0]
theorem tail_arg1 : afterTail W (Proc.devRef .tc main_arg1) = W (Proc.devRef .tc main_arg1) := by
  unfold afterTail
  rw [s10_arg1, s9_arg1, s8_arg1, s7_arg1, s6_arg1]

end Cert.ReferenceIdeal.Host

end
-- ==== Proof.RefRun.lean ====
/-
  The reference program's run. @main is one straight line of host operations on tensor values only, so from any
  memory with zero counters every weakly fair execution of it on the TensorCores terminates, and each buffer ends
  at the fold of the operations' results over its launch contents. Read stretch by stretch, that fold leaves the
  colour result at the logistic function of the grid's colour channels at every point's cell, masked with zero
  outside the box; the density result at the grid's fourth channel there times ten, masked alike and clipped below
  at zero; and the two arguments as they were.
-/
import proofs.«429610_j40518721470753_3_alg».proof.Proof.RefOps
import proofs.«429610_j40518721470753_3_alg».proof.Proof.RefCells
import proofs.«429610_j40518721470753_3_alg».proof.Proof.RefTail
import proofs.«429610_j40518721470753_3_alg».proof.Proof.Spec
import Idealize.ShloMosaic.Lib.StableHlo.Run
import Idealize.ShloMosaic.Lib.Pipeline.Frame

noncomputable section

namespace Cert.ReferenceIdeal.Host

open Cert.ReferenceIdeal Cert.ReferenceIdeal.Gen Idealize.ShloMosaic Idealize.ShloMosaic.TcCoe Idealize.SL.Sem Idealize.ShloMosaic.StableHlo
open Cert.Voxels

variable {F : FTy → Type} [FloatOps F]

/-! ## The values after all of @main's operations, from any contents -/

section Values

variable (W : Valuation τ sig (Elt F))

/-- All of @main's operations are the first six stretches, then the last five. -/
theorem after_allOps : after allOps W = afterTail (afterCells W) := by
  unfold allOps afterTail afterCells
  simp only [after_append]

theorem value_rgb : (after allOps W (Proc.devRef .tc main_v77) : FVec F S8388608x3 .f32)
    = refRgb (W (Proc.devRef .tc main_arg0)) (W (Proc.devRef .tc main_arg1)) := by
  rw [after_allOps, tail_rgb, cells_inBox, cells_cell0, cells_cell1, cells_cell2, cells_arg1, refRgb_eq]
theorem value_dens : (after allOps W (Proc.devRef .tc main_v79) : FVec F S8388608x1 .f32)
    = refDens (W (Proc.devRef .tc main_arg0)) (W (Proc.devRef .tc main_arg1)) := by
  rw [after_allOps, tail_dens, cells_inBox, cells_cell0, cells_cell1, cells_cell2, cells_arg1, refDens_eq]
theorem value_arg0 : after allOps W (Proc.devRef .tc main_arg0) = W (Proc.devRef .tc main_arg0) := by
  rw [after_allOps, tail_arg0, cells_arg0]
theorem value_arg1 : after allOps W (Proc.devRef .tc main_arg1) = W (Proc.devRef .tc main_arg1) := by
  rw [after_allOps, tail_arg1, cells_arg1]

end Values

/-! ## The run -/

/-- The signature scopes no TensorCore buffer, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- On every device, for any float values, from any memory with zero counters: every weakly fair execution of @main
    terminates with the colour result at `refRgb` and the density result at `refDens` of the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = Cert.Voxels.refRgb (m ((c.tc : Thread nD τ).loc main_arg0)) (m ((c.tc : Thread nD τ).loc main_arg1))
      ∧ r.2.mem ((c.tc : Thread nD τ).loc main_v79) = Cert.Voxels.refDens (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v77).trans (value_rgb (launchContents m c)),
      (h c main_v79).trans (value_dens (launchContents m c)),
      (h c main_arg0).trans (value_arg0 (launchContents m c)),
      (h c main_arg1).trans (value_arg1 (launchContents m c))⟩)
    (run_seq scopedRefs_eq scopedSems_eq defs main (fun _ => allOps) main_eq (fun _ => allOps_sub) m ρ (fun _ => allOps_fresh))

end Cert.ReferenceIdeal.Host

end
-- ==== Proof.Index.lean ====
/-
  Two facts about the array the kernel's program gathers for its kernel call (`gathered`), read at one element.

  Per point `n`, both programs compute three cell numbers, each the floored modulus by 128 of a 32-bit word,
  hence in `[0, 128)`.  The kernel's program reads channel `k` of the grid, laid out as a `[4, 128³ + 1]` table
  (channel by flat cell, last column zero), at the flat index `a · 128² + b · 128 + c` of the point's cell numbers
  when the point is in the box, and at `128³` when it is not, through a bounds-checked take.

  * The floored modulus by 128, written as a signed remainder and a sign correction, lies in `[0, 128)`
    (`fmWord_lt`, `cell_lt`): the signed remainder `r` has `−128 < r < 128`, and `128` is added exactly when `r < 0`.
  * The flat index never wraps around (`flat_toNat`: the sum is below `2²¹`), so the start index is always within
    `[0, 128³]`: the normalisation of negative indices leaves it, the range test passes (the fill value is never
    read), and the clamp of the gather leaves it (`take_apply`).
  * The table at column `x · 128² + y · 128 + z` is the grid at `(x, y, z)`, and its last column is zero
    (`table_cell`, `table_last`): a cast of the grid to `[128³, 4]`, transposed, with one column appended.
  * The reference's gather reads the grid at the three cell numbers (`cellValues_apply`): each start component is
    a cell number, unchanged by the normalisation of negative indices and by the clamp to 127.

  Hence `gathered_inside` (in the box the two reads agree) and `gathered_outside` (outside it the kernel reads zero).
-/
import proofs.«429610_j40518721470753_3_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.ReduceAll

noncomputable section

namespace Cert.Voxels

open Idealize.ShloMosaic Idealize.ShloMosaic.ValueIdx
open Idealize.ShloMosaic.StableHlo.Predicate (ofBool_eq_one_iff)

variable {F : FTy → Type} [FloatOps F]

/-- The floored modulus of a word by 128, as the two programs write it. -/
def fmWord (a : BitVec 32) : BitVec 32 :=
  Scalar.select
    (IntOp.andi
      (IntOp.cmpi .ne (IntOp.cmpi .slt (IntOp.remsi .host a 128#32) 0#32) (IntOp.cmpi .slt 128#32 0#32))
      (IntOp.cmpi .ne (IntOp.remsi .host a 128#32) 0#32))
    (IntOp.addi (IntOp.remsi .host a 128#32) 128#32)
    (IntOp.remsi .host a 128#32)

theorem fmWord_lt (a : BitVec 32) : (fmWord a).toNat < 128 := by
  have hnc : ¬ IntOp.SDivCorner a 128#32 := by
    intro h; rcases h with h | ⟨_, h⟩ <;> exact absurd h (by decide)
  have hrem : IntOp.remsi .host a 128#32 = a.srem 128#32 := if_neg hnc
  unfold fmWord
  rw [hrem]
  generalize hr : a.srem 128#32 = r
  have hri : r.toInt = a.toInt.tmod 128 := by rw [← hr, BitVec.toInt_srem]; rfl
  have hlo : -128 < r.toInt := by rw [hri]; exact Int.lt_tmod_of_pos _ (by decide)
  have hhi : r.toInt < 128 := by rw [hri]; exact Int.tmod_lt_of_pos _ (by decide)
  have hcond := BitVec.toInt_eq_toNat_cond r
  have hrn := r.isLt
  have h128 : IntOp.cmpi .slt (128#32 : BitVec 32) 0#32 = 0#1 := by decide
  rw [h128]
  by_cases hneg : r.toInt < 0
  · have hslt : IntOp.cmpi .slt r 0#32 = 1#1 := by
      show BitVec.ofBool (r.slt 0#32) = 1#1
      rw [ofBool_eq_one_iff]
      simp only [BitVec.slt, BitVec.toInt_zero, decide_eq_true_eq]; exact hneg
    have hne : IntOp.cmpi .ne r 0#32 = 1#1 := by
      show BitVec.ofBool (r != 0#32) = 1#1
      rw [ofBool_eq_one_iff, bne_iff_ne]
      intro h; rw [h] at hneg; simp at hneg
    rw [hslt, hne]
    show (if (IntOp.andi (IntOp.cmpi .ne 1#1 0#1) 1#1) = 1 then IntOp.addi r 128#32 else r).toNat < 128
    rw [if_pos (by decide)]
    show (r + 128#32).toNat < 128
    rw [BitVec.toNat_add]
    simp only [BitVec.toNat_ofNat]
    split at hcond <;> omega
  · have hslt : IntOp.cmpi .slt r 0#32 = 0#1 := by
      show BitVec.ofBool (r.slt 0#32) = 0#1
      have : r.slt 0#32 = false := by
        simp only [BitVec.slt, BitVec.toInt_zero, decide_eq_false_iff_not]; exact hneg
      rw [this]; rfl
    rw [hslt]
    show (if (IntOp.andi (IntOp.cmpi .ne 0#1 0#1) (IntOp.cmpi .ne r 0#32)) = 1 then IntOp.addi r 128#32 else r).toNat < 128
    have : IntOp.andi (IntOp.cmpi .ne 0#1 0#1) (IntOp.cmpi .ne r 0#32) = 0#1 := by
      show (0#1 : BitVec 1) &&& _ = 0#1
      exact BitVec.zero_and
    rw [this, if_neg (by decide)]
    split at hcond <;> omega

/-! ## Words -/

/-- A small non-negative word is left alone by the wrap of negative indices. -/
theorem wrap_id (i M : BitVec 32) (h : i.toNat < 2 ^ 31) :
    Scalar.select (IntOp.cmpi .slt i 0#32) (IntOp.addi i M) i = i := by
  have h0 : IntOp.cmpi .slt i 0#32 = 0#1 := by
    refine eq_zero_of_ne_one fun h1 => ?_
    have := (StableHlo.Predicate.slt_iff_toNat h (by decide)).1 h1
    simp at this
  rw [h0]; exact select_zero _ _

/-- A small non-negative word read signed and clamped to a bound it is within is its value. -/
theorem clamp_id (i : BitVec 32) (N : Nat) (h : i.toNat ≤ N) (hN : N < 2 ^ 31) : min i.toInt.toNat N = i.toNat := by
  rw [StableHlo.Predicate.toInt_eq_toNat_of_lt (by omega), Int.toNat_natCast]; omega

/-- A word within `[0, 128³]` passes the range test. -/
theorem range_one (i : BitVec 32) (h : i.toNat ≤ 2097152) :
    IntOp.andi (IntOp.cmpi .sge i 0#32) (IntOp.cmpi .sle i 2097152#32) = 1#1 := by
  have h1 : IntOp.cmpi .sge i 0#32 = 1#1 :=
    (StableHlo.Predicate.sge_iff_toNat (a := i) (b := 0#32) (by omega) (by decide)).2 (by simp)
  have h2 : IntOp.cmpi .sle i 2097152#32 = 1#1 :=
    (StableHlo.Predicate.sle_iff_toNat (a := i) (b := 2097152#32) (by omega) (by decide)).2 (by simpa using h)
  rw [h1, h2]; rfl

/-- Three cell numbers below 128 make a flat index without wrap-around. -/
theorem flat_toNat (a b c : BitVec 32) (ha : a.toNat < 128) (hb : b.toNat < 128) (hc : c.toNat < 128) :
    (IntOp.addi (IntOp.addi (IntOp.muli a 16384#32) (IntOp.muli b 128#32)) c).toNat
      = a.toNat * 16384 + b.toNat * 128 + c.toNat := by
  show ((a * 16384#32 + b * 128#32) + c).toNat = _
  simp only [BitVec.toNat_add, BitVec.toNat_mul, BitVec.toNat_ofNat]
  omega

/-- A left fold by `and` over one-bit words that are all 1, from 1, is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-! ## The index chain read at a point -/

theorem cell_apply (v : FVec F SP .f32) (n : Fin 8388608) : cell v (ix1 n) = fmWord (cellRaw v (ix1 n)) := rfl

theorem wrapNeg_apply (i : IVec SP 32) (n : Fin 8388608) :
    wrapNeg i (ix1 n) = Scalar.select (IntOp.cmpi .slt (i (ix1 n)) 0#32) (IntOp.addi (i (ix1 n)) 2097153#32) (i (ix1 n)) := rfl

theorem flatIdx_apply (X : FVec F SP3 .f32) (n : Fin 8388608) :
    flatIdx X (ix1 n) = Scalar.select (inBox X (ix1 n))
      (IntOp.addi (IntOp.addi (IntOp.muli (cell (col0 X) (ix1 n)) 16384#32) (IntOp.muli (cell (col1 X) (ix1 n)) 128#32)) (cell (col2 X) (ix1 n)))
      2097152#32 := rfl

/-- The start column at row `n` is the normalised start index of point `n`. -/
theorem startCol_apply (i : IVec SP 32) (n : Fin 8388608) (q : Fin 1) : startCol i (ix2 n q) = wrapNeg i (ix1 n) := by
  unfold startCol
  exact broadcastInDim_apply _ _ _ _ _ fun a => match a with | ⟨0, _⟩ => rfl

/-! ## The bounds-checked take -/

/-- A start index within `[0, 128³]` passes the take's range test. -/
theorem inRange_one (i : IVec SP 32) (n : Fin 8388608) (h : (i (ix1 n)).toNat ≤ 2097152) : inRange i (ix1 n) = 1#1 := by
  unfold inRange
  rw [Host.reduce_eq_foldl]
  refine foldl_andi_one _ _ fun j hj => ?_
  have hd : reduces_SP1_SP.drop j = ix1 n := by simpa using (List.mem_filter.1 hj).2
  have hj0 : j 0 = n := by
    have := congrArg (fun q : SP.Idx => (q 0).val) hd
    exact Fin.ext ((Shape.ReducesTo.drop_apply_val_of_eq reduces_SP1_SP j 0 0).symm.trans this)
  obtain ⟨p, q, rfl⟩ : ∃ p q, j = ix2 p q := ⟨_, _, eq_ix2 j⟩
  obtain rfl : p = n := hj0
  show IntOp.andi (IntOp.cmpi .sge (startCol i (ix2 p q)) 0#32) (IntOp.cmpi .sle (startCol i (ix2 p q)) 2097152#32) = 1#1
  rw [startCol_apply, wrapNeg_apply, wrap_id _ _ (by omega)]
  exact range_one _ h

/-- The take's gather at `(k, n)`: row `k` of the table at point `n`'s start index, read signed and clamped to `128³`. -/
theorem take_gather {α : Type} (tab : S4W.Idx → α) (idx : IVec SP1 32) (k : Fin 4) (n : Fin 8388608) :
    Host.gather takeDims tab idx (ix2 k n)
      = tab (ix2 k ⟨min (idx (ix2 n (0 : Fin 1))).toInt.toNat 2097152, by omega⟩) := by
  unfold Host.gather
  congr 1
  funext a
  refine Fin.ext ?_
  match a with
  | ⟨0, _⟩ =>
    show takeDims.start (ix2 k n) idx 0 + takeDims.batchCoord (ix2 k n) 0 + takeDims.offCoord (ix2 k n) 0 = k.val
    have hs : takeDims.start (ix2 k n) idx 0 = 0 := by
      unfold GatherDims.start; exact dif_neg (by decide)
    have ho : takeDims.offCoord (ix2 k n) 0 = k.val := by
      unfold GatherDims.offCoord; rw [dif_pos (by decide)]; rfl
    rw [hs, GatherDims.batchCoord_eq_zero _ _ _ List.not_mem_nil, ho]
    omega
  | ⟨1, _⟩ =>
    show takeDims.start (ix2 k n) idx 1 + takeDims.batchCoord (ix2 k n) 1 + takeDims.offCoord (ix2 k n) 1
      = min (idx (ix2 n (0 : Fin 1))).toInt.toNat 2097152
    rw [GatherDims.batchCoord_eq_zero _ _ _ List.not_mem_nil, GatherDims.offCoord_eq_zero _ _ _ (by decide)]
    simp only [Nat.add_zero]
    unfold GatherDims.start
    rw [dif_pos (show (1 : Fin 2) ∈ takeDims.startIndexMap from by decide)]
    have hsi : takeDims.siIdx (ix2 k n) ⟨List.idxOf (1 : Fin 2) takeDims.startIndexMap,
        List.idxOf_lt_length_iff.2 (by decide)⟩ = ix2 n (0 : Fin 1) := by
      funext b; refine Fin.ext ?_
      match b with
      | ⟨0, _⟩ => rfl
      | ⟨1, _⟩ => rfl
    rw [hsi]
    rfl

/-- THE TAKE at `(k, n)`, for a start index within `[0, 128³]`: row `k` of the table at that column; no fill. -/
theorem take_apply (tab : FVec F S4W .f32) (i : IVec SP 32) (k : Fin 4) (n : Fin 8388608)
    (h : (i (ix1 n)).toNat ≤ 2097152) :
    take tab i (ix2 k n) = tab (ix2 k ⟨(i (ix1 n)).toNat, by omega⟩) := by
  have hr : broadcastInDim S4P ![1] bcast_SP_S4P (inRange i) (ix2 k n) = 1#1 := by
    rw [broadcastInDim_apply ![1] bcast_SP_S4P (inRange i) (ix2 k n) (ix1 n) (fun a => match a with | ⟨0, _⟩ => rfl)]
    exact inRange_one i n h
  unfold take
  rw [select_apply, hr, select_one, take_gather]
  refine congrArg (fun q => tab (ix2 k q)) (Fin.ext ?_)
  show min (startCol i (ix2 n (0 : Fin 1))).toInt.toNat 2097152 = (i (ix1 n)).toNat
  rw [startCol_apply, wrapNeg_apply, wrap_id _ _ (by omega)]
  exact clamp_id _ _ h (by decide)

/-! ## The table -/

/-- The table's column of the cell `(x, y, z)`: the grid's entry there. -/
theorem table_cell (vox : FVec F SG .f32) (k : Fin 4) (x y z : Fin 128) (q : Fin 2097153)
    (hq : q.val = x.val * 16384 + y.val * 128 + z.val) :
    table vox (ix2 k q) = vox (ix4 x y z k) := by
  have hq' : q.val < 2097152 := by omega
  unfold table
  refine (concatenate_pair_apply_left (t := S4W) (s₁ := S4V) (s₂ := S41) (1 : Fin 2) _ _ _ (ix2 k q) (by rfl)
    (ix2 k (⟨q.val, hq'⟩ : Fin 2097152) : S4V.Idx) ?_).trans ?_
  · intro b
    match b with
    | ⟨0, _⟩ => rfl
    | ⟨1, _⟩ => rfl
  rw [transpose_ix2_apply]
  exact shapeCast_apply _ _ _ _ (by
    rw [Shape.rowMajor_val_four, Shape.rowMajor_val_two]
    show ((x.val * 128 + y.val) * 128 + z.val) * 4 + k.val = q.val * 4 + k.val
    omega)

/-- The table's last column is zero. -/
theorem table_last (vox : FVec F SG .f32) (k : Fin 4) (q : Fin 2097153) (hq : q.val = 2097152) :
    table vox (ix2 k q) = constant (F := F) S0 .f32 0x00000000#32 ix0 := by
  unfold table
  refine (concatenate_pair_apply_right (t := S4W) (s₁ := S4V) (s₂ := S41) (1 : Fin 2) _ _ _ (ix2 k q) (by rfl) (by rfl)
    (ix2 k (0 : Fin 1) : S41.Idx) ?_ ?_).trans ?_
  · intro b hb
    match b, hb with
    | ⟨0, _⟩, _ => rfl
    | ⟨1, _⟩, hb => exact (hb rfl).elim
  · show 0 + 2097152 = q.val
    omega
  rfl

/-! ## The reference's read -/

theorem cell_lt (v : FVec F SP .f32) (n : Fin 8388608) : (cell v (ix1 n)).toNat < 128 := by
  rw [cell_apply]; exact fmWord_lt _

theorem wrapNeg128_apply (i : IVec SP 32) (n : Fin 8388608) :
    wrapNeg128 i (ix1 n) = Scalar.select (IntOp.cmpi .slt (i (ix1 n)) 0#32) (IntOp.addi (i (ix1 n)) 128#32) (i (ix1 n)) := rfl

/-- The reference's gather at `(n, k)`: the grid at point `n`'s three start indices, each read signed and clamped to
    127, channel `k`. -/
theorem cell_gather {α : Type} (vox : SG.Idx → α) (idx : IVec SP3 32) (n : Fin 8388608) (k : Fin 4) :
    Host.gather cellDims vox idx (ix2 n k)
      = vox (ix4 (⟨min (idx (ix2 n (0 : Fin 3))).toInt.toNat 127, by omega⟩ : Fin 128)
          (⟨min (idx (ix2 n (1 : Fin 3))).toInt.toNat 127, by omega⟩ : Fin 128)
          (⟨min (idx (ix2 n (2 : Fin 3))).toInt.toNat 127, by omega⟩ : Fin 128) k) := by
  unfold Host.gather
  congr 1
  funext a
  refine Fin.ext ?_
  match a with
  | ⟨0, _⟩ =>
    show cellDims.start (ix2 n k) idx 0 + cellDims.batchCoord (ix2 n k) 0 + cellDims.offCoord (ix2 n k) 0
      = min (idx (ix2 n (0 : Fin 3))).toInt.toNat 127
    rw [GatherDims.batchCoord_eq_zero _ _ _ List.not_mem_nil, GatherDims.offCoord_eq_zero _ _ _ (by decide)]
    simp only [Nat.add_zero]
    unfold GatherDims.start
    rw [dif_pos (show (0 : Fin 4) ∈ cellDims.startIndexMap from by decide)]
    have hsi : cellDims.siIdx (ix2 n k) ⟨List.idxOf (0 : Fin 4) cellDims.startIndexMap,
        List.idxOf_lt_length_iff.2 (by decide)⟩ = ix2 n (0 : Fin 3) := by
      funext b; refine Fin.ext ?_
      match b with
      | ⟨0, _⟩ => rfl
      | ⟨1, _⟩ => rfl
    rw [hsi]
    rfl
  | ⟨1, _⟩ =>
    show cellDims.start (ix2 n k) idx 1 + cellDims.batchCoord (ix2 n k) 1 + cellDims.offCoord (ix2 n k) 1
      = min (idx (ix2 n (1 : Fin 3))).toInt.toNat 127
    rw [GatherDims.batchCoord_eq_zero _ _ _ List.not_mem_nil, GatherDims.offCoord_eq_zero _ _ _ (by decide)]
    simp only [Nat.add_zero]
    unfold GatherDims.start
    rw [dif_pos (show (1 : Fin 4) ∈ cellDims.startIndexMap from by decide)]
    have hsi : cellDims.siIdx (ix2 n k) ⟨List.idxOf (1 : Fin 4) cellDims.startIndexMap,
        List.idxOf_lt_length_iff.2 (by decide)⟩ = ix2 n (1 : Fin 3) := by
      funext b; refine Fin.ext ?_
      match b with
      | ⟨0, _⟩ => rfl
      | ⟨1, _⟩ => rfl
    rw [hsi]
    rfl
  | ⟨2, _⟩ =>
    show cellDims.start (ix2 n k) idx 2 + cellDims.batchCoord (ix2 n k) 2 + cellDims.offCoord (ix2 n k) 2
      = min (idx (ix2 n (2 : Fin 3))).toInt.toNat 127
    rw [GatherDims.batchCoord_eq_zero _ _ _ List.not_mem_nil, GatherDims.offCoord_eq_zero _ _ _ (by decide)]
    simp only [Nat.add_zero]
    unfold GatherDims.start
    rw [dif_pos (show (2 : Fin 4) ∈ cellDims.startIndexMap from by decide)]
    have hsi : cellDims.siIdx (ix2 n k) ⟨List.idxOf (2 : Fin 4) cellDims.startIndexMap,
        List.idxOf_lt_length_iff.2 (by decide)⟩ = ix2 n (2 : Fin 3) := by
      funext b; refine Fin.ext ?_
      match b with
      | ⟨0, _⟩ => rfl
      | ⟨1, _⟩ => rfl
    rw [hsi]
    rfl
  | ⟨3, _⟩ =>
    show cellDims.start (ix2 n k) idx 3 + cellDims.batchCoord (ix2 n k) 3 + cellDims.offCoord (ix2 n k) 3 = k.val
    have hs : cellDims.start (ix2 n k) idx 3 = 0 := by
      unfold GatherDims.start; exact dif_neg (by decide)
    have ho : cellDims.offCoord (ix2 n k) 3 = k.val := by
      unfold GatherDims.offCoord; rw [dif_pos (by decide)]; rfl
    rw [hs, GatherDims.batchCoord_eq_zero _ _ _ List.not_mem_nil, ho]
    omega

/-- The index array's row `n`: the point's three cell numbers, normalised. -/
theorem cellIdx_apply0 (X : FVec F SP3 .f32) (n : Fin 8388608) :
    cellIdx X (ix2 n (0 : Fin 3)) = wrapNeg128 (cell (col0 X)) (ix1 n) := by
  unfold cellIdx
  refine (concatenate_apply_piece (t := SP3) (1 : Fin 2) _ _ (ix2 n (0 : Fin 3)) 0 (by show (0 : Nat) < 3; decide) SP1 _ (by rfl) (by rfl) 0 (by rfl)
    (ix2 n (0 : Fin 1) : SP1.Idx) ?_ (by rfl)).trans ?_
  · intro b hb
    match b, hb with
    | ⟨0, _⟩, _ => rfl
    | ⟨1, _⟩, hb => exact (hb rfl).elim
  exact broadcastInDim_apply _ _ _ _ _ fun a => match a with | ⟨0, _⟩ => rfl

theorem cellIdx_apply1 (X : FVec F SP3 .f32) (n : Fin 8388608) :
    cellIdx X (ix2 n (1 : Fin 3)) = wrapNeg128 (cell (col1 X)) (ix1 n) := by
  unfold cellIdx
  refine (concatenate_apply_piece (t := SP3) (1 : Fin 2) _ _ (ix2 n (1 : Fin 3)) 1 (by show (1 : Nat) < 3; decide) SP1 _ (by rfl) (by rfl) 1 (by rfl)
    (ix2 n (0 : Fin 1) : SP1.Idx) ?_ (by rfl)).trans ?_
  · intro b hb
    match b, hb with
    | ⟨0, _⟩, _ => rfl
    | ⟨1, _⟩, hb => exact (hb rfl).elim
  exact broadcastInDim_apply _ _ _ _ _ fun a => match a with | ⟨0, _⟩ => rfl

theorem cellIdx_apply2 (X : FVec F SP3 .f32) (n : Fin 8388608) :
    cellIdx X (ix2 n (2 : Fin 3)) = wrapNeg128 (cell (col2 X)) (ix1 n) := by
  unfold cellIdx
  refine (concatenate_apply_piece (t := SP3) (1 : Fin 2) _ _ (ix2 n (2 : Fin 3)) 2 (by show (2 : Nat) < 3; decide) SP1 _ (by rfl) (by rfl) 2 (by rfl)
    (ix2 n (0 : Fin 1) : SP1.Idx) ?_ (by rfl)).trans ?_
  · intro b hb
    match b, hb with
    | ⟨0, _⟩, _ => rfl
    | ⟨1, _⟩, hb => exact (hb rfl).elim
  exact broadcastInDim_apply _ _ _ _ _ fun a => match a with | ⟨0, _⟩ => rfl

/-- Two grid indices with equal coordinates. -/
theorem ix4_congr {a a' b b' c c' : Fin 128} (k : Fin 4) (ha : a.val = a'.val) (hb : b.val = b'.val) (hc : c.val = c'.val) :
    (ix4 a b c k : SG.Idx) = ix4 a' b' c' k := by
  rw [Fin.ext ha, Fin.ext hb, Fin.ext hc]

/-- A cell number, normalised, read signed and clamped to 127, is itself. -/
theorem cellStart (v : FVec F SP .f32) (n : Fin 8388608) (w : BitVec 32) (hw : w = wrapNeg128 (cell v) (ix1 n)) :
    min w.toInt.toNat 127 = (cell v (ix1 n)).toNat := by
  have hlt := cell_lt v n
  rw [hw, wrapNeg128_apply, wrap_id _ _ (by omega)]
  exact clamp_id _ _ (by omega) (by decide)

/-- THE REFERENCE'S READ at `(n, k)`: the grid at the point's three cell numbers, channel `k`. -/
theorem cellValues_apply (X : FVec F SP3 .f32) (vox : FVec F SG .f32) (n : Fin 8388608) (k : Fin 4) :
    cellValues X vox (ix2 n k)
      = vox (ix4 (⟨(cell (col0 X) (ix1 n)).toNat, cell_lt _ n⟩ : Fin 128) (⟨(cell (col1 X) (ix1 n)).toNat, cell_lt _ n⟩ : Fin 128)
          (⟨(cell (col2 X) (ix1 n)).toNat, cell_lt _ n⟩ : Fin 128) k) := by
  unfold cellValues
  rw [cell_gather]
  exact congrArg vox (ix4_congr k (cellStart _ n _ (cellIdx_apply0 X n)) (cellStart _ n _ (cellIdx_apply1 X n))
    (cellStart _ n _ (cellIdx_apply2 X n)))

/-! ## The flat index, and the two facts -/

theorem flatIdx_inside (X : FVec F SP3 .f32) (n : Fin 8388608) (h : inBox X (ix1 n) = 1#1) :
    (flatIdx X (ix1 n)).toNat
      = (cell (col0 X) (ix1 n)).toNat * 16384 + (cell (col1 X) (ix1 n)).toNat * 128 + (cell (col2 X) (ix1 n)).toNat := by
  rw [flatIdx_apply, h, select_one]
  exact flat_toNat _ _ _ (cell_lt _ n) (cell_lt _ n) (cell_lt _ n)

theorem flatIdx_outside (X : FVec F SP3 .f32) (n : Fin 8388608) (h : inBox X (ix1 n) = 0#1) :
    flatIdx X (ix1 n) = 2097152#32 := by
  rw [flatIdx_apply, h, select_zero]

/-- Inside the box the kernel's take reads what the reference's gather reads. -/
theorem gathered_inside (X : FVec F SP3 .f32) (vox : FVec F SG .f32) (k : Fin 4) (n : Fin 8388608)
    (h : inBox X (ix1 n) = 1#1) : gathered X vox (ix2 k n) = cellValues X vox (ix2 n k) := by
  have hf := flatIdx_inside X n h
  have h0 := cell_lt (col0 X) n
  have h1 := cell_lt (col1 X) n
  have h2 := cell_lt (col2 X) n
  unfold gathered
  rw [take_apply _ _ k n (by omega), cellValues_apply]
  exact table_cell vox k _ _ _ _ hf

/-- Outside the box the kernel's take reads the table's zero column. -/
theorem gathered_outside (X : FVec F SP3 .f32) (vox : FVec F SG .f32) (k : Fin 4) (n : Fin 8388608)
    (h : inBox X (ix1 n) = 0#1) : gathered X vox (ix2 k n) = constant (F := F) S0 .f32 0x00000000#32 ix0 := by
  have hf := flatIdx_outside X n h
  have hn : (flatIdx X (ix1 n)).toNat = 2097152 := by rw [hf]; rfl
  unfold gathered
  rw [take_apply _ _ k n (by omega)]
  exact table_last vox k _ hn

end Cert.Voxels

end
-- ==== Proof.Bridge.lean ====
/-
  The two programs' results agree at the ideal values, element by element.

  The kernel's colour result at point `n`, channel `c < 3`, is the logistic function of the gathered entry
  `(c, n)`; its density result is `max (g · 10, 0)` of the gathered entry `(3, n)`.  In the box the gathered
  entry is the grid's entry at the point's cell, which is what the reference reads; outside the box it is the
  zero word, which is what the reference's mask selects.  At the ideal values the logistic function is
  `1 / (1 + exp (−u))` written with the host's operations, once the word `0x3F800000` is read as `1`; and
  outside the box the density is `max (0 · 10, 0) = max (0, 0)`.  No finiteness of the inputs is used.
-/
import proofs.«429610_j40518721470753_3_alg».proof.Proof.Index
import proofs.«429610_j40518721470753_3_alg».proof.Proof.Activation
import Idealize.ShloMosaic.PureOps.Ideal
import Idealize.ShloMosaic.Lib.IdealHost

noncomputable section

namespace Cert.Voxels

open Idealize.ShloMosaic Idealize.ShloMosaic.ValueIdx

/-! ## The layout reads, at any float instance -/

section Layout
variable {F : FTy → Type} [FloatOps F]

/-- The kernel's colour result at `(n, c)` is entry `(c, n)` of the call's output. -/
theorem rgbOf_apply (o : FVec F S4P .f32) (n : Fin 8388608) (c : Fin 3) :
    rgbOf o (ix2 n c) = o (ix2 (⟨c.val, by omega⟩ : Fin 4) n) := by
  unfold rgbOf
  rw [slice2_axis1_apply 0 _ slices_rgb n c (⟨c.val, by omega⟩ : Fin 4) (by simp)]
  exact transpose_ix2_apply _ _ _ _

/-- The kernel's density result at `(n, 0)` is entry `(3, n)` of the call's output. -/
theorem densOf_apply (o : FVec F S4P .f32) (n : Fin 8388608) (q : Fin 1) :
    densOf o (ix2 n q) = o (ix2 (3 : Fin 4) n) := by
  unfold densOf
  rw [slice2_axis1_apply 3 _ slices_dens n q (3 : Fin 4) (by show 3 = 3 + q.val; omega)]
  exact transpose_ix2_apply _ _ _ _

/-- The reference's mask over `[points, 3]` at `(n, c)` is the box test of point `n`. -/
theorem mask3_apply (X : FVec F SP3 .f32) (n : Fin 8388608) (c : Fin 3) :
    broadcastInDim SP3 ![0, 1] bcast_SP1_SP3 (broadcastInDim SP1 ![0] bcast_SP_SP1 (inBox X)) (ix2 n c) = inBox X (ix1 n) := by
  rw [broadcastInDim_apply ![0, 1] bcast_SP1_SP3 _ (ix2 n c) (ix2 n (0 : Fin 1))
    (fun a => match a with | ⟨0, _⟩ => rfl | ⟨1, _⟩ => rfl)]
  exact broadcastInDim_apply _ _ _ _ _ fun a => match a with | ⟨0, _⟩ => rfl

/-- The reference's colour channels at `(n, c)`: the gathered cell's channel `c`. -/
theorem rgbSlice_apply (v : FVec F SP4 .f32) (n : Fin 8388608) (c : Fin 3) :
    extractStridedSlice SP3 ![0, 0] v slices_rgb (ix2 n c) = v (ix2 n (⟨c.val, by omega⟩ : Fin 4)) :=
  slice2_axis1_apply 0 v slices_rgb n c _ (by simp)

/-- The reference's density channel at point `n`: the gathered cell's channel 3. -/
theorem densSlice_apply (v : FVec F SP4 .f32) (n : Fin 8388608) :
    shapeCast SP (extractStridedSlice SP1 ![0, 3] v slices_dens) casts_SP1_SP (ix1 n) = v (ix2 n (3 : Fin 4)) := by
  rw [shapeCast_apply _ casts_SP1_SP (ix1 n) (ix2 n (0 : Fin 1)) (by
    rw [Shape.rowMajor_val_two, Shape.rowMajor_val_one]
    show n.val * 1 + 0 = n.val
    omega)]
  exact slice2_axis1_apply 3 v slices_dens n (0 : Fin 1) (3 : Fin 4) rfl

/-- The reference's colour result at `(n, c)`, its operations read at the element. -/
theorem refRgb_apply (X : FVec F SP3 .f32) (vox : FVec F SG .f32) (n : Fin 8388608) (c : Fin 3) :
    refRgb X vox (ix2 n c)
      = FloatOps.hostDivf (FloatOps.ofBits .f32 0x3F800000#32)
          (FloatOps.addf (FloatOps.ofBits .f32 0x3F800000#32)
            (FloatOps.hostUnary .exp (FloatOps.hostNegf
              (Scalar.select (inBox X (ix1 n)) (cellValues X vox (ix2 n (⟨c.val, by omega⟩ : Fin 4)))
                (FloatOps.ofBits .f32 0x00000000#32))))) := by
  have e : refRgb X vox (ix2 n c)
      = FloatOps.hostDivf (FloatOps.ofBits .f32 0x3F800000#32)
          (FloatOps.addf (FloatOps.ofBits .f32 0x3F800000#32)
            (FloatOps.hostUnary .exp (FloatOps.hostNegf
              (Scalar.select
                (broadcastInDim SP3 ![0, 1] bcast_SP1_SP3 (broadcastInDim SP1 ![0] bcast_SP_SP1 (inBox X)) (ix2 n c))
                (extractStridedSlice SP3 ![0, 0] (cellValues X vox) slices_rgb (ix2 n c))
                (FloatOps.ofBits .f32 0x00000000#32))))) := rfl
  rw [e, mask3_apply, rgbSlice_apply]

/-- The reference's density result at `(n, 0)`, its operations read at the element. -/
theorem refDens_apply (X : FVec F SP3 .f32) (vox : FVec F SG .f32) (n : Fin 8388608) (q : Fin 1) :
    refDens X vox (ix2 n q)
      = FloatOps.maximumf
          (Scalar.select (inBox X (ix1 n))
            (FloatOps.mulf (cellValues X vox (ix2 n (3 : Fin 4))) (FloatOps.ofBits .f32 0x41200000#32))
            (FloatOps.ofBits .f32 0x00000000#32))
          (FloatOps.ofBits .f32 0x00000000#32) := by
  unfold refDens
  rw [broadcastInDim_apply ![0] bcast_SP_SP1 _ (ix2 n q) (ix1 n) (fun a => match a with | ⟨0, _⟩ => rfl)]
  have e : ∀ w : FVec F SP .f32,
      maximumf (select (inBox X) (mulf w (broadcastInDim SP ![] bcast_S0_SP (constant S0 .f32 0x41200000#32)))
          (broadcastInDim SP ![] bcast_S0_SP (id (constant S0 .f32 0x00000000#32))))
        (broadcastInDim SP ![] bcast_S0_SP (constant S0 .f32 0x00000000#32)) (ix1 n)
      = FloatOps.maximumf
          (Scalar.select (inBox X (ix1 n)) (FloatOps.mulf (w (ix1 n)) (FloatOps.ofBits .f32 0x41200000#32))
            (FloatOps.ofBits .f32 0x00000000#32))
          (FloatOps.ofBits .f32 0x00000000#32) := fun _ => rfl
  rw [e, densSlice_apply]

end Layout

/-! ## At the ideal values -/

/-- The logistic function is `1 / (1 + exp (−u))` in the host's operations, the ones spelled as words. -/
theorem logistic_host (u : Ideal .f32) :
    FloatOps.logistic u
      = FloatOps.hostDivf (FloatOps.ofBits .f32 0x3F800000#32)
          (FloatOps.addf (FloatOps.ofBits .f32 0x3F800000#32) (FloatOps.hostUnary .exp (FloatOps.hostNegf u))) := by
  rw [Ideal.ofBits_def, Ideal.ofBits_one_f32]
  rfl

/-- The colour results agree. -/
theorem rgb_eq (X : FVec Ideal SP3 .f32) (vox : FVec Ideal SG .f32) :
    rgbOf (fun i : S4P.Idx => actRow (i 0).val (gathered X vox i)) = refRgb X vox := by
  funext i
  obtain ⟨n, c, rfl⟩ : ∃ n c, i = ix2 n c := ⟨_, _, eq_ix2 i⟩
  rw [rgbOf_apply, refRgb_apply]
  show actRow c.val (gathered X vox (ix2 (⟨c.val, _⟩ : Fin 4) n)) = _
  rw [actRow_colour c.isLt, logistic_host]
  rcases BitVec.eq_zero_or_eq_one (inBox X (ix1 n)) with h | h
  · rw [gathered_outside X vox _ n h, h, select_zero]; rfl
  · rw [gathered_inside X vox _ n h, h, select_one]

/-- The density results agree. -/
theorem dens_eq (X : FVec Ideal SP3 .f32) (vox : FVec Ideal SG .f32) :
    densOf (fun i : S4P.Idx => actRow (i 0).val (gathered X vox i)) = refDens X vox := by
  funext i
  obtain ⟨n, q, rfl⟩ : ∃ n q, i = ix2 n q := ⟨_, _, eq_ix2 i⟩
  rw [densOf_apply, refDens_apply]
  show actRow 3 (gathered X vox (ix2 (3 : Fin 4) n)) = _
  rw [actRow_density]
  rcases BitVec.eq_zero_or_eq_one (inBox X (ix1 n)) with h | h
  · rw [gathered_outside X vox _ n h, h, select_zero]
    show max (Ideal.ofBits .f32 0x00000000#32 * Ideal.ofBits .f32 0x41200000#32) (Ideal.ofBits .f32 0x00000000#32)
      = max (Ideal.ofBits .f32 0x00000000#32) (Ideal.ofBits .f32 0x00000000#32)
    rw [Ideal.ofBits_zero_f32, zero_mul]
  · rw [gathered_inside X vox _ n h, h, select_one]

end Cert.Voxels

end
-- ==== Proof.lean ====
/-
  The certificate of the voxel-grid lookup: per point `n` of `X : f32[8388608, 3]`, the grid
  `vox : f32[128, 128, 128, 4]` is read at the cell `(cell x, cell y, cell z)` of the point's coordinates,
  `cell v = (⌊v / 2⁻⁷ + 64⌋ − 1) mod 128`, masked with zero unless `|x|, |y|, |z| < ½`; the colour result is the
  logistic function of the first three channels and the density result `max (10 · u, 0)` of the fourth.

  The reference reads the grid at the three cell numbers and masks afterwards. The kernel's program reads ONE flat
  index `cell x · 128² + cell y · 128 + cell z` — or `128³` outside the box — into the grid laid out as a
  [4, 128³ + 1] table whose last column is zero, so that the mask costs nothing: outside the box it gathers the zero
  the reference masks with. Since each cell number lies in `[0, 128)`, the flat index lies in `[0, 128³]`, the
  bounds-checked take never fills, and the table's entry at the flat index is the grid's at the three cell numbers.
  The pallas_call then applies the two activations row by row over 64 column blocks that tile the [4, points] array,
  and the program transposes the result and cuts the colour columns and the density column.

  At the ideal instance the kernel's logistic IS `1 / (1 + e^(−u))`, the reference's expression; the density of a
  masked point is `max (0 · 10, 0) = max (0, 0)`. No law used needs finite inputs, so the precondition is never opened.
  The idealization rewrote nothing, so `preserves` is `True`.
-/
import proofs.«429610_j40518721470753_3_alg».proof.Defs
import proofs.«429610_j40518721470753_3_alg».proof.Proof.Gen.Kernel.Frame
import proofs.«429610_j40518721470753_3_alg».proof.Proof.Gen.Pre_finite_inputs
import proofs.«429610_j40518721470753_3_alg».proof.Proof.KernelRun
import proofs.«429610_j40518721470753_3_alg».proof.Proof.RefRun
import proofs.«429610_j40518721470753_3_alg».proof.Proof.Bridge

noncomputable section

namespace Cert.Proof

open Idealize.ShloMosaic Idealize.SL.Sem

/-- The word-level kernel program terminates without a fault and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the results dropped. -/
theorem frame_reference : Cert.frame_ReferenceIdeal := fun m ρ _ =>
  (θ_run Cert.ReferenceIdeal.defs _ _).mono (fun _ h c => ⟨(h c).2.2.1, (h c).2.2.2⟩)
    (Cert.ReferenceIdeal.Host.run (F := Ideal) m ρ)

/-- Both programs end with the same two arrays: the kernel's activated gather, transposed and cut, is the
    reference's masked lookup under the two activations. -/
theorem algebraic : Cert.algebraic_KernelIdeal_ReferenceIdeal := by
  intro m ρ m' ρ' _ hagree
  refine ⟨_, _, Cert.KernelIdeal.Act.run (F := Ideal) m ρ, ?_⟩
  refine (θ_run Cert.ReferenceIdeal.defs _ _).mono
    (fun _ h c => ⟨(h c).1.trans ?_, (h c).2.1.trans ?_, (h c).2.2.1, (h c).2.2.2⟩)
    (Cert.ReferenceIdeal.Host.run (F := Ideal) m' ρ')
  · rw [(hagree c).1, (hagree c).2]
    exact (Cert.Voxels.rgb_eq _ _).symm
  · rw [(hagree c).1, (hagree c).2]
    exact (Cert.Voxels.dens_eq _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
